-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v88) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_

variable [Facts]

def fn_part2 {F : FTy → Type} [FloatOps F] (main_arg8 : FVec F S16384x32 .f32) (main_v33 : IVec S_ 1) : IVec S_ 1 :=
  let main_v34 : FVec F S16384x32 .f32 := Host.absf main_arg8
  let main_cst_12 : FVec F S_ .f32 := constant S_ .f32 0x7F800000#32
  let main_v35 : FVec F S16384x32 .f32 := broadcastInDim S16384x32 ![] bcast_S_S16384x32 main_cst_12
  let main_v36 : IVec S16384x32 1 := cmpf .olt main_v34 main_v35
  let main_c_13 : IVec S_ 1 := constantI S_ 1 1#1
  let main_v37 : IVec S_ 1 := (fun x v => Host.reduce IntOp.andi x v reducesTo_S16384x32_S_d0_1 h_S_) main_v36 main_c_13
  let main_v38 : IVec S_ 1 := andi main_v33 main_v37
  main_v38

def fn_part1 {F : FTy → Type} [FloatOps F] (main_arg5 : FVec F S32 .f32) (main_arg6 : FVec F S64x32 .f32) (main_arg7 : FVec F S32 .f32) (main_arg8 : FVec F S16384x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S16384x128 .f32) (main_arg1 : IVec S2x262144 32) (main_arg2 : FVec F S128x64 .f32) (main_arg3 : FVec F S64 .f32) (main_arg4 : FVec F S64x32 .f32) (main_arg5 : FVec F S32 .f32) (main_arg6 : FVec F S64x32 .f32) (main_arg7 : FVec F S32 .f32) (main_arg8 : FVec F S16384x32 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_v13 main_v16
-- ==== Kernel.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S16384x64 : Shape := ⟨2, ![16384, 64]⟩
abbrev S2048x128 : Shape := ⟨2, ![2048, 128]⟩
abbrev S2048x64 : Shape := ⟨2, ![2048, 64]⟩
abbrev S278528x64 : Shape := ⟨2, ![278528, 64]⟩
abbrev S1x64 : Shape := ⟨2, ![1, 64]⟩
abbrev S2048x32 : Shape := ⟨2, ![2048, 32]⟩
abbrev S278528x32 : Shape := ⟨2, ![278528, 32]⟩
abbrev S1x32 : Shape := ⟨2, ![1, 32]⟩
abbrev S16384x16384 : Shape := ⟨2, ![16384, 16384]⟩
abbrev S1024x32 : Shape := ⟨2, ![1024, 32]⟩
abbrev S1024x1024 : Shape := ⟨2, ![1024, 1024]⟩

abbrev nBuf : Space → Nat
  | .hbm => 124
  | .vmem => 21
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S16384x32, .f32⟩
  | .hbm, ⟨9, _⟩ => ⟨S1x262144, .i32⟩
  | .hbm, ⟨10, _⟩ => ⟨S262144, .i32⟩
  | .hbm, ⟨11, _⟩ => ⟨S16384, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S16384, .i32⟩
  | .hbm, ⟨16, _⟩ => ⟨S278528, .i32⟩
  | .hbm, ⟨17, _⟩ => ⟨S_, .f32⟩
  | .hbm, ⟨18, _⟩ => ⟨S278528, .f32⟩
  | .hbm, ⟨19, _⟩ => ⟨S_, .f32⟩
  | .hbm, ⟨20, _⟩ => ⟨S16384, .f32⟩
  | .hbm, ⟨21, _⟩ => ⟨S278528x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S278528, .i32⟩
  | .hbm, ⟨33, _⟩ => ⟨S278528, .i1⟩
  | .hbm, ⟨34, _⟩ => ⟨S_, .i32⟩
  | .hbm, ⟨35, _⟩ => ⟨S278528, .i32⟩
  | .hbm, ⟨36, _⟩ => ⟨S278528, .i32⟩
  | .hbm, ⟨37, _⟩ => ⟨S278528, .i32⟩
  | .hbm, ⟨38, _⟩ => ⟨S278528x1, .i32⟩
  | .hbm, ⟨39, _⟩ => ⟨S278528, .f32⟩
  | .hbm, ⟨40, _⟩ => ⟨S_, .i32⟩
  | .hbm, ⟨41, _⟩ => ⟨S278528, .i32⟩
  | .hbm, ⟨42, _⟩ => ⟨S278528, .i1⟩
  | .hbm, ⟨43, _⟩ => ⟨S_, .i32⟩
  | .hbm, ⟨44, _⟩ => ⟨S278528, .i32⟩
  | .hbm, ⟨45, _⟩ => ⟨S278528, .i32⟩
  | .hbm, ⟨46, _⟩ => ⟨S278528, .i32⟩
  | .hbm, ⟨47, _⟩ => ⟨S278528x1, .i32⟩
  | .hbm, ⟨48, _⟩ => ⟨S278528, .f32⟩
  | .hbm, ⟨49, _⟩ => ⟨S278528, .f32⟩
  | .hbm, ⟨50, _⟩ => ⟨S16384x128, .bf16⟩
  | .hbm, ⟨51, _⟩ => ⟨S128x64, .bf16⟩
  | .hbm, ⟨52, _⟩ => ⟨S16384x64, .f32⟩
  | .hbm, ⟨53, _⟩ => ⟨S278528x1, .f32⟩
  | .hbm, ⟨54, _⟩ => ⟨S_, .i32⟩
  | .hbm, ⟨55, _⟩ => ⟨S278528, .i32⟩
  | .hbm, ⟨56, _⟩ => ⟨S278528, .i1⟩
  | .hbm, ⟨57, _⟩ => ⟨S_, .i32⟩
  | .hbm, ⟨58, _⟩ => ⟨S278528, .i32⟩
  | .hbm, ⟨59, _⟩ => ⟨S278528, .i32⟩
  | .hbm, ⟨60, _⟩ => ⟨S278528, .i32⟩
  | .hbm, ⟨61, _⟩ => ⟨S278528x1, .i32⟩
  | .hbm, ⟨62, _⟩ => ⟨S278528x64, .f32⟩
  | .hbm, ⟨63, _⟩ => ⟨S278528x64, .f32⟩
  | .hbm, ⟨64, _⟩ => ⟨S278528x64, .f32⟩
  | .hbm, ⟨65, _⟩ => ⟨S_, .f32⟩
  | .hbm, ⟨66, _⟩ => ⟨S16384x64, .f32⟩
  | .hbm, ⟨67, _⟩ => ⟨S278528x1, .i32⟩
  | .hbm, ⟨68, _⟩ => ⟨S16384x64, .f32⟩
  | .hbm, ⟨69, _⟩ => ⟨S1x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S16384x64, .bf16⟩
  | .hbm, ⟨76, _⟩ => ⟨S64x32, .bf16⟩
  | .hbm, ⟨77, _⟩ => ⟨S16384x32, .f32⟩
  | .hbm, ⟨78, _⟩ => ⟨S278528x1, .f32⟩
  | .hbm, ⟨79, _⟩ => ⟨S_, .i32⟩
  | .hbm, ⟨80, _⟩ => ⟨S278528, .i32⟩
  | .hbm, ⟨81, _⟩ => ⟨S278528, .i1⟩
  | .hbm, ⟨82, _⟩ => ⟨S_, .i32⟩
  | .hbm, ⟨83, _⟩ => ⟨S278528, .i32⟩
  | .hbm, ⟨84, _⟩ => ⟨S278528, .i32⟩
  | .hbm, ⟨85, _⟩ => ⟨S278528, .i32⟩
  | .hbm, ⟨86, _⟩ => ⟨S278528x1, .i32⟩
  | .hbm, ⟨87, _⟩ => ⟨S278528x32, .f32⟩
  | .hbm, ⟨88, _⟩ => ⟨S278528x32, .f32⟩
  | .hbm, ⟨89, _⟩ => ⟨S278528x32, .f32⟩
  | .hbm, ⟨90, _⟩ => ⟨S_, .f32⟩
  | .hbm, ⟨91, _⟩ => ⟨S16384x32, .f32⟩
  | .hbm, ⟨92, _⟩ => ⟨S278528x1, .i32⟩
  | .hbm, ⟨93, _⟩ => ⟨S16384x32, .f32⟩
  | .hbm, ⟨94, _⟩ => ⟨S1x32, .f32⟩
  | .hbm, ⟨95, _⟩ => ⟨S16384x32, .f32⟩
  | .hbm, ⟨96, _⟩ => ⟨S16384x32, .f32⟩
  | .hbm, ⟨97, _⟩ => ⟨S16384x64, .bf16⟩
  | .hbm, ⟨98, _⟩ => ⟨S64x32, .bf16⟩
  | .hbm, ⟨99, _⟩ => ⟨S16384x32, .f32⟩
  | .hbm, ⟨100, _⟩ => ⟨S278528x1, .f32⟩
  | .hbm, ⟨101, _⟩ => ⟨S_, .i32⟩
  | .hbm, ⟨102, _⟩ => ⟨S278528, .i32⟩
  | .hbm, ⟨103, _⟩ => ⟨S278528, .i1⟩
  | .hbm, ⟨104, _⟩ => ⟨S_, .i32⟩
  | .hbm, ⟨105, _⟩ => ⟨S278528, .i32⟩
  | .hbm, ⟨106, _⟩ => ⟨S278528, .i32⟩
  | .hbm, ⟨107, _⟩ => ⟨S278528, .i32⟩
  | .hbm, ⟨108, _⟩ => ⟨S278528x1, .i32⟩
  | .hbm, ⟨109, _⟩ => ⟨S278528x32, .f32⟩
  | .hbm, ⟨110, _⟩ => ⟨S278528x32, .f32⟩
  | .hbm, ⟨111, _⟩ => ⟨S278528x32, .f32⟩
  | .hbm, ⟨112, _⟩ => ⟨S_, .f32⟩
  | .hbm, ⟨113, _⟩ => ⟨S16384x32, .f32⟩
  | .hbm, ⟨114, _⟩ => ⟨S278528x1, .i32⟩
  | .hbm, ⟨115, _⟩ => ⟨S16384x32, .f32⟩
  | .hbm, ⟨116, _⟩ => ⟨S1x32, .f32⟩
  | .hbm, ⟨117, _⟩ => ⟨S16384x32, .f32⟩
  | .hbm, ⟨118, _⟩ => ⟨S16384x32, .f32⟩
  | .hbm, ⟨119, _⟩ => ⟨S16384x32, .f32⟩
  | .hbm, ⟨120, _⟩ => ⟨S16384x32, .f32⟩
  | .hbm, ⟨121, _⟩ => ⟨S16384x32, .f32⟩
  | .hbm, ⟨122, _⟩ => ⟨S16384x32, .bf16⟩
  | .hbm, ⟨123, _⟩ => ⟨S16384x16384, .f32⟩
  | .local _ .vmem, ⟨0, _⟩ => ⟨S2048x128, .bf16⟩
  | .local _ .vmem, ⟨1, _⟩ => ⟨S2048x128, .bf16⟩
  | .local _ .vmem, ⟨2, _⟩ => ⟨S128x64, .bf16⟩
  | .local _ .vmem, ⟨3, _⟩ => ⟨S2048x64, .f32⟩
  | .local _ .vmem, ⟨4, _⟩ => ⟨S2048x64, .f32⟩
  | .local _ .vmem, ⟨5, _⟩ => ⟨S2048x64, .bf16⟩
  | .local _ .vmem, ⟨6, _⟩ => ⟨S2048x64, .bf16⟩
  | .local _ .vmem, ⟨7, _⟩ => ⟨S64x32, .bf16⟩
  | .local _ .vmem, ⟨8, _⟩ => ⟨S2048x32, .f32⟩
  | .local _ .vmem, ⟨9, _⟩ => ⟨S2048x32, .f32⟩
  | .local _ .vmem, ⟨10, _⟩ => ⟨S2048x64, .bf16⟩
  | .local _ .vmem, ⟨11, _⟩ => ⟨S2048x64, .bf16⟩
  | .local _ .vmem, ⟨12, _⟩ => ⟨S64x32, .bf16⟩
  | .local _ .vmem, ⟨13, _⟩ => ⟨S2048x32, .f32⟩
  | .local _ .vmem, ⟨14, _⟩ => ⟨S2048x32, .f32⟩
  | .local _ .vmem, ⟨15, _⟩ => ⟨S1024x32, .bf16⟩
  | .local _ .vmem, ⟨16, _⟩ => ⟨S1024x32, .bf16⟩
  | .local _ .vmem, ⟨17, _⟩ => ⟨S1024x32, .bf16⟩
  | .local _ .vmem, ⟨18, _⟩ => ⟨S1024x32, .bf16⟩
  | .local _ .vmem, ⟨19, _⟩ => ⟨S1024x1024, .f32⟩
  | .local _ .vmem, ⟨20, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_12 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2048x64_S2048x64_0_0 : ∀ a, (![0, 0] : Fin 2 → Nat) a + S2048x64.size a ≤ S2048x64.size a
  h_S2048x64 : 0 < S2048x64.numel
  bcast_S278528x1_S278528x64_0_1 : S278528x1.BroadcastsInDim S278528x64 (![0, 1] : Fin 2 → Fin S278528x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2048x32_S2048x32_0_0 : ∀ a, (![0, 0] : Fin 2 → Nat) a + S2048x32.size a ≤ S2048x32.size a
  h_S2048x32 : 0 < S2048x32.numel
  bcast_S278528x1_S278528x32_0_1 : S278528x1.BroadcastsInDim S278528x32 (![0, 1] : Fin 2 → Fin S278528x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1024_S1024x1024_0_0 : ∀ a, (![0, 0] : Fin 2 → Nat) a + S1024x1024.size a ≤ S1024x1024.size a
  h_S1024x1024 : 0 < S1024x1024.numel
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S2048x128_S128x64_S2048x64_1_0_0_1_n_n_wf : DotDims.WF S2048x128 S128x64 S2048x64 [1] [0] [0] [1] [] []
  gather_S16384x64_S278528x1_S278528x64_1_0_n_n_0_1_164_wf : GatherDims.WF S16384x64 S278528x1 S278528x64 [1] [0] [] [0] [] 1 ![1, 64]
  scatter_S16384x64_S278528x1_S278528x64_1_0_0_1_wf : ScatterDims.WF S16384x64 S278528x1 S278528x64 [1] [0] [0] 1
  dot_S2048x64_S64x32_S2048x32_1_0_0_1_n_n_wf : DotDims.WF S2048x64 S64x32 S2048x32 [1] [0] [0] [1] [] []
  gather_S16384x32_S278528x1_S278528x32_1_0_n_n_0_1_132_wf : GatherDims.WF S16384x32 S278528x1 S278528x32 [1] [0] [] [0] [] 1 ![1, 32]
  scatter_S16384x32_S278528x1_S278528x32_1_0_0_1_wf : ScatterDims.WF S16384x32 S278528x1 S278528x32 [1] [0] [0] 1
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .bf16 = 32 ∨ (Rect.block (s := S16384x64) S2048x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .bf16 = 32 ∨ (Rect.block (s := S64x32) S64x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S16384x32.size a
  hwx1_2 : ∀ i : grid1.Coords, EltTy.bits .f32 = 32 ∨ (Rect.block (s := S16384x32) S2048x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .bf16 = 32 ∨ (Rect.block (s := S16384x64) S2048x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .bf16 = 32 ∨ (Rect.block (s := S64x32) S64x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S16384x32.size a
  hwx2_2 : ∀ i : grid2.Coords, EltTy.bits .f32 = 32 ∨ (Rect.block (s := S16384x32) S2048x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S16384x32.size a
  hwx3_0 : ∀ i : grid3.Coords, EltTy.bits .bf16 = 32 ∨ (Rect.block (s := S16384x32) S1024x32.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S16384x32.size a
  hwx3_1 : ∀ i : grid3.Coords, EltTy.bits .bf16 = 32 ∨ (Rect.block (s := S16384x32) S1024x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S16384x16384.size a
  hwx3_2 : ∀ i : grid3.Coords, EltTy.bits .f32 = 32 ∨ (Rect.block (s := S16384x16384) S1024x1024.size (cc3_transform_2 i) (hinb3_2 i)).WholeWords (EltTy.packing .f32)

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S16384x64_S278528x1_S278528x64_1_0_n_n_0_1_164 : GatherDims S16384x64 S278528x1 S278528x64 where
  offsetDims := [1]
  collapsedSliceDims := [0]
  operandBatchingDims := []
  startIndicesBatchingDims := []
  startIndexMap := [0]
  indexVectorDim := 1
  sliceSizes := ![1, 64]
  wf := gather_S16384x64_S278528x1_S278528x64_1_0_n_n_0_1_164_wf
def scatter_S16384x64_S278528x1_S278528x64_1_0_0_1 : ScatterDims S16384x64 S278528x1 S278528x64 where
  updateWindowDims := [1]
  insertedWindowDims := [0]
  scatterDimsToOperandDims := [0]
  indexVectorDim := 1
  wf := scatter_S16384x64_S278528x1_S278528x64_1_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def gather_S16384x32_S278528x1_S278528x32_1_0_n_n_0_1_132 : GatherDims S16384x32 S278528x1 S278528x32 where
  offsetDims := [1]
  collapsedSliceDims := [0]
  operandBatchingDims := []
  startIndicesBatchingDims := []
  startIndexMap := [0]
  indexVectorDim := 1
  sliceSizes := ![1, 32]
  wf := gather_S16384x32_S278528x1_S278528x32_1_0_n_n_0_1_132_wf
def scatter_S16384x32_S278528x1_S278528x32_1_0_0_1 : ScatterDims S16384x32 S278528x1 S278528x32 where
  updateWindowDims := [1]
  insertedWindowDims := [0]
  scatterDimsToOperandDims := [0]
  indexVectorDim := 1
  wf := scatter_S16384x32_S278528x1_S278528x32_1_0_0_1_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_v31) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2048x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S16384x64 : Shape := ⟨2, ![16384, 64]⟩
abbrev S278528x64 : Shape := ⟨2, ![278528, 64]⟩
abbrev S1x64 : Shape := ⟨2, ![1, 64]⟩
abbrev S278528x32 : Shape := ⟨2, ![278528, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 126
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S16384x32, .f32⟩
  | .hbm, ⟨9, _⟩ => ⟨S1x262144, .i32⟩
  | .hbm, ⟨10, _⟩ => ⟨S262144, .i32⟩
  | .hbm, ⟨11, _⟩ => ⟨S16384, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S16384, .i32⟩
  | .hbm, ⟨16, _⟩ => ⟨S278528, .i32⟩
  | .hbm, ⟨17, _⟩ => ⟨S_, .f32⟩
  | .hbm, ⟨18, _⟩ => ⟨S278528, .f32⟩
  | .hbm, ⟨19, _⟩ => ⟨S_, .f32⟩
  | .hbm, ⟨20, _⟩ => ⟨S16384, .f32⟩
  | .hbm, ⟨21, _⟩ => ⟨S278528x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S278528, .i32⟩
  | .hbm, ⟨33, _⟩ => ⟨S278528, .i1⟩
  | .hbm, ⟨34, _⟩ => ⟨S_, .i32⟩
  | .hbm, ⟨35, _⟩ => ⟨S278528, .i32⟩
  | .hbm, ⟨36, _⟩ => ⟨S278528, .i32⟩
  | .hbm, ⟨37, _⟩ => ⟨S278528, .i32⟩
  | .hbm, ⟨38, _⟩ => ⟨S278528x1, .i32⟩
  | .hbm, ⟨39, _⟩ => ⟨S278528, .f32⟩
  | .hbm, ⟨40, _⟩ => ⟨S_, .i32⟩
  | .hbm, ⟨41, _⟩ => ⟨S278528, .i32⟩
  | .hbm, ⟨42, _⟩ => ⟨S278528, .i1⟩
  | .hbm, ⟨43, _⟩ => ⟨S_, .i32⟩
  | .hbm, ⟨44, _⟩ => ⟨S278528, .i32⟩
  | .hbm, ⟨45, _⟩ => ⟨S278528, .i32⟩
  | .hbm, ⟨46, _⟩ => ⟨S278528, .i32⟩
  | .hbm, ⟨47, _⟩ => ⟨S278528x1, .i32⟩
  | .hbm, ⟨48, _⟩ => ⟨S278528, .f32⟩
  | .hbm, ⟨49, _⟩ => ⟨S278528, .f32⟩
  | .hbm, ⟨50, _⟩ => ⟨S16384x64, .f32⟩
  | .hbm, ⟨51, _⟩ => ⟨S278528x1, .f32⟩
  | .hbm, ⟨52, _⟩ => ⟨S_, .i32⟩
  | .hbm, ⟨53, _⟩ => ⟨S278528, .i32⟩
  | .hbm, ⟨54, _⟩ => ⟨S278528, .i1⟩
  | .hbm, ⟨55, _⟩ => ⟨S_, .i32⟩
  | .hbm, ⟨56, _⟩ => ⟨S278528, .i32⟩
  | .hbm, ⟨57, _⟩ => ⟨S278528, .i32⟩
  | .hbm, ⟨58, _⟩ => ⟨S278528, .i32⟩
  | .hbm, ⟨59, _⟩ => ⟨S278528x1, .i32⟩
  | .hbm, ⟨60, _⟩ => ⟨S278528x64, .f32⟩
  | .hbm, ⟨61, _⟩ => ⟨S278528x64, .f32⟩
  | .hbm, ⟨62, _⟩ => ⟨S278528x64, .f32⟩
  | .hbm, ⟨63, _⟩ => ⟨S_, .f32⟩
  | .hbm, ⟨64, _⟩ => ⟨S16384x64, .f32⟩
  | .hbm, ⟨65, _⟩ => ⟨S278528x1, .i32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x32, .f32⟩
  | .hbm, ⟨74, _⟩ => ⟨S278528x1, .f32⟩
  | .hbm, ⟨75, _⟩ => ⟨S_, .i32⟩
  | .hbm, ⟨76, _⟩ => ⟨S278528, .i32⟩
  | .hbm, ⟨77, _⟩ => ⟨S278528, .i1⟩
  | .hbm, ⟨78, _⟩ => ⟨S_, .i32⟩
  | .hbm, ⟨79, _⟩ => ⟨S278528, .i32⟩
  | .hbm, ⟨80, _⟩ => ⟨S278528, .i32⟩
  | .hbm, ⟨81, _⟩ => ⟨S278528, .i32⟩
  | .hbm, ⟨82, _⟩ => ⟨S278528x1, .i32⟩
  | .hbm, ⟨83, _⟩ => ⟨S278528x32, .f32⟩
  | .hbm, ⟨84, _⟩ => ⟨S278528x32, .f32⟩
  | .hbm, ⟨85, _⟩ => ⟨S278528x32, .f32⟩
  | .hbm, ⟨86, _⟩ => ⟨S_, .f32⟩
  | .hbm, ⟨87, _⟩ => ⟨S16384x32, .f32⟩
  | .hbm, ⟨88, _⟩ => ⟨S278528x1, .i32⟩
  | .hbm, ⟨89, _⟩ => ⟨S16384x32, .f32⟩
  | .hbm, ⟨90, _⟩ => ⟨S1x32, .f32⟩
  | .hbm, ⟨91, _⟩ => ⟨S16384x32, .f32⟩
  | .hbm, ⟨92, _⟩ => ⟨S16384x32, .f32⟩
  | .hbm, ⟨93, _⟩ => ⟨S16384x32, .f32⟩
  | .hbm, ⟨94, _⟩ => ⟨S278528x1, .f32⟩
  | .hbm, ⟨95, _⟩ => ⟨S_, .i32⟩
  | .hbm, ⟨96, _⟩ => ⟨S278528, .i32⟩
  | .hbm, ⟨97, _⟩ => ⟨S278528, .i1⟩
  | .hbm, ⟨98, _⟩ => ⟨S_, .i32⟩
  | .hbm, ⟨99, _⟩ => ⟨S278528, .i32⟩
  | .hbm, ⟨100, _⟩ => ⟨S278528, .i32⟩
  | .hbm, ⟨101, _⟩ => ⟨S278528, .i32⟩
  | .hbm, ⟨102, _⟩ => ⟨S278528x1, .i32⟩
  | .hbm, ⟨103, _⟩ => ⟨S278528x32, .f32⟩
  | .hbm, ⟨104, _⟩ => ⟨S278528x32, .f32⟩
  | .hbm, ⟨105, _⟩ => ⟨S278528x32, .f32⟩
  | .hbm, ⟨106, _⟩ => ⟨S_, .f32⟩
  | .hbm, ⟨107, _⟩ => ⟨S16384x32, .f32⟩
  | .hbm, ⟨108, _⟩ => ⟨S278528x1, .i32⟩
  | .hbm, ⟨109, _⟩ => ⟨S16384x32, .f32⟩
  | .hbm, ⟨110, _⟩ => ⟨S1x32, .f32⟩
  | .hbm, ⟨111, _⟩ => ⟨S16384x32, .f32⟩
  | .hbm, ⟨112, _⟩ => ⟨S16384x32, .f32⟩
  | .hbm, ⟨113, _⟩ => ⟨S16384x32, .f32⟩
  | .hbm, ⟨114, _⟩ => ⟨S16384x32, .f32⟩
  | .hbm, ⟨115, _⟩ => ⟨S16384x32, .f32⟩
  | .hbm, ⟨116, _⟩ => ⟨S32x16384, .f32⟩
  | .hbm, ⟨117, _⟩ => ⟨S16384x16384, .f32⟩
  | .hbm, ⟨118, _⟩ => ⟨S16384x16384, .f32⟩
  | .hbm, ⟨119, _⟩ => ⟨S16384x16384, .f32⟩
  | .hbm, ⟨120, _⟩ => ⟨S_, .f32⟩
  | .hbm, ⟨121, _⟩ => ⟨S16384x16384, .f32⟩
  | .hbm, ⟨122, _⟩ => ⟨S16384x16384, .f32⟩
  | .hbm, ⟨123, _⟩ => ⟨S_, .f32⟩
  | .hbm, ⟨124, _⟩ => ⟨S16384x16384, .f32⟩
  | .hbm, ⟨125, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x64_0_1 : S278528x1.BroadcastsInDim S278528x64 (![0, 1] : Fin 2 → Fin S278528x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S278528x1_S278528x32_0_1 : S278528x1.BroadcastsInDim S278528x32 (![0, 1] : Fin 2 → Fin S278528x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  bcast_S_S16384x16384 : S_.BroadcastsInDim S16384x16384 (![] : Fin 0 → Fin S16384x16384.rank)
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x128_S128x64_S16384x64_1_0_0_1_n_n_wf : DotDims.WF S16384x128 S128x64 S16384x64 [1] [0] [0] [1] [] []
  gather_S16384x64_S278528x1_S278528x64_1_0_n_n_0_1_164_wf : GatherDims.WF S16384x64 S278528x1 S278528x64 [1] [0] [] [0] [] 1 ![1, 64]
  scatter_S16384x64_S278528x1_S278528x64_1_0_0_1_wf : ScatterDims.WF S16384x64 S278528x1 S278528x64 [1] [0] [0] 1
  dot_S16384x64_S64x32_S16384x32_1_0_0_1_n_n_wf : DotDims.WF S16384x64 S64x32 S16384x32 [1] [0] [0] [1] [] []
  gather_S16384x32_S278528x1_S278528x32_1_0_n_n_0_1_132_wf : GatherDims.WF S16384x32 S278528x1 S278528x32 [1] [0] [] [0] [] 1 ![1, 32]
  scatter_S16384x32_S278528x1_S278528x32_1_0_0_1_wf : ScatterDims.WF S16384x32 S278528x1 S278528x32 [1] [0] [0] 1
  dot_S16384x32_S32x16384_S16384x16384_1_0_0_1_n_n_wf : DotDims.WF S16384x32 S32x16384 S16384x16384 [1] [0] [0] [1] [] []

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S278528x1_S278528x64_1_0_n_n_0_1_164 : GatherDims S16384x64 S278528x1 S278528x64 where
  offsetDims := [1]
  collapsedSliceDims := [0]
  operandBatchingDims := []
  startIndicesBatchingDims := []
  startIndexMap := [0]
  indexVectorDim := 1
  sliceSizes := ![1, 64]
  wf := gather_S16384x64_S278528x1_S278528x64_1_0_n_n_0_1_164_wf
def scatter_S16384x64_S278528x1_S278528x64_1_0_0_1 : ScatterDims S16384x64 S278528x1 S278528x64 where
  updateWindowDims := [1]
  insertedWindowDims := [0]
  scatterDimsToOperandDims := [0]
  indexVectorDim := 1
  wf := scatter_S16384x64_S278528x1_S278528x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S278528x1_S278528x32_1_0_n_n_0_1_132 : GatherDims S16384x32 S278528x1 S278528x32 where
  offsetDims := [1]
  collapsedSliceDims := [0]
  operandBatchingDims := []
  startIndicesBatchingDims := []
  startIndexMap := [0]
  indexVectorDim := 1
  sliceSizes := ![1, 32]
  wf := gather_S16384x32_S278528x1_S278528x32_1_0_n_n_0_1_132_wf
def scatter_S16384x32_S278528x1_S278528x32_1_0_0_1 : ScatterDims S16384x32 S278528x1 S278528x32 where
  updateWindowDims := [1]
  insertedWindowDims := [0]
  scatterDimsToOperandDims := [0]
  indexVectorDim := 1
  wf := scatter_S16384x32_S278528x1_S278528x32_1_0_0_1_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.KRegion0.lean ====
import proofs.«177673_j27152783245647_1_alg».proof.Proof.Gen.Kernel.Launch
import proofs.«177673_j27152783245647_1_alg».proof.Proof.Gen.Kernel.Skeleton
import proofs.«177673_j27152783245647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 0: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body touches: each staging buffer whole. -/
abbrev rA0 : Rect S2048x128 := Rect.unit (s := S2048x128) ![0, 0] S2048x128.size inb_S2048x128_S2048x128_0_0
abbrev rB0 : Rect S128x64 := Rect.unit (s := S128x64) ![0, 0] S128x64.size inb_S128x64_S128x64_0_0
abbrev rO0 : Rect S2048x64 := Rect.unit (s := S2048x64) ![0, 0] S2048x64.size inb_S2048x64_S2048x64_0_0

/-- What the body leaves in the output buffer: its one store, of the product of the two loaded blocks. -/
def prod0 (x : Vec F S2048x128 .bf16) (y : Vec F S128x64 .bf16) : Vec F S2048x64 .f32 :=
  View.canon [⟨rO0, k0_pay1 (View.ld x rA0) (View.ld y rB0)⟩]

/-- The store's rectangle is the whole output block. -/
theorem prod0_cover (p : Vec F S2048x64 .f32) (j : S2048x64.Idx) :
    ∃ pc ∈ ([⟨rO0, p⟩] : List (View.Piece (Elt F) S2048x64 .f32)), j ∈ pc.1.set :=
  View.cover_of_tiled [⟨rO0, p⟩] S2048x64.size (by rfl) j

set_option maxHeartbeats 1000000 in
/-- The body on whole staging buffers: the inputs at `x`, `y`, the output at anything, run to the inputs unchanged
    and the output at the product. -/
theorem body0_run (c : Dev nD) (E : Set ℕ) (i : grid0.Coords)
    (a1 : Memref sig .tc .vmem S2048x128 .bf16) (h1 : a1.IsWhole) (a2 : Memref sig .tc .vmem S128x64 .bf16) (h2 : a2.IsWhole)
    (a3 : Memref sig .tc .vmem S2048x64 .f32) (h3 : a3.IsWhole)
    (x : Vec F S2048x128 .bf16) (y : Vec F S128x64 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod0 x y)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_cover _)

/-- The pipeline's proof data: arrays as the region finds them; after the body each input buffer still at its block, the
    output buffer at the product of the two input blocks; nothing kept between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = prod0 (blk0 V c 0 t) (blk0 V c 1 t) := by dsimp only [dat0]

/-- An input window's current buffer holds its block at every point, whether or not the point fetches it. -/
theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-- The body obligation at every grid point. -/
theorem dat0_body (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_run c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.KRegion1.lean ====
import proofs.«177673_j27152783245647_1_alg».proof.Proof.Gen.Kernel.Launch
import proofs.«177673_j27152783245647_1_alg».proof.Proof.Gen.Kernel.Skeleton
import proofs.«177673_j27152783245647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 1: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body touches: each staging buffer whole. -/
abbrev rA1 : Rect S2048x64 := Rect.unit (s := S2048x64) ![0, 0] S2048x64.size inb_S2048x64_S2048x64_0_0
abbrev rB1 : Rect S64x32 := Rect.unit (s := S64x32) ![0, 0] S64x32.size inb_S64x32_S64x32_0_0
abbrev rO1 : Rect S2048x32 := Rect.unit (s := S2048x32) ![0, 0] S2048x32.size inb_S2048x32_S2048x32_0_0

/-- What the body leaves in the output buffer: its one store, of the product of the two loaded blocks. -/
def prod1 (x : Vec F S2048x64 .bf16) (y : Vec F S64x32 .bf16) : Vec F S2048x32 .f32 :=
  View.canon [⟨rO1, k1_pay1 (View.ld x rA1) (View.ld y rB1)⟩]

/-- The store's rectangle is the whole output block. -/
theorem prod1_cover (p : Vec F S2048x32 .f32) (j : S2048x32.Idx) :
    ∃ pc ∈ ([⟨rO1, p⟩] : List (View.Piece (Elt F) S2048x32 .f32)), j ∈ pc.1.set :=
  View.cover_of_tiled [⟨rO1, p⟩] S2048x32.size (by rfl) j

set_option maxHeartbeats 1000000 in
/-- The body on whole staging buffers: the inputs at `x`, `y`, the output at anything, run to the inputs unchanged
    and the output at the product. -/
theorem body1_run (c : Dev nD) (E : Set ℕ) (i : grid1.Coords)
    (a1 : Memref sig .tc .vmem S2048x64 .bf16) (h1 : a1.IsWhole) (a2 : Memref sig .tc .vmem S64x32 .bf16) (h2 : a2.IsWhole)
    (a3 : Memref sig .tc .vmem S2048x32 .f32) (h3 : a3.IsWhole)
    (x : Vec F S2048x64 .bf16) (y : Vec F S64x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod1 x y)) -∗ K ⟨⟩))
      ⊢ wp frame (wpE (defs₀ (F := F)) Variants.none c none) E (cc1__linear_kernel i a1 h1 a2 h2 a3 h3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_cover _)

/-- The pipeline's proof data: arrays as the region finds them; after the body each input buffer still at its block, the
    output buffer at the product of the two input blocks; nothing kept between points, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = prod1 (blk1 V c 0 t) (blk1 V c 1 t) := by dsimp only [dat1]

/-- An input window's current buffer holds its block at every point, whether or not the point fetches it. -/
theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- The body obligation at every grid point. -/
theorem dat1_body (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)))
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_run c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.KRegion2.lean ====
import proofs.«177673_j27152783245647_1_alg».proof.Proof.Gen.Kernel.Launch
import proofs.«177673_j27152783245647_1_alg».proof.Proof.Gen.Kernel.Skeleton
import proofs.«177673_j27152783245647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 2: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body touches: each staging buffer whole. -/
abbrev rA2 : Rect S2048x64 := Rect.unit (s := S2048x64) ![0, 0] S2048x64.size inb_S2048x64_S2048x64_0_0
abbrev rB2 : Rect S64x32 := Rect.unit (s := S64x32) ![0, 0] S64x32.size inb_S64x32_S64x32_0_0
abbrev rO2 : Rect S2048x32 := Rect.unit (s := S2048x32) ![0, 0] S2048x32.size inb_S2048x32_S2048x32_0_0

/-- What the body leaves in the output buffer: its one store, of the product of the two loaded blocks. -/
def prod2 (x : Vec F S2048x64 .bf16) (y : Vec F S64x32 .bf16) : Vec F S2048x32 .f32 :=
  View.canon [⟨rO2, k2_pay1 (View.ld x rA2) (View.ld y rB2)⟩]

/-- The store's rectangle is the whole output block. -/
theorem prod2_cover (p : Vec F S2048x32 .f32) (j : S2048x32.Idx) :
    ∃ pc ∈ ([⟨rO2, p⟩] : List (View.Piece (Elt F) S2048x32 .f32)), j ∈ pc.1.set :=
  View.cover_of_tiled [⟨rO2, p⟩] S2048x32.size (by rfl) j

set_option maxHeartbeats 1000000 in
/-- The body on whole staging buffers: the inputs at `x`, `y`, the output at anything, run to the inputs unchanged
    and the output at the product. -/
theorem body2_run (c : Dev nD) (E : Set ℕ) (i : grid2.Coords)
    (a1 : Memref sig .tc .vmem S2048x64 .bf16) (h1 : a1.IsWhole) (a2 : Memref sig .tc .vmem S64x32 .bf16) (h2 : a2.IsWhole)
    (a3 : Memref sig .tc .vmem S2048x32 .f32) (h3 : a3.IsWhole)
    (x : Vec F S2048x64 .bf16) (y : Vec F S64x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod2 x y)) -∗ K ⟨⟩))
      ⊢ wp frame (wpE (defs₀ (F := F)) Variants.none c none) E (cc2__linear_kernel i a1 h1 a2 h2 a3 h3) K := by
  simp only [cc2__linear_kernel_eq_skeleton]; unfold cc2__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod2_cover _)

/-- The pipeline's proof data: arrays as the region finds them; after the body each input buffer still at its block, the
    output buffer at the product of the two input blocks; nothing kept between points, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = prod2 (blk2 V c 0 t) (blk2 V c 1 t) := by dsimp only [dat2]

/-- An input window's current buffer holds its block at every point, whether or not the point fetches it. -/
theorem dat2_before0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

/-- The body obligation at every grid point. -/
theorem dat2_body (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_run c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.KRegion3.lean ====
import proofs.«177673_j27152783245647_1_alg».proof.Proof.Gen.Kernel.Launch
import proofs.«177673_j27152783245647_1_alg».proof.Proof.Gen.Kernel.Skeleton
import proofs.«177673_j27152783245647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 3: one tile of the inner-product decode per grid point

The grid is 16 × 16; point (i, j) loads row block i and row block j of ONE array (both input windows read it), forms every
inner product of a row of the first block with a row of the second, applies the logistic function, and stores the
1024 × 1024 tile. -/

section
variable (V : (c : Dev nD) → (b : Ref sig .tc) → Buf (Elt F) ((c : Thread nD τ).loc b))

/-- The block of window `w` at grid point `t`, read off the array the region is entered with. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rectangles the body touches: each staging buffer whole. -/
abbrev rI3 : Rect S1024x32 := Rect.unit (s := S1024x32) ![0, 0] S1024x32.size inb_S1024x32_S1024x32_0_0
abbrev rO3 : Rect S1024x1024 := Rect.unit (s := S1024x1024) ![0, 0] S1024x1024.size inb_S1024x1024_S1024x1024_0_0

/-- What the body leaves in the output buffer: its one store, the logistic of the two blocks' inner products. -/
def tile3 (x : Vec F S1024x32 .bf16) (y : Vec F S1024x32 .bf16) : Vec F S1024x1024 .f32 :=
  View.canon [⟨rO3, k3_pay1 (View.ld x rI3) (View.ld y rI3)⟩]

/-- The store's rectangle is the whole output tile. -/
theorem tile3_cover (p : Vec F S1024x1024 .f32) (j : S1024x1024.Idx) :
    ∃ pc ∈ ([⟨rO3, p⟩] : List (View.Piece (Elt F) S1024x1024 .f32)), j ∈ pc.1.set :=
  View.cover_of_tiled [⟨rO3, p⟩] S1024x1024.size (by rfl) j

set_option maxHeartbeats 1000000 in
/-- The body on whole staging buffers: the inputs at `x`, `y`, the output at anything, run to the inputs unchanged
    and the output at the tile. -/
theorem body3_run (c : Dev nD) (E : Set ℕ) (i : grid3.Coords)
    (a1 : Memref sig .tc .vmem S1024x32 .bf16) (h1 : a1.IsWhole) (a2 : Memref sig .tc .vmem S1024x32 .bf16) (h2 : a2.IsWhole)
    (a3 : Memref sig .tc .vmem S1024x1024 .f32) (h3 : a3.IsWhole)
    (x : Vec F S1024x32 .bf16) (y : Vec F S1024x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (tile3 x y)) -∗ K ⟨⟩))
      ⊢ wp frame (wpE (defs₀ (F := F)) Variants.none c none) E (cc3__decode_kernel i a1 h1 a2 h2 a3 h3) K := by
  simp only [cc3__decode_kernel_eq_skeleton]; unfold cc3__decode_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile3_cover _)

/-- The pipeline's proof data: arrays as the region finds them; after the body each input buffer still at its block, the
    output buffer at the tile of the two input blocks; nothing kept between points, nothing owed. The two input windows
    read one array: each holds one half of it. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => tile3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = tile3 (blk3 V c 0 t) (blk3 V c 1 t) := by dsimp only [dat3]
theorem dat3_share0 (c : Dev nD) : (dat3 V c).share 0 = fullShare.left := rfl
theorem dat3_share1 (c : Dev nD) : (dat3 V c).share 1 = fullShare.right := rfl
theorem dat3_share2 (c : Dev nD) : (dat3 V c).share 2 = fullShare := rfl

/-- An input window's current buffer holds its block at every point, whether or not the point fetches it. -/
theorem dat3_before0 (c : Dev nD) (t : Fin cfg3.N) (d) : (dat3 V c).before 0 t d = blk3 V c 0 t :=
  ((dat3 V c).before_in_eq_fetched 0 rfl (fun _ => rfl) (fun _ _ _ => rfl)
      (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
      (fun t => by rw [dat3_after1]; unfold Dat.blockOf blk3; rw [dat3_A]; try rfl) t d).trans
    (by unfold Dat.fetched Dat.blockOf blk3; rw [dat3_A]; try rfl)

/-- The body obligation at every grid point. -/
theorem dat3_body (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3_run c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.KFold.lean ====
import proofs.«177673_j27152783245647_1_alg».proof.Proof.KRegion0
import proofs.«177673_j27152783245647_1_alg».proof.Proof.KRegion1
import proofs.«177673_j27152783245647_1_alg».proof.Proof.KRegion2
import proofs.«177673_j27152783245647_1_alg».proof.Proof.KRegion3
import proofs.«177673_j27152783245647_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The buffers' contents between the items of the program

Host operations, then a product kernel, three times over, then the decode kernel. The contents of core `c`'s buffers after
each item, as one fold from the launch memory: a host stretch applies its operations; a kernel region replaces its result
array by what its write-backs leave. -/

/-- A valuation read at the TensorCore's references. -/
abbrev atTc (W : Dev nD → Valuation τ sig (Elt F)) : (c : Dev nD) → (b : Ref sig .tc) → Buf (Elt F) ((c : Thread nD τ).loc b) :=
  fun c b => W c b

/-- Before the first product kernel (after the three leading host stretches). -/
abbrev Y3 (c : Dev nD) : Valuation τ sig (Elt F) := Gen.V3 m c
/-- The first product's result array: every row block written back. -/
def res0 (c : Dev nD) : Buf (Elt F) ((c : Thread nD τ).loc main_v33) := (dat0 (atTc (Y3 m)) c).arrAt 2 cfg0.N
abbrev Y4 (c : Dev nD) : Valuation τ sig (Elt F) := Function.update (Y3 m c) main_v33 (res0 m c)
abbrev Y5 (c : Dev nD) : Valuation τ sig (Elt F) := StableHlo.after hostOps1 (Y4 m c)
abbrev Y6 (c : Dev nD) : Valuation τ sig (Elt F) := StableHlo.after hostOps1_1 (Y5 m c)
abbrev Y7 (c : Dev nD) : Valuation τ sig (Elt F) := StableHlo.after hostOps1_2 (Y6 m c)
/-- The second product's result array. -/
def res1 (c : Dev nD) : Buf (Elt F) ((c : Thread nD τ).loc main_v53) := (dat1 (atTc (Y7 m)) c).arrAt 2 cfg1.N
abbrev Y8 (c : Dev nD) : Valuation τ sig (Elt F) := Function.update (Y7 m c) main_v53 (res1 m c)
abbrev Y9 (c : Dev nD) : Valuation τ sig (Elt F) := StableHlo.after hostOps2 (Y8 m c)
/-- The third product's result array. -/
def res2 (c : Dev nD) : Buf (Elt F) ((c : Thread nD τ).loc main_v72) := (dat2 (atTc (Y9 m)) c).arrAt 2 cfg2.N
abbrev Y10 (c : Dev nD) : Valuation τ sig (Elt F) := Function.update (Y9 m c) main_v72 (res2 m c)
abbrev Y11 (c : Dev nD) : Valuation τ sig (Elt F) := StableHlo.after hostOps3 (Y10 m c)
/-- The decode's result array. -/
def res3 (c : Dev nD) : Buf (Elt F) ((c : Thread nD τ).loc main_v93) := (dat3 (atTc (Y11 m)) c).arrAt 2 cfg3.N
abbrev Y12 (c : Dev nD) : Valuation τ sig (Elt F) := Function.update (Y11 m c) main_v93 (res3 m c)

/-- What each kernel region leaves in the buffers it may change, read off the fold. -/
def outs : Gen.Outs (F := F) := fun J r c =>
  match J with
  | 4 => Y4 m c r
  | 8 => Y8 m c r
  | 10 => Y10 m c r
  | 12 => Y12 m c r
  | _ => Gen.V0 m c r

theorem V4_eq (c : Dev nD) : Gen.V4 m (outs m) c = Y4 m c := by
  show Function.update (Gen.V3 m c) main_v33 (Function.update (Y3 m c) main_v33 (res0 m c) main_v33) = _
  rw [Function.update_self]
theorem V7_eq (c : Dev nD) : Gen.V7 m (outs m) c = Y7 m c := by
  show StableHlo.after hostOps1_2 (StableHlo.after hostOps1_1 (StableHlo.after hostOps1 (Gen.V4 m (outs m) c))) = _
  rw [V4_eq]
theorem V8_eq (c : Dev nD) : Gen.V8 m (outs m) c = Y8 m c := by
  show Function.update (Gen.V7 m (outs m) c) main_v53 (Function.update (Y7 m c) main_v53 (res1 m c) main_v53) = _
  rw [Function.update_self, V7_eq]
theorem V9_eq (c : Dev nD) : Gen.V9 m (outs m) c = Y9 m c := by
  show StableHlo.after hostOps2 (Gen.V8 m (outs m) c) = _
  rw [V8_eq]
theorem V10_eq (c : Dev nD) : Gen.V10 m (outs m) c = Y10 m c := by
  show Function.update (Gen.V9 m (outs m) c) main_v72 (Function.update (Y9 m c) main_v72 (res2 m c) main_v72) = _
  rw [Function.update_self, V9_eq]
theorem V11_eq (c : Dev nD) : Gen.V11 m (outs m) c = Y11 m c := by
  show StableHlo.after hostOps3 (Gen.V10 m (outs m) c) = _
  rw [V10_eq]
theorem V12_eq (c : Dev nD) : Gen.V12 m (outs m) c = Y12 m c := by
  show Function.update (Gen.V11 m (outs m) c) main_v93 (Function.update (Y11 m c) main_v93 (res3 m c) main_v93) = _
  rw [Function.update_self, V11_eq]

/-- Every pipeline's proof data, each at the contents its region is entered with. -/
def pdats : (p : Fin 4) → (c : Dev nD) → Dat τ (Elt F) Unit ℕ (UR sig nD τ) ℕ (cfgs p) c
  | ⟨0, _⟩ => fun c => dat0 (atTc (Y3 m)) c
  | ⟨1, _⟩ => fun c => dat1 (atTc (Y7 m)) c
  | ⟨2, _⟩ => fun c => dat2 (atTc (Y9 m)) c
  | ⟨3, _⟩ => fun c => dat3 (atTc (Y11 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev side (c : Dev nD) : sProp 𝕄 := iprop((∃ r, prngReg c r) ∗ ∃ W, owes (c : Thread nD τ) (0 : CellTallies nD τ sig Unit) W)

end Cert.Kernel.Hand

end
-- ==== Proof.KReg0.lean ====
import proofs.«177673_j27152783245647_1_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Product kernel 0 as an item of the program -/

theorem exit0_a0 (c : Dev nD) : (dat0 (atTc (Y3 m)) c).arrAt 0 cfg0.N = (dat0 (atTc (Y3 m)) c).A 0 :=
  (dat0 (atTc (Y3 m)) c).arrAt_in 0 rfl _
theorem exit0_a1 (c : Dev nD) : (dat0 (atTc (Y3 m)) c).arrAt 1 cfg0.N = (dat0 (atTc (Y3 m)) c).A 1 :=
  (dat0 (atTc (Y3 m)) c).arrAt_in 1 rfl _
theorem exit0_b0 (c : Dev nD) : (dat0 (atTc (Y3 m)) c).A 0 = Y3 m c main_v31 := dat0_A (atTc (Y3 m)) c 0
theorem exit0_b1 (c : Dev nD) : (dat0 (atTc (Y3 m)) c).A 1 = Y3 m c main_v32 := dat0_A (atTc (Y3 m)) c 1
theorem exit0_c0 (c : Dev nD) : Y4 m c main_v31 = Y3 m c main_v31 :=
  Function.update_of_ne (StableHlo.devRef_ne_of_ne (by decide)) _ _
theorem exit0_c1 (c : Dev nD) : Y4 m c main_v32 = Y3 m c main_v32 :=
  Function.update_of_ne (StableHlo.devRef_ne_of_ne (by decide)) _ _
theorem exit0_c2 (c : Dev nD) : Y4 m c main_v33 = res0 m c := Function.update_self _ _ _

/-- At the region's exit each of its arrays holds what the fold says: the inputs as entered, the result at its
    write-backs. -/
theorem exit0_arr (c : Dev nD) (w : Fin cfg0.W) :
    (dat0 (atTc (Y3 m)) c).arrAt w cfg0.N = atTc (Y4 m) c (Pipeline.arrRef spec0 w) :=
  match w with
  | ⟨0, _⟩ => (exit0_a0 m c).trans ((exit0_b0 m c).trans (exit0_c0 m c).symm)
  | ⟨1, _⟩ => (exit0_a1 m c).trans ((exit0_b1 m c).trans (exit0_c1 m c).symm)
  | ⟨2, _⟩ => (exit0_c2 m c).symm
/-- Every other buffer is as the region found it. -/
theorem exit0_rest (c : Dev nD) (b : Ref sig .tc) (hb : b ∉ Finset.univ.image (Pipeline.arrRef spec0)) :
    atTc (Y4 m) c b = atTc (Y3 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y3`, left with them at `Y4`. Its three arrays are taken out of
    the unscoped buffers at entry and put back at exit; the generator register passes through the kernel's invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (dat0_body (atTc (Y3 m)) c).loose
  hwaits := Pipeline.hwaits_of_owed_zero _ _ _ _ L lv 0 fun _ _ => rfl
  pre c := iprop(StableHlo.held (c : Thread nD τ) (Pipeline.ucRefs τ sig) (Y3 m c) ∗ side c)
  post c := iprop(StableHlo.held (c : Thread nD τ) (Pipeline.ucRefs τ sig) (Y4 m c) ∗ side c)
  X c := iprop(∃ r, prngReg c r)
  Y c := iprop(∃ r, prngReg c r)
  Z c := Pipeline.unscopedRest (Ix := Unit) (Name := ℕ) (U := UR sig nD τ) (Lvl := ℕ) spec0 c (atTc (Y3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Y3 m) c) (atTc (Y4 m) c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg1.lean ====
import proofs.«177673_j27152783245647_1_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Product kernel 1 as an item of the program -/

theorem exit1_a0 (c : Dev nD) : (dat1 (atTc (Y7 m)) c).arrAt 0 cfg1.N = (dat1 (atTc (Y7 m)) c).A 0 :=
  (dat1 (atTc (Y7 m)) c).arrAt_in 0 rfl _
theorem exit1_a1 (c : Dev nD) : (dat1 (atTc (Y7 m)) c).arrAt 1 cfg1.N = (dat1 (atTc (Y7 m)) c).A 1 :=
  (dat1 (atTc (Y7 m)) c).arrAt_in 1 rfl _
theorem exit1_b0 (c : Dev nD) : (dat1 (atTc (Y7 m)) c).A 0 = Y7 m c main_v51 := dat1_A (atTc (Y7 m)) c 0
theorem exit1_b1 (c : Dev nD) : (dat1 (atTc (Y7 m)) c).A 1 = Y7 m c main_v52 := dat1_A (atTc (Y7 m)) c 1
theorem exit1_c0 (c : Dev nD) : Y8 m c main_v51 = Y7 m c main_v51 :=
  Function.update_of_ne (StableHlo.devRef_ne_of_ne (by decide)) _ _
theorem exit1_c1 (c : Dev nD) : Y8 m c main_v52 = Y7 m c main_v52 :=
  Function.update_of_ne (StableHlo.devRef_ne_of_ne (by decide)) _ _
theorem exit1_c2 (c : Dev nD) : Y8 m c main_v53 = res1 m c := Function.update_self _ _ _

/-- At the region's exit each of its arrays holds what the fold says: the inputs as entered, the result at its
    write-backs. -/
theorem exit1_arr (c : Dev nD) (w : Fin cfg1.W) :
    (dat1 (atTc (Y7 m)) c).arrAt w cfg1.N = atTc (Y8 m) c (Pipeline.arrRef spec1 w) :=
  match w with
  | ⟨0, _⟩ => (exit1_a0 m c).trans ((exit1_b0 m c).trans (exit1_c0 m c).symm)
  | ⟨1, _⟩ => (exit1_a1 m c).trans ((exit1_b1 m c).trans (exit1_c1 m c).symm)
  | ⟨2, _⟩ => (exit1_c2 m c).symm
/-- Every other buffer is as the region found it. -/
theorem exit1_rest (c : Dev nD) (b : Ref sig .tc) (hb : b ∉ Finset.univ.image (Pipeline.arrRef spec1)) :
    atTc (Y8 m) c b = atTc (Y7 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y7`, left with them at `Y8`. Its three arrays are taken out of
    the unscoped buffers at entry and put back at exit; the generator register passes through the kernel's invariant;
    nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (dat1_body (atTc (Y7 m)) c).loose
  hwaits := Pipeline.hwaits_of_owed_zero _ _ _ _ L lv 1 fun _ _ => rfl
  pre c := iprop(StableHlo.held (c : Thread nD τ) (Pipeline.ucRefs τ sig) (Y7 m c) ∗ side c)
  post c := iprop(StableHlo.held (c : Thread nD τ) (Pipeline.ucRefs τ sig) (Y8 m c) ∗ side c)
  X c := iprop(∃ r, prngReg c r)
  Y c := iprop(∃ r, prngReg c r)
  Z c := Pipeline.unscopedRest (Ix := Unit) (Name := ℕ) (U := UR sig nD τ) (Lvl := ℕ) spec1 c (atTc (Y7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Y7 m) c) (atTc (Y8 m) c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
import proofs.«177673_j27152783245647_1_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Product kernel 2 as an item of the program -/

theorem exit2_a0 (c : Dev nD) : (dat2 (atTc (Y9 m)) c).arrAt 0 cfg2.N = (dat2 (atTc (Y9 m)) c).A 0 :=
  (dat2 (atTc (Y9 m)) c).arrAt_in 0 rfl _
theorem exit2_a1 (c : Dev nD) : (dat2 (atTc (Y9 m)) c).arrAt 1 cfg2.N = (dat2 (atTc (Y9 m)) c).A 1 :=
  (dat2 (atTc (Y9 m)) c).arrAt_in 1 rfl _
theorem exit2_b0 (c : Dev nD) : (dat2 (atTc (Y9 m)) c).A 0 = Y9 m c main_v70 := dat2_A (atTc (Y9 m)) c 0
theorem exit2_b1 (c : Dev nD) : (dat2 (atTc (Y9 m)) c).A 1 = Y9 m c main_v71 := dat2_A (atTc (Y9 m)) c 1
theorem exit2_c0 (c : Dev nD) : Y10 m c main_v70 = Y9 m c main_v70 :=
  Function.update_of_ne (StableHlo.devRef_ne_of_ne (by decide)) _ _
theorem exit2_c1 (c : Dev nD) : Y10 m c main_v71 = Y9 m c main_v71 :=
  Function.update_of_ne (StableHlo.devRef_ne_of_ne (by decide)) _ _
theorem exit2_c2 (c : Dev nD) : Y10 m c main_v72 = res2 m c := Function.update_self _ _ _

/-- At the region's exit each of its arrays holds what the fold says: the inputs as entered, the result at its
    write-backs. -/
theorem exit2_arr (c : Dev nD) (w : Fin cfg2.W) :
    (dat2 (atTc (Y9 m)) c).arrAt w cfg2.N = atTc (Y10 m) c (Pipeline.arrRef spec2 w) :=
  match w with
  | ⟨0, _⟩ => (exit2_a0 m c).trans ((exit2_b0 m c).trans (exit2_c0 m c).symm)
  | ⟨1, _⟩ => (exit2_a1 m c).trans ((exit2_b1 m c).trans (exit2_c1 m c).symm)
  | ⟨2, _⟩ => (exit2_c2 m c).symm
/-- Every other buffer is as the region found it. -/
theorem exit2_rest (c : Dev nD) (b : Ref sig .tc) (hb : b ∉ Finset.univ.image (Pipeline.arrRef spec2)) :
    atTc (Y10 m) c b = atTc (Y9 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y9`, left with them at `Y10`. Its three arrays are taken out of
    the unscoped buffers at entry and put back at exit; the generator register passes through the kernel's invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (dat2_body (atTc (Y9 m)) c).loose
  hwaits := Pipeline.hwaits_of_owed_zero _ _ _ _ L lv 2 fun _ _ => rfl
  pre c := iprop(StableHlo.held (c : Thread nD τ) (Pipeline.ucRefs τ sig) (Y9 m c) ∗ side c)
  post c := iprop(StableHlo.held (c : Thread nD τ) (Pipeline.ucRefs τ sig) (Y10 m c) ∗ side c)
  X c := iprop(∃ r, prngReg c r)
  Y c := iprop(∃ r, prngReg c r)
  Z c := Pipeline.unscopedRest (Ix := Unit) (Name := ℕ) (U := UR sig nD τ) (Lvl := ℕ) spec2 c (atTc (Y9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Y9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Y9 m) c) (atTc (Y10 m) c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg3.lean ====
import proofs.«177673_j27152783245647_1_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The decode kernel as an item of the program

Its two input windows read ONE array: at entry that array's buffer is dealt to them by halves; at exit the halves are
joined again. The result array is the third window's alone. -/

theorem exit3_a0 (c : Dev nD) : (dat3 (atTc (Y11 m)) c).arrAt 0 cfg3.N = (dat3 (atTc (Y11 m)) c).A 0 :=
  (dat3 (atTc (Y11 m)) c).arrAt_in 0 rfl _
theorem exit3_a1 (c : Dev nD) : (dat3 (atTc (Y11 m)) c).arrAt 1 cfg3.N = (dat3 (atTc (Y11 m)) c).A 1 :=
  (dat3 (atTc (Y11 m)) c).arrAt_in 1 rfl _
theorem exit3_b0 (c : Dev nD) : (dat3 (atTc (Y11 m)) c).A 0 = Y11 m c main_v92 := dat3_A (atTc (Y11 m)) c 0
theorem exit3_b1 (c : Dev nD) : (dat3 (atTc (Y11 m)) c).A 1 = Y11 m c main_v92 := dat3_A (atTc (Y11 m)) c 1
theorem exit3_c0 (c : Dev nD) : Y12 m c main_v92 = Y11 m c main_v92 :=
  Function.update_of_ne (StableHlo.devRef_ne_of_ne (by decide)) _ _
theorem exit3_c2 (c : Dev nD) : Y12 m c main_v93 = res3 m c := Function.update_self _ _ _
/-- At the region's exit each window's array holds what the fold says. -/
theorem exit3_arr (c : Dev nD) (w : Fin cfg3.W) :
    (dat3 (atTc (Y11 m)) c).arrAt w cfg3.N = atTc (Y12 m) c (Pipeline.arrRef spec3 w) :=
  match w with
  | ⟨0, _⟩ => (exit3_a0 m c).trans ((exit3_b0 m c).trans (exit3_c0 m c).symm)
  | ⟨1, _⟩ => (exit3_a1 m c).trans ((exit3_b1 m c).trans (exit3_c0 m c).symm)
  | ⟨2, _⟩ => (exit3_c2 m c).symm
/-- Every buffer that is no window's array is as the region found it. -/
theorem exit3_rest (c : Dev nD) (b : Ref sig .tc) (hb : b ∉ Finset.univ.image (Pipeline.arrRef spec3)) :
    atTc (Y12 m) c b = atTc (Y11 m) c b :=
  Function.update_of_ne (StableHlo.devRef_ne_of_ne fun e => hb (Finset.mem_image.mpr ⟨2, Finset.mem_univ _, e.symm⟩)) _ _

/-- The buffers behind the decode kernel's windows: the array both inputs read, and the result array. -/
theorem arrRefs3 : Finset.univ.image (Pipeline.arrRef spec3) = {main_v92, main_v93} := by decide

/-- One buffer whole beside another is its two halves beside the other, and back. -/
theorem halves {ℓ ℓ' : Loc nD τ sig} (f : Buf (Elt F) ℓ) (g : Buf (Elt F) ℓ') :
    (iprop((ℓ ↦{fullShare} f) ∗ (ℓ' ↦{fullShare} g)) : sProp 𝕄)
      ⊣⊢ iprop((ℓ ↦{fullShare.left} f) ∗ (ℓ ↦{fullShare.right} f) ∗ (ℓ' ↦{fullShare} g)) := by
  constructor
  · iintro ⟨Hz, Ho⟩
    ihave Hz := (pointsTo_share (PosShare.mem_left_op_right fullShare)).1 $$ Hz
    icases Hz with ⟨Hl, Hr⟩
    isplitl [Hl]; · iexact Hl
    isplitl [Hr]; · iexact Hr
    iexact Ho
  · iintro ⟨Hl, Hr, Ho⟩
    isplitl [Hl Hr]
    · iapply (pointsTo_share (PosShare.mem_left_op_right fullShare)).2
      isplitl [Hl] <;> iassumption
    iexact Ho

section
variable (V : (c : Dev nD) → (b : Ref sig .tc) → Buf (Elt F) ((c : Thread nD τ).loc b))

/-- The three windows' arrays, each window's array a whole buffer. -/
theorem arrays3_eq (c : Dev nD) (G : (b : Ref sig .tc) → Buf (Elt F) ((c : Thread nD τ).loc b)) :
    (dat3 V c).arrays (fun w => G (Pipeline.arrRef spec3 w))
      = bigSep Finset.univ fun w : Fin cfg3.W =>
          (((c : Thread nD τ).loc (Pipeline.arrRef spec3 w)) ↦{(dat3 V c).share w} G (Pipeline.arrRef spec3 w) : sProp 𝕄) := by
  unfold Pipeline.Dat.arrays
  exact bigSep_congr fun w _ => by rw [(arr_whole3 w).set_eq_univ]

/-- The two buffers whole are the three windows' arrays (the shared one by halves), and back. -/
theorem arrays3_bufs (c : Dev nD) (G : (b : Ref sig .tc) → Buf (Elt F) ((c : Thread nD τ).loc b)) :
    (Pipeline.arrBufs (Ix := Unit) (Name := ℕ) (U := UR sig nD τ) (Lvl := ℕ) spec3 c G : sProp 𝕄)
      ⊣⊢ (dat3 V c).arrays (fun w => G (Pipeline.arrRef spec3 w)) := by
  rw [arrays3_eq]
  unfold Pipeline.arrBufs
  rw [arrRefs3, bigSep_insert (by decide), bigSep_singleton, bigSep_W3, dat3_share0, dat3_share1, dat3_share2]
  exact halves (G main_v92) (G main_v93)
end

set_option backward.isDefEq.respectTransparency.types false in
/-- The region: entered with every unscoped buffer at `Y11`, left with them at `Y12`. The two buffers behind its windows
    are taken out of the unscoped buffers at entry (the shared one dealt by halves) and put back at exit; the generator
    register passes through the kernel's invariant; nothing is owed and the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (dat3_body (atTc (Y11 m)) c).loose
  hwaits := Pipeline.hwaits_of_owed_zero _ _ _ _ L lv 3 fun _ _ => rfl
  pre c := iprop(StableHlo.held (c : Thread nD τ) (Pipeline.ucRefs τ sig) (Y11 m c) ∗ side c)
  post c := iprop(StableHlo.held (c : Thread nD τ) (Pipeline.ucRefs τ sig) (Y12 m c) ∗ side c)
  X c := iprop(∃ r, prngReg c r)
  Y c := iprop(∃ r, prngReg c r)
  Z c := Pipeline.unscopedRest (Ix := Unit) (Name := ℕ) (U := UR sig nD τ) (Lvl := ℕ) spec3 c (atTc (Y11 m) c)
  hentry c := by
    rw [Pipeline.ownSems0_none]
    have hsp := Pipeline.unscopedBufs_split₀ (Ix := Unit) (Name := ℕ) (U := UR sig nD τ) (Lvl := ℕ) cfgs (3 : Fin 4) winFacts₀3.arr_unscoped c (atTc (Y11 m) c)
    rw [Pipeline.unscopedBufs_held] at hsp
    have hsplit : (StableHlo.held (c : Thread nD τ) (Pipeline.ucRefs τ sig) (Y11 m c) : sProp 𝕄)
        ⊢ iprop((dat3 (atTc (Y11 m)) c).arrays (fun w => atTc (Y11 m) c (Pipeline.arrRef spec3 w))
            ∗ Pipeline.unscopedRest (Ix := Unit) (Name := ℕ) (U := UR sig nD τ) (Lvl := ℕ) spec3 c (atTc (Y11 m) c)) :=
      (Entails.of_eq hsp).trans (sep_mono (arrays3_bufs (atTc (Y11 m)) c (atTc (Y11 m) c)).1 .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) cfgs (3 : Fin 4) winFacts₀3.arr_unscoped c (atTc (Y12 m) c)
    rw [Pipeline.unscopedBufs_held] at hsp
    have harr : ((dat3 (atTc (Y11 m)) c).arrAt · cfg3.N) = fun w => atTc (Y12 m) c (Pipeline.arrRef spec3 w) :=
      funext fun w => exit3_arr m c w
    have hrest : (Pipeline.unscopedRest (Ix := Unit) (Name := ℕ) (U := UR sig nD τ) (Lvl := ℕ) spec3 c (atTc (Y11 m) c) : sProp 𝕄)
        = Pipeline.unscopedRest spec3 c (atTc (Y12 m) c) := by
      unfold Pipeline.unscopedRest
      exact bigSep_congr fun b hb => by rw [exit3_rest m c b (Finset.mem_sdiff.mp hb).2]
    have hjoin : iprop((pdats m 3 c).arrays ((pdats m 3 c).arrAt · cfg3.N)
          ∗ Pipeline.unscopedRest (Ix := Unit) (Name := ℕ) (U := UR sig nD τ) (Lvl := ℕ) spec3 c (atTc (Y11 m) c))
        ⊢ (StableHlo.held (c : Thread nD τ) (Pipeline.ucRefs τ sig) (Y12 m c) : sProp 𝕄) := by
      show iprop((dat3 (atTc (Y11 m)) c).arrays ((dat3 (atTc (Y11 m)) c).arrAt · cfg3.N)
          ∗ Pipeline.unscopedRest (Ix := Unit) (Name := ℕ) (U := UR sig nD τ) (Lvl := ℕ) spec3 c (atTc (Y11 m) c)) ⊢ _
      rw [harr, hrest]
      exact (sep_mono (arrays3_bufs (atTc (Y11 m)) c (atTc (Y12 m) c)).2 .rfl).trans (Entails.of_eq hsp.symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KAssemble.lean ====
import proofs.«177673_j27152783245647_1_alg».proof.Proof.KReg0
import proofs.«177673_j27152783245647_1_alg».proof.Proof.KReg1
import proofs.«177673_j27152783245647_1_alg».proof.Proof.KReg2
import proofs.«177673_j27152783245647_1_alg».proof.Proof.KReg3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The program's run: the four kernel regions threaded through the host stretches -/

variable (ρ : Dev nD → PrngReg)

/-- The launch element of the pipelines' ghost state. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core beside its buffers makes the state that rides along: the generator register, and
    nothing owed. -/
theorem launch_side :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => side (F := F) c) : sProp 𝕄) := by
  have hc : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ (side (F := F) c : sProp 𝕄) := fun c => by
    iintro ⟨-, HO, -, Hp, -⟩
    isplitl [Hp]; · iexists _; iexact Hp
    iexists ∅; iexact HO
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => side (F := F) c) : sProp 𝕄) :=
    bigSep_mono fun c _ => hc c
  iintro ⟨H, -⟩
  imodintro
  iapply h
  iexact H

/-- THE FRAME: every weakly fair execution of the program from memory `m` terminates, nothing faulting, and the nine
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () 𝒱₀ L lv (fun _ _ => rfl) ρ (outs m) (pdats m) 0 (fun _ => BI.emp)
    (initOf (Pipeline.cells cfgs cellOf_inj) (Pipeline.launchToks cfgs cellOf_inj)) launch_own
    (fun _ c => side c) (launch_side ρ) (fun c => by iintro ⟨-, HO⟩; iexact HO)
    (reg0 m) (fun c => .rfl) (fun c => by rw [V4_eq]; exact .rfl)
    (reg1 m) (fun c => by rw [V7_eq]; exact .rfl) (fun c => by rw [V8_eq]; exact .rfl)
    (reg2 m) (fun c => by rw [V9_eq]; exact .rfl) (fun c => by rw [V10_eq]; exact .rfl)
    (reg3 m) (fun c => by rw [V11_eq]; exact .rfl) (fun c => by rw [V12_eq]; exact .rfl)

end Cert.Kernel.Hand

end
-- ==== Proof.Region0.lean ====
import proofs.«177673_j27152783245647_1_alg».proof.Proof.Gen.KernelIdeal.Launch
import proofs.«177673_j27152783245647_1_alg».proof.Proof.Gen.KernelIdeal.Skeleton
import proofs.«177673_j27152783245647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 0: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body touches: each staging buffer whole. -/
abbrev rA0 : Rect S2048x128 := Rect.unit (s := S2048x128) ![0, 0] S2048x128.size inb_S2048x128_S2048x128_0_0
abbrev rB0 : Rect S128x64 := Rect.unit (s := S128x64) ![0, 0] S128x64.size inb_S128x64_S128x64_0_0
abbrev rO0 : Rect S2048x64 := Rect.unit (s := S2048x64) ![0, 0] S2048x64.size inb_S2048x64_S2048x64_0_0

/-- What the body leaves in the output buffer: its one store, of the product of the two loaded blocks. -/
def prod0 (x : Vec F S2048x128 .bf16) (y : Vec F S128x64 .bf16) : Vec F S2048x64 .f32 :=
  View.canon [⟨rO0, k0_pay1 (View.ld x rA0) (View.ld y rB0)⟩]

/-- The store's rectangle is the whole output block. -/
theorem prod0_cover (p : Vec F S2048x64 .f32) (j : S2048x64.Idx) :
    ∃ pc ∈ ([⟨rO0, p⟩] : List (View.Piece (Elt F) S2048x64 .f32)), j ∈ pc.1.set :=
  View.cover_of_tiled [⟨rO0, p⟩] S2048x64.size (by rfl) j

set_option maxHeartbeats 1000000 in
/-- The body on whole staging buffers: the inputs at `x`, `y`, the output at anything, run to the inputs unchanged
    and the output at the product. -/
theorem body0_run (c : Dev nD) (E : Set ℕ) (i : grid0.Coords)
    (a1 : Memref sig .tc .vmem S2048x128 .bf16) (h1 : a1.IsWhole) (a2 : Memref sig .tc .vmem S128x64 .bf16) (h2 : a2.IsWhole)
    (a3 : Memref sig .tc .vmem S2048x64 .f32) (h3 : a3.IsWhole)
    (x : Vec F S2048x128 .bf16) (y : Vec F S128x64 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod0 x y)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_cover _)

/-- The pipeline's proof data: arrays as the region finds them; after the body each input buffer still at its block, the
    output buffer at the product of the two input blocks; nothing kept between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = prod0 (blk0 V c 0 t) (blk0 V c 1 t) := by dsimp only [dat0]

/-- An input window's current buffer holds its block at every point, whether or not the point fetches it. -/
theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-- The body obligation at every grid point. -/
theorem dat0_body (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_run c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.Region1.lean ====
import proofs.«177673_j27152783245647_1_alg».proof.Proof.Gen.KernelIdeal.Launch
import proofs.«177673_j27152783245647_1_alg».proof.Proof.Gen.KernelIdeal.Skeleton
import proofs.«177673_j27152783245647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 1: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body touches: each staging buffer whole. -/
abbrev rA1 : Rect S2048x64 := Rect.unit (s := S2048x64) ![0, 0] S2048x64.size inb_S2048x64_S2048x64_0_0
abbrev rB1 : Rect S64x32 := Rect.unit (s := S64x32) ![0, 0] S64x32.size inb_S64x32_S64x32_0_0
abbrev rO1 : Rect S2048x32 := Rect.unit (s := S2048x32) ![0, 0] S2048x32.size inb_S2048x32_S2048x32_0_0

/-- What the body leaves in the output buffer: its one store, of the product of the two loaded blocks. -/
def prod1 (x : Vec F S2048x64 .bf16) (y : Vec F S64x32 .bf16) : Vec F S2048x32 .f32 :=
  View.canon [⟨rO1, k1_pay1 (View.ld x rA1) (View.ld y rB1)⟩]

/-- The store's rectangle is the whole output block. -/
theorem prod1_cover (p : Vec F S2048x32 .f32) (j : S2048x32.Idx) :
    ∃ pc ∈ ([⟨rO1, p⟩] : List (View.Piece (Elt F) S2048x32 .f32)), j ∈ pc.1.set :=
  View.cover_of_tiled [⟨rO1, p⟩] S2048x32.size (by rfl) j

set_option maxHeartbeats 1000000 in
/-- The body on whole staging buffers: the inputs at `x`, `y`, the output at anything, run to the inputs unchanged
    and the output at the product. -/
theorem body1_run (c : Dev nD) (E : Set ℕ) (i : grid1.Coords)
    (a1 : Memref sig .tc .vmem S2048x64 .bf16) (h1 : a1.IsWhole) (a2 : Memref sig .tc .vmem S64x32 .bf16) (h2 : a2.IsWhole)
    (a3 : Memref sig .tc .vmem S2048x32 .f32) (h3 : a3.IsWhole)
    (x : Vec F S2048x64 .bf16) (y : Vec F S64x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod1 x y)) -∗ K ⟨⟩))
      ⊢ wp frame (wpE (defs₀ (F := F)) Variants.none c none) E (cc1__linear_kernel i a1 h1 a2 h2 a3 h3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_cover _)

/-- The pipeline's proof data: arrays as the region finds them; after the body each input buffer still at its block, the
    output buffer at the product of the two input blocks; nothing kept between points, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = prod1 (blk1 V c 0 t) (blk1 V c 1 t) := by dsimp only [dat1]

/-- An input window's current buffer holds its block at every point, whether or not the point fetches it. -/
theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- The body obligation at every grid point. -/
theorem dat1_body (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)))
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_run c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.Region2.lean ====
import proofs.«177673_j27152783245647_1_alg».proof.Proof.Gen.KernelIdeal.Launch
import proofs.«177673_j27152783245647_1_alg».proof.Proof.Gen.KernelIdeal.Skeleton
import proofs.«177673_j27152783245647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 2: one row block of a dense product per grid point

The grid walks the row blocks of the left operand; the right operand is one block, fetched once; each point stores the
product of its two input blocks over the whole output block. -/

section
variable (V : (c : Dev nD) → (b : Ref sig .tc) → Buf (Elt F) ((c : Thread nD τ).loc b))

/-- The block of window `w` at grid point `t`, read off the array the region is entered with. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body touches: each staging buffer whole. -/
abbrev rA2 : Rect S2048x64 := Rect.unit (s := S2048x64) ![0, 0] S2048x64.size inb_S2048x64_S2048x64_0_0
abbrev rB2 : Rect S64x32 := Rect.unit (s := S64x32) ![0, 0] S64x32.size inb_S64x32_S64x32_0_0
abbrev rO2 : Rect S2048x32 := Rect.unit (s := S2048x32) ![0, 0] S2048x32.size inb_S2048x32_S2048x32_0_0

/-- What the body leaves in the output buffer: its one store, of the product of the two loaded blocks. -/
def prod2 (x : Vec F S2048x64 .bf16) (y : Vec F S64x32 .bf16) : Vec F S2048x32 .f32 :=
  View.canon [⟨rO2, k2_pay1 (View.ld x rA2) (View.ld y rB2)⟩]

/-- The store's rectangle is the whole output block. -/
theorem prod2_cover (p : Vec F S2048x32 .f32) (j : S2048x32.Idx) :
    ∃ pc ∈ ([⟨rO2, p⟩] : List (View.Piece (Elt F) S2048x32 .f32)), j ∈ pc.1.set :=
  View.cover_of_tiled [⟨rO2, p⟩] S2048x32.size (by rfl) j

set_option maxHeartbeats 1000000 in
/-- The body on whole staging buffers: the inputs at `x`, `y`, the output at anything, run to the inputs unchanged
    and the output at the product. -/
theorem body2_run (c : Dev nD) (E : Set ℕ) (i : grid2.Coords)
    (a1 : Memref sig .tc .vmem S2048x64 .bf16) (h1 : a1.IsWhole) (a2 : Memref sig .tc .vmem S64x32 .bf16) (h2 : a2.IsWhole)
    (a3 : Memref sig .tc .vmem S2048x32 .f32) (h3 : a3.IsWhole)
    (x : Vec F S2048x64 .bf16) (y : Vec F S64x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (prod2 x y)) -∗ K ⟨⟩))
      ⊢ wp frame (wpE (defs₀ (F := F)) Variants.none c none) E (cc2__linear_kernel i a1 h1 a2 h2 a3 h3) K := by
  simp only [cc2__linear_kernel_eq_skeleton]; unfold cc2__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod2_cover _)

/-- The pipeline's proof data: arrays as the region finds them; after the body each input buffer still at its block, the
    output buffer at the product of the two input blocks; nothing kept between points, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = prod2 (blk2 V c 0 t) (blk2 V c 1 t) := by dsimp only [dat2]

/-- An input window's current buffer holds its block at every point, whether or not the point fetches it. -/
theorem dat2_before0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

/-- The body obligation at every grid point. -/
theorem dat2_body (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_run c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.Region3.lean ====
import proofs.«177673_j27152783245647_1_alg».proof.Proof.Gen.KernelIdeal.Launch
import proofs.«177673_j27152783245647_1_alg».proof.Proof.Gen.KernelIdeal.Skeleton
import proofs.«177673_j27152783245647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 3: one tile of the inner-product decode per grid point

The grid is 16 × 16; point (i, j) loads row block i and row block j of ONE array (both input windows read it), forms every
inner product of a row of the first block with a row of the second, applies the logistic function, and stores the
1024 × 1024 tile. -/

section
variable (V : (c : Dev nD) → (b : Ref sig .tc) → Buf (Elt F) ((c : Thread nD τ).loc b))

/-- The block of window `w` at grid point `t`, read off the array the region is entered with. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rectangles the body touches: each staging buffer whole. -/
abbrev rI3 : Rect S1024x32 := Rect.unit (s := S1024x32) ![0, 0] S1024x32.size inb_S1024x32_S1024x32_0_0
abbrev rO3 : Rect S1024x1024 := Rect.unit (s := S1024x1024) ![0, 0] S1024x1024.size inb_S1024x1024_S1024x1024_0_0

/-- What the body leaves in the output buffer: its one store, the logistic of the two blocks' inner products. -/
def tile3 (x : Vec F S1024x32 .bf16) (y : Vec F S1024x32 .bf16) : Vec F S1024x1024 .f32 :=
  View.canon [⟨rO3, k3_pay1 (View.ld x rI3) (View.ld y rI3)⟩]

/-- The store's rectangle is the whole output tile. -/
theorem tile3_cover (p : Vec F S1024x1024 .f32) (j : S1024x1024.Idx) :
    ∃ pc ∈ ([⟨rO3, p⟩] : List (View.Piece (Elt F) S1024x1024 .f32)), j ∈ pc.1.set :=
  View.cover_of_tiled [⟨rO3, p⟩] S1024x1024.size (by rfl) j

set_option maxHeartbeats 1000000 in
/-- The body on whole staging buffers: the inputs at `x`, `y`, the output at anything, run to the inputs unchanged
    and the output at the tile. -/
theorem body3_run (c : Dev nD) (E : Set ℕ) (i : grid3.Coords)
    (a1 : Memref sig .tc .vmem S1024x32 .bf16) (h1 : a1.IsWhole) (a2 : Memref sig .tc .vmem S1024x32 .bf16) (h2 : a2.IsWhole)
    (a3 : Memref sig .tc .vmem S1024x1024 .f32) (h3 : a3.IsWhole)
    (x : Vec F S1024x32 .bf16) (y : Vec F S1024x32 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (tile3 x y)) -∗ K ⟨⟩))
      ⊢ wp frame (wpE (defs₀ (F := F)) Variants.none c none) E (cc3__decode_kernel i a1 h1 a2 h2 a3 h3) K := by
  simp only [cc3__decode_kernel_eq_skeleton]; unfold cc3__decode_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile3_cover _)

/-- The pipeline's proof data: arrays as the region finds them; after the body each input buffer still at its block, the
    output buffer at the tile of the two input blocks; nothing kept between points, nothing owed. The two input windows
    read one array: each holds one half of it. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => tile3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = tile3 (blk3 V c 0 t) (blk3 V c 1 t) := by dsimp only [dat3]
theorem dat3_share0 (c : Dev nD) : (dat3 V c).share 0 = fullShare.left := rfl
theorem dat3_share1 (c : Dev nD) : (dat3 V c).share 1 = fullShare.right := rfl
theorem dat3_share2 (c : Dev nD) : (dat3 V c).share 2 = fullShare := rfl

/-- An input window's current buffer holds its block at every point, whether or not the point fetches it. -/
theorem dat3_before0 (c : Dev nD) (t : Fin cfg3.N) (d) : (dat3 V c).before 0 t d = blk3 V c 0 t :=
  ((dat3 V c).before_in_eq_fetched 0 rfl (fun _ => rfl) (fun _ _ _ => rfl)
      (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
      (fun t => by rw [dat3_after1]; unfold Dat.blockOf blk3; rw [dat3_A]; try rfl) t d).trans
    (by unfold Dat.fetched Dat.blockOf blk3; rw [dat3_A]; try rfl)

/-- The body obligation at every grid point. -/
theorem dat3_body (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3_run c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.Fold.lean ====
import proofs.«177673_j27152783245647_1_alg».proof.Proof.Region0
import proofs.«177673_j27152783245647_1_alg».proof.Proof.Region1
import proofs.«177673_j27152783245647_1_alg».proof.Proof.Region2
import proofs.«177673_j27152783245647_1_alg».proof.Proof.Region3
import proofs.«177673_j27152783245647_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The buffers' contents between the items of the program

Host operations, then a product kernel, three times over, then the decode kernel. The contents of core `c`'s buffers after
each item, as one fold from the launch memory: a host stretch applies its operations; a kernel region replaces its result
array by what its write-backs leave. -/

/-- A valuation read at the TensorCore's references. -/
abbrev atTc (W : Dev nD → Valuation τ sig (Elt F)) : (c : Dev nD) → (b : Ref sig .tc) → Buf (Elt F) ((c : Thread nD τ).loc b) :=
  fun c b => W c b

/-- Before the first product kernel (after the three leading host stretches). -/
abbrev Y3 (c : Dev nD) : Valuation τ sig (Elt F) := Gen.V3 m c
/-- The first product's result array: every row block written back. -/
def res0 (c : Dev nD) : Buf (Elt F) ((c : Thread nD τ).loc main_v33) := (dat0 (atTc (Y3 m)) c).arrAt 2 cfg0.N
abbrev Y4 (c : Dev nD) : Valuation τ sig (Elt F) := Function.update (Y3 m c) main_v33 (res0 m c)
abbrev Y5 (c : Dev nD) : Valuation τ sig (Elt F) := StableHlo.after hostOps1 (Y4 m c)
abbrev Y6 (c : Dev nD) : Valuation τ sig (Elt F) := StableHlo.after hostOps1_1 (Y5 m c)
abbrev Y7 (c : Dev nD) : Valuation τ sig (Elt F) := StableHlo.after hostOps1_2 (Y6 m c)
/-- The second product's result array. -/
def res1 (c : Dev nD) : Buf (Elt F) ((c : Thread nD τ).loc main_v53) := (dat1 (atTc (Y7 m)) c).arrAt 2 cfg1.N
abbrev Y8 (c : Dev nD) : Valuation τ sig (Elt F) := Function.update (Y7 m c) main_v53 (res1 m c)
abbrev Y9 (c : Dev nD) : Valuation τ sig (Elt F) := StableHlo.after hostOps2 (Y8 m c)
/-- The third product's result array. -/
def res2 (c : Dev nD) : Buf (Elt F) ((c : Thread nD τ).loc main_v72) := (dat2 (atTc (Y9 m)) c).arrAt 2 cfg2.N
abbrev Y10 (c : Dev nD) : Valuation τ sig (Elt F) := Function.update (Y9 m c) main_v72 (res2 m c)
abbrev Y11 (c : Dev nD) : Valuation τ sig (Elt F) := StableHlo.after hostOps3 (Y10 m c)
/-- The decode's result array. -/
def res3 (c : Dev nD) : Buf (Elt F) ((c : Thread nD τ).loc main_v93) := (dat3 (atTc (Y11 m)) c).arrAt 2 cfg3.N
abbrev Y12 (c : Dev nD) : Valuation τ sig (Elt F) := Function.update (Y11 m c) main_v93 (res3 m c)

/-- What each kernel region leaves in the buffers it may change, read off the fold. -/
def outs : Gen.Outs (F := F) := fun J r c =>
  match J with
  | 4 => Y4 m c r
  | 8 => Y8 m c r
  | 10 => Y10 m c r
  | 12 => Y12 m c r
  | _ => Gen.V0 m c r

theorem V4_eq (c : Dev nD) : Gen.V4 m (outs m) c = Y4 m c := by
  show Function.update (Gen.V3 m c) main_v33 (Function.update (Y3 m c) main_v33 (res0 m c) main_v33) = _
  rw [Function.update_self]
theorem V7_eq (c : Dev nD) : Gen.V7 m (outs m) c = Y7 m c := by
  show StableHlo.after hostOps1_2 (StableHlo.after hostOps1_1 (StableHlo.after hostOps1 (Gen.V4 m (outs m) c))) = _
  rw [V4_eq]
theorem V8_eq (c : Dev nD) : Gen.V8 m (outs m) c = Y8 m c := by
  show Function.update (Gen.V7 m (outs m) c) main_v53 (Function.update (Y7 m c) main_v53 (res1 m c) main_v53) = _
  rw [Function.update_self, V7_eq]
theorem V9_eq (c : Dev nD) : Gen.V9 m (outs m) c = Y9 m c := by
  show StableHlo.after hostOps2 (Gen.V8 m (outs m) c) = _
  rw [V8_eq]
theorem V10_eq (c : Dev nD) : Gen.V10 m (outs m) c = Y10 m c := by
  show Function.update (Gen.V9 m (outs m) c) main_v72 (Function.update (Y9 m c) main_v72 (res2 m c) main_v72) = _
  rw [Function.update_self, V9_eq]
theorem V11_eq (c : Dev nD) : Gen.V11 m (outs m) c = Y11 m c := by
  show StableHlo.after hostOps3 (Gen.V10 m (outs m) c) = _
  rw [V10_eq]
theorem V12_eq (c : Dev nD) : Gen.V12 m (outs m) c = Y12 m c := by
  show Function.update (Gen.V11 m (outs m) c) main_v93 (Function.update (Y11 m c) main_v93 (res3 m c) main_v93) = _
  rw [Function.update_self, V11_eq]

/-- Every pipeline's proof data, each at the contents its region is entered with. -/
def pdats : (p : Fin 4) → (c : Dev nD) → Dat τ (Elt F) Unit ℕ (UR sig nD τ) ℕ (cfgs p) c
  | ⟨0, _⟩ => fun c => dat0 (atTc (Y3 m)) c
  | ⟨1, _⟩ => fun c => dat1 (atTc (Y7 m)) c
  | ⟨2, _⟩ => fun c => dat2 (atTc (Y9 m)) c
  | ⟨3, _⟩ => fun c => dat3 (atTc (Y11 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev side (c : Dev nD) : sProp 𝕄 := iprop((∃ r, prngReg c r) ∗ ∃ W, owes (c : Thread nD τ) (0 : CellTallies nD τ sig Unit) W)

end Cert.KernelIdeal.Hand

end
-- ==== Proof.Reg0.lean ====
import proofs.«177673_j27152783245647_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Product kernel 0 as an item of the program -/

theorem exit0_a0 (c : Dev nD) : (dat0 (atTc (Y3 m)) c).arrAt 0 cfg0.N = (dat0 (atTc (Y3 m)) c).A 0 :=
  (dat0 (atTc (Y3 m)) c).arrAt_in 0 rfl _
theorem exit0_a1 (c : Dev nD) : (dat0 (atTc (Y3 m)) c).arrAt 1 cfg0.N = (dat0 (atTc (Y3 m)) c).A 1 :=
  (dat0 (atTc (Y3 m)) c).arrAt_in 1 rfl _
theorem exit0_b0 (c : Dev nD) : (dat0 (atTc (Y3 m)) c).A 0 = Y3 m c main_v31 := dat0_A (atTc (Y3 m)) c 0
theorem exit0_b1 (c : Dev nD) : (dat0 (atTc (Y3 m)) c).A 1 = Y3 m c main_v32 := dat0_A (atTc (Y3 m)) c 1
theorem exit0_c0 (c : Dev nD) : Y4 m c main_v31 = Y3 m c main_v31 :=
  Function.update_of_ne (StableHlo.devRef_ne_of_ne (by decide)) _ _
theorem exit0_c1 (c : Dev nD) : Y4 m c main_v32 = Y3 m c main_v32 :=
  Function.update_of_ne (StableHlo.devRef_ne_of_ne (by decide)) _ _
theorem exit0_c2 (c : Dev nD) : Y4 m c main_v33 = res0 m c := Function.update_self _ _ _

/-- At the region's exit each of its arrays holds what the fold says: the inputs as entered, the result at its
    write-backs. -/
theorem exit0_arr (c : Dev nD) (w : Fin cfg0.W) :
    (dat0 (atTc (Y3 m)) c).arrAt w cfg0.N = atTc (Y4 m) c (Pipeline.arrRef spec0 w) :=
  match w with
  | ⟨0, _⟩ => (exit0_a0 m c).trans ((exit0_b0 m c).trans (exit0_c0 m c).symm)
  | ⟨1, _⟩ => (exit0_a1 m c).trans ((exit0_b1 m c).trans (exit0_c1 m c).symm)
  | ⟨2, _⟩ => (exit0_c2 m c).symm
/-- Every other buffer is as the region found it. -/
theorem exit0_rest (c : Dev nD) (b : Ref sig .tc) (hb : b ∉ Finset.univ.image (Pipeline.arrRef spec0)) :
    atTc (Y4 m) c b = atTc (Y3 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y3`, left with them at `Y4`. Its three arrays are taken out of
    the unscoped buffers at entry and put back at exit; the generator register passes through the kernel's invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (dat0_body (atTc (Y3 m)) c).loose
  hwaits := Pipeline.hwaits_of_owed_zero _ _ _ _ L lv 0 fun _ _ => rfl
  pre c := iprop(StableHlo.held (c : Thread nD τ) (Pipeline.ucRefs τ sig) (Y3 m c) ∗ side c)
  post c := iprop(StableHlo.held (c : Thread nD τ) (Pipeline.ucRefs τ sig) (Y4 m c) ∗ side c)
  X c := iprop(∃ r, prngReg c r)
  Y c := iprop(∃ r, prngReg c r)
  Z c := Pipeline.unscopedRest (Ix := Unit) (Name := ℕ) (U := UR sig nD τ) (Lvl := ℕ) spec0 c (atTc (Y3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Y3 m) c) (atTc (Y4 m) c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
import proofs.«177673_j27152783245647_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Product kernel 1 as an item of the program -/

theorem exit1_a0 (c : Dev nD) : (dat1 (atTc (Y7 m)) c).arrAt 0 cfg1.N = (dat1 (atTc (Y7 m)) c).A 0 :=
  (dat1 (atTc (Y7 m)) c).arrAt_in 0 rfl _
theorem exit1_a1 (c : Dev nD) : (dat1 (atTc (Y7 m)) c).arrAt 1 cfg1.N = (dat1 (atTc (Y7 m)) c).A 1 :=
  (dat1 (atTc (Y7 m)) c).arrAt_in 1 rfl _
theorem exit1_b0 (c : Dev nD) : (dat1 (atTc (Y7 m)) c).A 0 = Y7 m c main_v51 := dat1_A (atTc (Y7 m)) c 0
theorem exit1_b1 (c : Dev nD) : (dat1 (atTc (Y7 m)) c).A 1 = Y7 m c main_v52 := dat1_A (atTc (Y7 m)) c 1
theorem exit1_c0 (c : Dev nD) : Y8 m c main_v51 = Y7 m c main_v51 :=
  Function.update_of_ne (StableHlo.devRef_ne_of_ne (by decide)) _ _
theorem exit1_c1 (c : Dev nD) : Y8 m c main_v52 = Y7 m c main_v52 :=
  Function.update_of_ne (StableHlo.devRef_ne_of_ne (by decide)) _ _
theorem exit1_c2 (c : Dev nD) : Y8 m c main_v53 = res1 m c := Function.update_self _ _ _

/-- At the region's exit each of its arrays holds what the fold says: the inputs as entered, the result at its
    write-backs. -/
theorem exit1_arr (c : Dev nD) (w : Fin cfg1.W) :
    (dat1 (atTc (Y7 m)) c).arrAt w cfg1.N = atTc (Y8 m) c (Pipeline.arrRef spec1 w) :=
  match w with
  | ⟨0, _⟩ => (exit1_a0 m c).trans ((exit1_b0 m c).trans (exit1_c0 m c).symm)
  | ⟨1, _⟩ => (exit1_a1 m c).trans ((exit1_b1 m c).trans (exit1_c1 m c).symm)
  | ⟨2, _⟩ => (exit1_c2 m c).symm
/-- Every other buffer is as the region found it. -/
theorem exit1_rest (c : Dev nD) (b : Ref sig .tc) (hb : b ∉ Finset.univ.image (Pipeline.arrRef spec1)) :
    atTc (Y8 m) c b = atTc (Y7 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y7`, left with them at `Y8`. Its three arrays are taken out of
    the unscoped buffers at entry and put back at exit; the generator register passes through the kernel's invariant;
    nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (dat1_body (atTc (Y7 m)) c).loose
  hwaits := Pipeline.hwaits_of_owed_zero _ _ _ _ L lv 1 fun _ _ => rfl
  pre c := iprop(StableHlo.held (c : Thread nD τ) (Pipeline.ucRefs τ sig) (Y7 m c) ∗ side c)
  post c := iprop(StableHlo.held (c : Thread nD τ) (Pipeline.ucRefs τ sig) (Y8 m c) ∗ side c)
  X c := iprop(∃ r, prngReg c r)
  Y c := iprop(∃ r, prngReg c r)
  Z c := Pipeline.unscopedRest (Ix := Unit) (Name := ℕ) (U := UR sig nD τ) (Lvl := ℕ) spec1 c (atTc (Y7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Y7 m) c) (atTc (Y8 m) c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
import proofs.«177673_j27152783245647_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Product kernel 2 as an item of the program -/

theorem exit2_a0 (c : Dev nD) : (dat2 (atTc (Y9 m)) c).arrAt 0 cfg2.N = (dat2 (atTc (Y9 m)) c).A 0 :=
  (dat2 (atTc (Y9 m)) c).arrAt_in 0 rfl _
theorem exit2_a1 (c : Dev nD) : (dat2 (atTc (Y9 m)) c).arrAt 1 cfg2.N = (dat2 (atTc (Y9 m)) c).A 1 :=
  (dat2 (atTc (Y9 m)) c).arrAt_in 1 rfl _
theorem exit2_b0 (c : Dev nD) : (dat2 (atTc (Y9 m)) c).A 0 = Y9 m c main_v70 := dat2_A (atTc (Y9 m)) c 0
theorem exit2_b1 (c : Dev nD) : (dat2 (atTc (Y9 m)) c).A 1 = Y9 m c main_v71 := dat2_A (atTc (Y9 m)) c 1
theorem exit2_c0 (c : Dev nD) : Y10 m c main_v70 = Y9 m c main_v70 :=
  Function.update_of_ne (StableHlo.devRef_ne_of_ne (by decide)) _ _
theorem exit2_c1 (c : Dev nD) : Y10 m c main_v71 = Y9 m c main_v71 :=
  Function.update_of_ne (StableHlo.devRef_ne_of_ne (by decide)) _ _
theorem exit2_c2 (c : Dev nD) : Y10 m c main_v72 = res2 m c := Function.update_self _ _ _

/-- At the region's exit each of its arrays holds what the fold says: the inputs as entered, the result at its
    write-backs. -/
theorem exit2_arr (c : Dev nD) (w : Fin cfg2.W) :
    (dat2 (atTc (Y9 m)) c).arrAt w cfg2.N = atTc (Y10 m) c (Pipeline.arrRef spec2 w) :=
  match w with
  | ⟨0, _⟩ => (exit2_a0 m c).trans ((exit2_b0 m c).trans (exit2_c0 m c).symm)
  | ⟨1, _⟩ => (exit2_a1 m c).trans ((exit2_b1 m c).trans (exit2_c1 m c).symm)
  | ⟨2, _⟩ => (exit2_c2 m c).symm
/-- Every other buffer is as the region found it. -/
theorem exit2_rest (c : Dev nD) (b : Ref sig .tc) (hb : b ∉ Finset.univ.image (Pipeline.arrRef spec2)) :
    atTc (Y10 m) c b = atTc (Y9 m) c b :=
  Function.update_of_ne (StableHlo.devRef_ne_of_ne fun e => hb (Finset.mem_image.mpr ⟨2, Finset.mem_univ _, e.symm⟩)) _ _
set_option backward.isDefEq.respectTransparency.types false in
/-- The region: entered with every unscoped buffer at `Y9`, left with them at `Y10`. Its three arrays are taken out of
    the unscoped buffers at entry and put back at exit; the generator register passes through the kernel's invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (dat2_body (atTc (Y9 m)) c).loose
  hwaits := Pipeline.hwaits_of_owed_zero _ _ _ _ L lv 2 fun _ _ => rfl
  pre c := iprop(StableHlo.held (c : Thread nD τ) (Pipeline.ucRefs τ sig) (Y9 m c) ∗ side c)
  post c := iprop(StableHlo.held (c : Thread nD τ) (Pipeline.ucRefs τ sig) (Y10 m c) ∗ side c)
  X c := iprop(∃ r, prngReg c r)
  Y c := iprop(∃ r, prngReg c r)
  Z c := Pipeline.unscopedRest (Ix := Unit) (Name := ℕ) (U := UR sig nD τ) (Lvl := ℕ) spec2 c (atTc (Y9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Y9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Y9 m) c) (atTc (Y10 m) c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
import proofs.«177673_j27152783245647_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The decode kernel as an item of the program

Its two input windows read ONE array: at entry that array's buffer is dealt to them by halves; at exit the halves are
joined again. The result array is the third window's alone. -/

theorem exit3_a0 (c : Dev nD) : (dat3 (atTc (Y11 m)) c).arrAt 0 cfg3.N = (dat3 (atTc (Y11 m)) c).A 0 :=
  (dat3 (atTc (Y11 m)) c).arrAt_in 0 rfl _
theorem exit3_a1 (c : Dev nD) : (dat3 (atTc (Y11 m)) c).arrAt 1 cfg3.N = (dat3 (atTc (Y11 m)) c).A 1 :=
  (dat3 (atTc (Y11 m)) c).arrAt_in 1 rfl _
theorem exit3_b0 (c : Dev nD) : (dat3 (atTc (Y11 m)) c).A 0 = Y11 m c main_v92 := dat3_A (atTc (Y11 m)) c 0
theorem exit3_b1 (c : Dev nD) : (dat3 (atTc (Y11 m)) c).A 1 = Y11 m c main_v92 := dat3_A (atTc (Y11 m)) c 1
theorem exit3_c0 (c : Dev nD) : Y12 m c main_v92 = Y11 m c main_v92 :=
  Function.update_of_ne (StableHlo.devRef_ne_of_ne (by decide)) _ _
theorem exit3_c2 (c : Dev nD) : Y12 m c main_v93 = res3 m c := Function.update_self _ _ _
/-- At the region's exit each window's array holds what the fold says. -/
theorem exit3_arr (c : Dev nD) (w : Fin cfg3.W) :
    (dat3 (atTc (Y11 m)) c).arrAt w cfg3.N = atTc (Y12 m) c (Pipeline.arrRef spec3 w) :=
  match w with
  | ⟨0, _⟩ => (exit3_a0 m c).trans ((exit3_b0 m c).trans (exit3_c0 m c).symm)
  | ⟨1, _⟩ => (exit3_a1 m c).trans ((exit3_b1 m c).trans (exit3_c0 m c).symm)
  | ⟨2, _⟩ => (exit3_c2 m c).symm
/-- Every buffer that is no window's array is as the region found it. -/
theorem exit3_rest (c : Dev nD) (b : Ref sig .tc) (hb : b ∉ Finset.univ.image (Pipeline.arrRef spec3)) :
    atTc (Y12 m) c b = atTc (Y11 m) c b :=
  Function.update_of_ne (StableHlo.devRef_ne_of_ne fun e => hb (Finset.mem_image.mpr ⟨2, Finset.mem_univ _, e.symm⟩)) _ _

/-- The buffers behind the decode kernel's windows: the array both inputs read, and the result array. -/
theorem arrRefs3 : Finset.univ.image (Pipeline.arrRef spec3) = {main_v92, main_v93} := by decide

/-- One buffer whole beside another is its two halves beside the other, and back. -/
theorem halves {ℓ ℓ' : Loc nD τ sig} (f : Buf (Elt F) ℓ) (g : Buf (Elt F) ℓ') :
    (iprop((ℓ ↦{fullShare} f) ∗ (ℓ' ↦{fullShare} g)) : sProp 𝕄)
      ⊣⊢ iprop((ℓ ↦{fullShare.left} f) ∗ (ℓ ↦{fullShare.right} f) ∗ (ℓ' ↦{fullShare} g)) := by
  constructor
  · iintro ⟨Hz, Ho⟩
    ihave Hz := (pointsTo_share (PosShare.mem_left_op_right fullShare)).1 $$ Hz
    icases Hz with ⟨Hl, Hr⟩
    isplitl [Hl]; · iexact Hl
    isplitl [Hr]; · iexact Hr
    iexact Ho
  · iintro ⟨Hl, Hr, Ho⟩
    isplitl [Hl Hr]
    · iapply (pointsTo_share (PosShare.mem_left_op_right fullShare)).2
      isplitl [Hl] <;> iassumption
    iexact Ho

section
variable (V : (c : Dev nD) → (b : Ref sig .tc) → Buf (Elt F) ((c : Thread nD τ).loc b))

/-- The three windows' arrays, each window's array a whole buffer. -/
theorem arrays3_eq (c : Dev nD) (G : (b : Ref sig .tc) → Buf (Elt F) ((c : Thread nD τ).loc b)) :
    (dat3 V c).arrays (fun w => G (Pipeline.arrRef spec3 w))
      = bigSep Finset.univ fun w : Fin cfg3.W =>
          (((c : Thread nD τ).loc (Pipeline.arrRef spec3 w)) ↦{(dat3 V c).share w} G (Pipeline.arrRef spec3 w) : sProp 𝕄) := by
  unfold Pipeline.Dat.arrays
  exact bigSep_congr fun w _ => by rw [(arr_whole3 w).set_eq_univ]

/-- The two buffers whole are the three windows' arrays (the shared one by halves), and back. -/
theorem arrays3_bufs (c : Dev nD) (G : (b : Ref sig .tc) → Buf (Elt F) ((c : Thread nD τ).loc b)) :
    (Pipeline.arrBufs (Ix := Unit) (Name := ℕ) (U := UR sig nD τ) (Lvl := ℕ) spec3 c G : sProp 𝕄)
      ⊣⊢ (dat3 V c).arrays (fun w => G (Pipeline.arrRef spec3 w)) := by
  rw [arrays3_eq]
  unfold Pipeline.arrBufs
  rw [arrRefs3, bigSep_insert (by decide), bigSep_singleton, bigSep_W3, dat3_share0, dat3_share1, dat3_share2]
  exact halves (G main_v92) (G main_v93)
end

set_option backward.isDefEq.respectTransparency.types false in
/-- The region: entered with every unscoped buffer at `Y11`, left with them at `Y12`. The two buffers behind its windows
    are taken out of the unscoped buffers at entry (the shared one dealt by halves) and put back at exit; the generator
    register passes through the kernel's invariant; nothing is owed and the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (dat3_body (atTc (Y11 m)) c).loose
  hwaits := Pipeline.hwaits_of_owed_zero _ _ _ _ L lv 3 fun _ _ => rfl
  pre c := iprop(StableHlo.held (c : Thread nD τ) (Pipeline.ucRefs τ sig) (Y11 m c) ∗ side c)
  post c := iprop(StableHlo.held (c : Thread nD τ) (Pipeline.ucRefs τ sig) (Y12 m c) ∗ side c)
  X c := iprop(∃ r, prngReg c r)
  Y c := iprop(∃ r, prngReg c r)
  Z c := Pipeline.unscopedRest (Ix := Unit) (Name := ℕ) (U := UR sig nD τ) (Lvl := ℕ) spec3 c (atTc (Y11 m) c)
  hentry c := by
    rw [Pipeline.ownSems0_none]
    have hsp := Pipeline.unscopedBufs_split₀ (Ix := Unit) (Name := ℕ) (U := UR sig nD τ) (Lvl := ℕ) cfgs (3 : Fin 4) winFacts₀3.arr_unscoped c (atTc (Y11 m) c)
    rw [Pipeline.unscopedBufs_held] at hsp
    have hsplit : (StableHlo.held (c : Thread nD τ) (Pipeline.ucRefs τ sig) (Y11 m c) : sProp 𝕄)
        ⊢ iprop((dat3 (atTc (Y11 m)) c).arrays (fun w => atTc (Y11 m) c (Pipeline.arrRef spec3 w))
            ∗ Pipeline.unscopedRest (Ix := Unit) (Name := ℕ) (U := UR sig nD τ) (Lvl := ℕ) spec3 c (atTc (Y11 m) c)) :=
      (Entails.of_eq hsp).trans (sep_mono (arrays3_bufs (atTc (Y11 m)) c (atTc (Y11 m) c)).1 .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) cfgs (3 : Fin 4) winFacts₀3.arr_unscoped c (atTc (Y12 m) c)
    rw [Pipeline.unscopedBufs_held] at hsp
    have harr : ((dat3 (atTc (Y11 m)) c).arrAt · cfg3.N) = fun w => atTc (Y12 m) c (Pipeline.arrRef spec3 w) :=
      funext fun w => exit3_arr m c w
    have hrest : (Pipeline.unscopedRest (Ix := Unit) (Name := ℕ) (U := UR sig nD τ) (Lvl := ℕ) spec3 c (atTc (Y11 m) c) : sProp 𝕄)
        = Pipeline.unscopedRest spec3 c (atTc (Y12 m) c) := by
      unfold Pipeline.unscopedRest
      exact bigSep_congr fun b hb => by rw [exit3_rest m c b (Finset.mem_sdiff.mp hb).2]
    have hjoin : iprop((pdats m 3 c).arrays ((pdats m 3 c).arrAt · cfg3.N)
          ∗ Pipeline.unscopedRest (Ix := Unit) (Name := ℕ) (U := UR sig nD τ) (Lvl := ℕ) spec3 c (atTc (Y11 m) c))
        ⊢ (StableHlo.held (c : Thread nD τ) (Pipeline.ucRefs τ sig) (Y12 m c) : sProp 𝕄) := by
      show iprop((dat3 (atTc (Y11 m)) c).arrays ((dat3 (atTc (Y11 m)) c).arrAt · cfg3.N)
          ∗ Pipeline.unscopedRest (Ix := Unit) (Name := ℕ) (U := UR sig nD τ) (Lvl := ℕ) spec3 c (atTc (Y11 m) c)) ⊢ _
      rw [harr, hrest]
      exact (sep_mono (arrays3_bufs (atTc (Y11 m)) c (atTc (Y12 m) c)).2 .rfl).trans (Entails.of_eq hsp.symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Assemble.lean ====
import proofs.«177673_j27152783245647_1_alg».proof.Proof.Reg0
import proofs.«177673_j27152783245647_1_alg».proof.Proof.Reg1
import proofs.«177673_j27152783245647_1_alg».proof.Proof.Reg2
import proofs.«177673_j27152783245647_1_alg».proof.Proof.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The program's run: the four kernel regions threaded through the host stretches -/

variable (ρ : Dev nD → PrngReg)

/-- The launch element of the pipelines' ghost state. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core beside its buffers makes the state that rides along: the generator register, and
    nothing owed. -/
theorem launch_side :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => side (F := F) c) : sProp 𝕄) := by
  have hc : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ (side (F := F) c : sProp 𝕄) := fun c => by
    iintro ⟨-, HO, -, Hp, -⟩
    isplitl [Hp]; · iexists _; iexact Hp
    iexists ∅; iexact HO
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => side (F := F) c) : sProp 𝕄) :=
    bigSep_mono fun c _ => hc c
  iintro ⟨H, -⟩
  imodintro
  iapply h
  iexact H

/-- THE FRAME: every weakly fair execution of the program from memory `m` terminates, nothing faulting, and the nine
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () 𝒱₀ L lv (fun _ _ => rfl) ρ (outs m) (pdats m) 0 (fun _ => BI.emp)
    (initOf (Pipeline.cells cfgs cellOf_inj) (Pipeline.launchToks cfgs cellOf_inj)) launch_own
    (fun _ c => side c) (launch_side ρ) (fun c => by iintro ⟨-, HO⟩; iexact HO)
    (reg0 m) (fun c => .rfl) (fun c => by rw [V4_eq]; exact .rfl)
    (reg1 m) (fun c => by rw [V7_eq]; exact .rfl) (fun c => by rw [V8_eq]; exact .rfl)
    (reg2 m) (fun c => by rw [V9_eq]; exact .rfl) (fun c => by rw [V10_eq]; exact .rfl)
    (reg3 m) (fun c => by rw [V11_eq]; exact .rfl) (fun c => by rw [V12_eq]; exact .rfl)

end Cert.KernelIdeal.Hand

end
-- ==== Proof.RunFold.lean ====
import proofs.«177673_j27152783245647_1_alg».proof.Proof.Assemble
import proofs.«177673_j27152783245647_1_alg».proof.Proof.RunAll

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- THE RUN: every weakly fair execution of the program from memory `m` terminates, nothing faulting, with every
    unscoped buffer of every core at the fold's last valuation. -/
theorem run_fold : θ_run defs (onTc (τ := τ) (main (F := F))) ⟨m, fun _ => 0, ρ⟩ (fun r => ∀ c : Dev nD,
      ∀ b ∈ Pipeline.ucRefs τ sig, r.2.mem ((c : Thread nD τ).1, b) = Y12 m c b) :=
  (θ_run defs _ _).mono (fun r h c b hb => (h c b hb).trans (congrFun (V12_eq m c) b))
    (Gen.run_cond m emb₁ () 𝒱₀ L lv (fun _ _ => rfl) ρ (outs m) (pdats m) 0 (fun _ => BI.emp)
      (initOf (Pipeline.cells cfgs cellOf_inj) (Pipeline.launchToks cfgs cellOf_inj)) launch_own
      (fun _ c => side c) (launch_side ρ) (fun c => by iintro ⟨-, HO⟩; iexact HO)
      (reg0 m) (fun c => .rfl) (fun c => by rw [V4_eq]; exact .rfl)
      (reg1 m) (fun c => by rw [V7_eq]; exact .rfl) (fun c => by rw [V8_eq]; exact .rfl)
      (reg2 m) (fun c => by rw [V9_eq]; exact .rfl) (fun c => by rw [V10_eq]; exact .rfl)
      (reg3 m) (fun c => by rw [V11_eq]; exact .rfl) (fun c => by rw [V12_eq]; exact .rfl))

end Cert.KernelIdeal.Hand

end
-- ==== Proof.Value0.lean ====
import proofs.«177673_j27152783245647_1_alg».proof.Proof.Fold
import proofs.«177673_j27152783245647_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## One row block's product at an index -/

/-- The block product's operand indices at output index `i` and contraction index `q`, axis by axis. -/
theorem lhs_blk0_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_blk0_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_blk0_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_blk0_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- Entry (p, k) of a row block of the left operand, entry (k, q) of the right operand. -/
abbrev lblk0 (i : S2048x64.Idx) (k : Fin 128) : S2048x128.Idx := fun a => match a with
  | ⟨0, _⟩ => ⟨(i 0).val, (i 0).isLt⟩
  | ⟨1, _⟩ => ⟨k.val, k.isLt⟩
abbrev rblk0 (i : S2048x64.Idx) (k : Fin 128) : S128x64.Idx := fun a => match a with
  | ⟨0, _⟩ => ⟨k.val, k.isLt⟩
  | ⟨1, _⟩ => ⟨(i 1).val, (i 1).isLt⟩

/-- The body's payload at an index: the sum over the contracted axis of the products of the two blocks' entries. -/
theorem pay0_apply (x : Vec Ideal S2048x128 .bf16) (y : Vec Ideal S128x64 .bf16) (i : S2048x64.Idx) :
    k0_pay1 (F := Ideal) x y i = ∑ k : Fin 128, x (lblk0 i k) * y (rblk0 i k) := by
  unfold k0_pay1
  simp only [shapeCast_self, matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx i ((ValueIdx.contrEquiv1 dot_S2048x128_S128x64_S2048x64_1_0_0_1_n_n 128 rfl rfl).symm k) = lblk0 i k := funext fun a => Fin.ext (by
    match a with
    | ⟨0, _⟩ => exact lhs_blk0_0 _ _
    | ⟨1, _⟩ => exact (lhs_blk0_1 _ _).trans hk)
  have er : dot_S2048x128_S128x64_S2048x64_1_0_0_1_n_n.rhsIdx i ((ValueIdx.contrEquiv1 dot_S2048x128_S128x64_S2048x64_1_0_0_1_n_n 128 rfl rfl).symm k) = rblk0 i k := funext fun a => Fin.ext (by
    match a with
    | ⟨0, _⟩ => exact (rhs_blk0_0 _ _).trans hk
    | ⟨1, _⟩ => exact rhs_blk0_1 _ _)
  rw [el, er]

/-! ## The whole product at an index -/

theorem lhs_whole0_0 (i : Cert.ReferenceIdeal.S16384x64.Idx) (q : Cert.ReferenceIdeal.dot_S16384x128_S128x64_S16384x64_1_0_0_1_n_n.contr.Idx) :
    (Cert.ReferenceIdeal.dot_S16384x128_S128x64_S16384x64_1_0_0_1_n_n.lhsIdx i q 0).val = (i 0).val := by
  unfold DotDims.lhsIdx
  rw [dif_neg (show ¬(0 : Fin Cert.ReferenceIdeal.S16384x128.rank) ∈ Cert.ReferenceIdeal.dot_S16384x128_S128x64_S16384x64_1_0_0_1_n_n.lhsBatch by decide), dif_pos (show (0 : Fin Cert.ReferenceIdeal.S16384x128.rank) ∈ Cert.ReferenceIdeal.dot_S16384x128_S128x64_S16384x64_1_0_0_1_n_n.lhsNonContracting by decide)]
  rfl
theorem lhs_whole0_1 (i : Cert.ReferenceIdeal.S16384x64.Idx) (q : Cert.ReferenceIdeal.dot_S16384x128_S128x64_S16384x64_1_0_0_1_n_n.contr.Idx) :
    (Cert.ReferenceIdeal.dot_S16384x128_S128x64_S16384x64_1_0_0_1_n_n.lhsIdx i q 1).val = (q ⟨0, by decide⟩).val :=
  Cert.ReferenceIdeal.dot_S16384x128_S128x64_S16384x64_1_0_0_1_n_n.lhsIdx_val_of_single rfl i q
theorem rhs_whole0_0 (i : Cert.ReferenceIdeal.S16384x64.Idx) (q : Cert.ReferenceIdeal.dot_S16384x128_S128x64_S16384x64_1_0_0_1_n_n.contr.Idx) :
    (Cert.ReferenceIdeal.dot_S16384x128_S128x64_S16384x64_1_0_0_1_n_n.rhsIdx i q 0).val = (q ⟨0, by decide⟩).val :=
  Cert.ReferenceIdeal.dot_S16384x128_S128x64_S16384x64_1_0_0_1_n_n.rhsIdx_val_of_single rfl i q
theorem rhs_whole0_1 (i : Cert.ReferenceIdeal.S16384x64.Idx) (q : Cert.ReferenceIdeal.dot_S16384x128_S128x64_S16384x64_1_0_0_1_n_n.contr.Idx) :
    (Cert.ReferenceIdeal.dot_S16384x128_S128x64_S16384x64_1_0_0_1_n_n.rhsIdx i q 1).val = (i 1).val := by
  unfold DotDims.rhsIdx
  rw [dif_neg (show ¬(1 : Fin Cert.ReferenceIdeal.S128x64.rank) ∈ Cert.ReferenceIdeal.dot_S16384x128_S128x64_S16384x64_1_0_0_1_n_n.rhsBatch by decide), dif_pos (show (1 : Fin Cert.ReferenceIdeal.S128x64.rank) ∈ Cert.ReferenceIdeal.dot_S16384x128_S128x64_S16384x64_1_0_0_1_n_n.rhsNonContracting by decide)]
  rfl

/-- Entry (r, k) of the left operand, entry (k, q) of the right operand. -/
abbrev lwhole0 (i : S16384x64.Idx) (k : Fin 128) : S16384x128.Idx := fun a => match a with
  | ⟨0, _⟩ => ⟨(i 0).val, (i 0).isLt⟩
  | ⟨1, _⟩ => ⟨k.val, k.isLt⟩
abbrev rwhole0 (i : S16384x64.Idx) (k : Fin 128) : S128x64.Idx := fun a => match a with
  | ⟨0, _⟩ => ⟨k.val, k.isLt⟩
  | ⟨1, _⟩ => ⟨(i 1).val, (i 1).isLt⟩

/-- The dense product of two whole arrays in one operation. -/
abbrev whole0 (A : S16384x128.Idx → EReal) (B : S128x64.Idx → EReal) : S16384x64.Idx → EReal :=
  Host.dotGeneral (F := Ideal) (φ₁ := .bf16) (φ₂ := .bf16) Cert.ReferenceIdeal.dot_S16384x128_S128x64_S16384x64_1_0_0_1_n_n none A B

/-- At an index it is the sum over the contracted axis of the products of the operands' entries. -/
theorem whole0_apply (A : S16384x128.Idx → EReal) (B : S128x64.Idx → EReal) (i : S16384x64.Idx) :
    whole0 A B i = ∑ k : Fin 128, A (lwhole0 i k) * B (rwhole0 i k) := by
  simp only [whole0, Host.dotGeneral]
  rw [Ideal.dotGeneral_apply, ← Equiv.sum_comp (ValueIdx.contrEquiv1 Cert.ReferenceIdeal.dot_S16384x128_S128x64_S16384x64_1_0_0_1_n_n 128 rfl rfl).symm]
  refine Finset.sum_congr rfl fun k _ => ?_
  have hk := ValueIdx.contrEquiv1_symm_val Cert.ReferenceIdeal.dot_S16384x128_S128x64_S16384x64_1_0_0_1_n_n 128 rfl rfl k
  have el : Cert.ReferenceIdeal.dot_S16384x128_S128x64_S16384x64_1_0_0_1_n_n.lhsIdx i ((ValueIdx.contrEquiv1 Cert.ReferenceIdeal.dot_S16384x128_S128x64_S16384x64_1_0_0_1_n_n 128 rfl rfl).symm k) = lwhole0 i k := funext fun a => Fin.ext (by
    match a with
    | ⟨0, _⟩ => exact lhs_whole0_0 _ _
    | ⟨1, _⟩ => exact (lhs_whole0_1 _ _).trans hk)
  have er : Cert.ReferenceIdeal.dot_S16384x128_S128x64_S16384x64_1_0_0_1_n_n.rhsIdx i ((ValueIdx.contrEquiv1 Cert.ReferenceIdeal.dot_S16384x128_S128x64_S16384x64_1_0_0_1_n_n 128 rfl rfl).symm k) = rwhole0 i k := funext fun a => Fin.ext (by
    match a with
    | ⟨0, _⟩ => exact (rhs_whole0_0 _ _).trans hk
    | ⟨1, _⟩ => exact rhs_whole0_1 _ _)
  rw [el, er]

/-! ## A row block's product is the whole product's row block -/

/-- If `x` is rows `2048 n …` of `A` and `y` is `B`, the block product at (p, q) is the whole product at (2048 n + p, q). -/
theorem blockProd0_eq (A : S16384x128.Idx → EReal) (B : S128x64.Idx → EReal)
    (x : Vec Ideal S2048x128 .bf16) (y : Vec Ideal S128x64 .bf16) (n : Nat)
    (hx : ∀ (p : S2048x128.Idx) (r : S16384x128.Idx), (r 0).val = n * 2048 + (p 0).val → (r 1).val = (p 1).val → x p = A r)
    (hy : ∀ p : S128x64.Idx, y p = B p)
    (j : S2048x64.Idx) (i : S16384x64.Idx) (h0 : (i 0).val = n * 2048 + (j 0).val) (h1 : (i 1).val = (j 1).val) :
    k0_pay1 (F := Ideal) x y j = whole0 A B i := by
  rw [pay0_apply, whole0_apply]
  refine Finset.sum_congr rfl fun k _ => ?_
  rw [hx (lblk0 j k) (lwhole0 i k) h0 rfl, hy]
  congr 2
  funext a
  apply Fin.ext
  match a with
  | ⟨0, _⟩ => rfl
  | ⟨1, _⟩ => exact h1.symm

/-! ## From the row blocks to the array -/

theorem hz0 : (![0, 0] : Fin 2 → Nat) = fun _ => 0 := funext fun a => by fin_cases a <;> rfl

/-- The index maps over the grid: point `t` takes row block `t` of the left operand and of the result, and the
    whole right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is row block `t` of the whole product of the two arrays the region is entered with. -/
theorem flushed0_eq (c : Dev nD) (t : Fin cfg0.N) :
    (dat0 (F := Ideal) V c).flushed 2 t
      = ((cfg0.win 2).blk t).view.read (Elt Ideal) (whole0 (V c main_v31) (V c main_v32)) := by
  show (cfg0.win 2).cut (grid0.coords t) ((dat0 V c).after 2 t) = _
  rw [dat0_after2]
  unfold prod0
  rw [View.canon_unit_zero hz0]
  simp only [View.ld_unit_zero (S := S2048x128) hz0, View.ld_unit_zero (S := S128x64) hz0]
  obtain ⟨e0, e1, e2, e3, e4, e5⟩ := idx_facts0 t
  funext j
  show k0_pay1 (blk0 V c 0 t) (blk0 V c 1 t) j = whole0 (V c main_v31) (V c main_v32) (((cfg0.win 2).blk t).view.emb j)
  refine blockProd0_eq _ _ _ _ t.val ?_ ?_ j _ ?_ ?_
  · intro p r h0 h1
    show V c main_v31 (((cfg0.win 0).blk t).view.emb p) = V c main_v31 r
    refine congrArg _ (funext fun a => Fin.ext ?_)
    match a with
    | ⟨0, _⟩ => show win0_0.index t (0 : Fin 2) * 2048 + 1 * (p 0).val = (r 0).val; omega
    | ⟨1, _⟩ => show win0_0.index t (1 : Fin 2) * 128 + 1 * (p 1).val = (r 1).val; omega
  · intro p
    show V c main_v32 (((cfg0.win 1).blk t).view.emb p) = V c main_v32 p
    refine congrArg _ (funext fun a => Fin.ext ?_)
    match a with
    | ⟨0, _⟩ => show win0_1.index t (0 : Fin 2) * 128 + 1 * (p 0).val = (p 0).val; omega
    | ⟨1, _⟩ => show win0_1.index t (1 : Fin 2) * 64 + 1 * (p 1).val = (p 1).val; omega
  · show win0_2.index t (0 : Fin 2) * 2048 + 1 * (j 0).val = t.val * 2048 + (j 0).val; omega
  · show win0_2.index t (1 : Fin 2) * 64 + 1 * (j 1).val = (j 1).val; omega

/-- An index of the result array is in point `t`'s block iff each coordinate is in the block's range on its axis. -/
theorem mem_blk0 (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v33).slice (win0_2.rect t)).set ↔ _
  rw [View.set_slice_whole, Rect.mem_set_unit]
  exact Iff.rfl

/-- Row `r` is in the block of point `r / 2048`, which writes its block back. -/
theorem cover0 (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After all the write-backs the result array is the whole product of the two arrays the region is entered with. -/
theorem prod_array0 (c : Dev nD) :
    (dat0 (F := Ideal) V c).arrAt 2 cfg0.N = whole0 (V c main_v31) (V c main_v32) :=
  (dat0 V c).arrAt_eq_of_cover 2 (whole0 (V c main_v31) (V c main_v32)) (fun t _ => flushed0_eq V c t) cover0

end

/-- At the exact instance the product kernel's result array is ONE dense product of the two arrays it was entered with
    (the row blocks' products, written back block by block, tile the array; each entry is the same sum over the
    contracted axis as the whole product's). -/
theorem res0_eq (c : Dev nD) :
    res0 (F := Ideal) m c
      = (Host.dotGeneral (F := Ideal) (φ₁ := .bf16) (φ₂ := .bf16) Cert.ReferenceIdeal.dot_S16384x128_S128x64_S16384x64_1_0_0_1_n_n none
          (Y3 m c main_v31) (Y3 m c main_v32) : S16384x64.Idx → EReal) := by
  unfold res0
  exact prod_array0 (atTc (Y3 m)) c

end Cert.KernelIdeal.Hand

end
-- ==== Proof.Value1.lean ====
import proofs.«177673_j27152783245647_1_alg».proof.Proof.Fold
import proofs.«177673_j27152783245647_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## One row block's product at an index -/

/-- The block product's operand indices at output index `i` and contraction index `q`, axis by axis. -/
theorem lhs_blk1_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_blk1_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_blk1_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_blk1_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- Entry (p, k) of a row block of the left operand, entry (k, q) of the right operand. -/
abbrev lblk1 (i : S2048x32.Idx) (k : Fin 64) : S2048x64.Idx := fun a => match a with
  | ⟨0, _⟩ => ⟨(i 0).val, (i 0).isLt⟩
  | ⟨1, _⟩ => ⟨k.val, k.isLt⟩
abbrev rblk1 (i : S2048x32.Idx) (k : Fin 64) : S64x32.Idx := fun a => match a with
  | ⟨0, _⟩ => ⟨k.val, k.isLt⟩
  | ⟨1, _⟩ => ⟨(i 1).val, (i 1).isLt⟩

/-- The body's payload at an index: the sum over the contracted axis of the products of the two blocks' entries. -/
theorem pay1_apply (x : Vec Ideal S2048x64 .bf16) (y : Vec Ideal S64x32 .bf16) (i : S2048x32.Idx) :
    k1_pay1 (F := Ideal) x y i = ∑ k : Fin 64, x (lblk1 i k) * y (rblk1 i k) := by
  unfold k1_pay1
  simp only [shapeCast_self, matmul]
  rw [Ideal.matmul_constant_zero_apply, ← Equiv.sum_comp (ValueIdx.contrEquiv1 dot_S2048x64_S64x32_S2048x32_1_0_0_1_n_n 64 rfl rfl).symm]
  refine Finset.sum_congr rfl fun k _ => ?_
  have hk := ValueIdx.contrEquiv1_symm_val dot_S2048x64_S64x32_S2048x32_1_0_0_1_n_n 64 rfl rfl k
  have el : dot_S2048x64_S64x32_S2048x32_1_0_0_1_n_n.lhsIdx i ((ValueIdx.contrEquiv1 dot_S2048x64_S64x32_S2048x32_1_0_0_1_n_n 64 rfl rfl).symm k) = lblk1 i k := funext fun a => Fin.ext (by
    match a with
    | ⟨0, _⟩ => exact lhs_blk1_0 _ _
    | ⟨1, _⟩ => exact (lhs_blk1_1 _ _).trans hk)
  have er : dot_S2048x64_S64x32_S2048x32_1_0_0_1_n_n.rhsIdx i ((ValueIdx.contrEquiv1 dot_S2048x64_S64x32_S2048x32_1_0_0_1_n_n 64 rfl rfl).symm k) = rblk1 i k := funext fun a => Fin.ext (by
    match a with
    | ⟨0, _⟩ => exact (rhs_blk1_0 _ _).trans hk
    | ⟨1, _⟩ => exact rhs_blk1_1 _ _)
  rw [el, er]

/-! ## The whole product at an index -/

theorem lhs_whole1_0 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.lhsIdx i q 0).val = (i 0).val := by
  unfold DotDims.lhsIdx
  rw [dif_neg (show ¬(0 : Fin Cert.ReferenceIdeal.S16384x64.rank) ∈ Cert.ReferenceIdeal.dot_S16384x64_S64x32_S16384x32_1_0_0_1_n_n.lhsBatch by decide), dif_pos (show (0 : Fin Cert.ReferenceIdeal.S16384x64.rank) ∈ Cert.ReferenceIdeal.dot_S16384x64_S64x32_S16384x32_1_0_0_1_n_n.lhsNonContracting by decide)]
  rfl
theorem lhs_whole1_1 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.lhsIdx i q 1).val = (q ⟨0, by decide⟩).val :=
  Cert.ReferenceIdeal.dot_S16384x64_S64x32_S16384x32_1_0_0_1_n_n.lhsIdx_val_of_single rfl i q
theorem rhs_whole1_0 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.rhsIdx i q 0).val = (q ⟨0, by decide⟩).val :=
  Cert.ReferenceIdeal.dot_S16384x64_S64x32_S16384x32_1_0_0_1_n_n.rhsIdx_val_of_single rfl i q
theorem rhs_whole1_1 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.rhsIdx i q 1).val = (i 1).val := by
  unfold DotDims.rhsIdx
  rw [dif_neg (show ¬(1 : Fin Cert.ReferenceIdeal.S64x32.rank) ∈ Cert.ReferenceIdeal.dot_S16384x64_S64x32_S16384x32_1_0_0_1_n_n.rhsBatch by decide), dif_pos (show (1 : Fin Cert.ReferenceIdeal.S64x32.rank) ∈ Cert.ReferenceIdeal.dot_S16384x64_S64x32_S16384x32_1_0_0_1_n_n.rhsNonContracting by decide)]
  rfl

/-- Entry (r, k) of the left operand, entry (k, q) of the right operand. -/
abbrev lwhole1 (i : S16384x32.Idx) (k : Fin 64) : S16384x64.Idx := fun a => match a with
  | ⟨0, _⟩ => ⟨(i 0).val, (i 0).isLt⟩
  | ⟨1, _⟩ => ⟨k.val, k.isLt⟩
abbrev rwhole1 (i : S16384x32.Idx) (k : Fin 64) : S64x32.Idx := fun a => match a with
  | ⟨0, _⟩ => ⟨k.val, k.isLt⟩
  | ⟨1, _⟩ => ⟨(i 1).val, (i 1).isLt⟩

/-- The dense product of two whole arrays in one operation. -/
abbrev whole1 (A : S16384x64.Idx → EReal) (B : S64x32.Idx → EReal) : S16384x32.Idx → EReal :=
  Host.dotGeneral (F := Ideal) (φ₁ := .bf16) (φ₂ := .bf16) Cert.ReferenceIdeal.dot_S16384x64_S64x32_S16384x32_1_0_0_1_n_n none A B

/-- At an index it is the sum over the contracted axis of the products of the operands' entries. -/
theorem whole1_apply (A : S16384x64.Idx → EReal) (B : S64x32.Idx → EReal) (i : S16384x32.Idx) :
    whole1 A B i = ∑ k : Fin 64, A (lwhole1 i k) * B (rwhole1 i k) := by
  simp only [whole1, Host.dotGeneral]
  rw [Ideal.dotGeneral_apply, ← Equiv.sum_comp (ValueIdx.contrEquiv1 Cert.ReferenceIdeal.dot_S16384x64_S64x32_S16384x32_1_0_0_1_n_n 64 rfl rfl).symm]
  refine Finset.sum_congr rfl fun k _ => ?_
  have hk := ValueIdx.contrEquiv1_symm_val Cert.ReferenceIdeal.dot_S16384x64_S64x32_S16384x32_1_0_0_1_n_n 64 rfl rfl k
  have el : Cert.ReferenceIdeal.dot_S16384x64_S64x32_S16384x32_1_0_0_1_n_n.lhsIdx i ((ValueIdx.contrEquiv1 Cert.ReferenceIdeal.dot_S16384x64_S64x32_S16384x32_1_0_0_1_n_n 64 rfl rfl).symm k) = lwhole1 i k := funext fun a => Fin.ext (by
    match a with
    | ⟨0, _⟩ => exact lhs_whole1_0 _ _
    | ⟨1, _⟩ => exact (lhs_whole1_1 _ _).trans hk)
  have er : Cert.ReferenceIdeal.dot_S16384x64_S64x32_S16384x32_1_0_0_1_n_n.rhsIdx i ((ValueIdx.contrEquiv1 Cert.ReferenceIdeal.dot_S16384x64_S64x32_S16384x32_1_0_0_1_n_n 64 rfl rfl).symm k) = rwhole1 i k := funext fun a => Fin.ext (by
    match a with
    | ⟨0, _⟩ => exact (rhs_whole1_0 _ _).trans hk
    | ⟨1, _⟩ => exact rhs_whole1_1 _ _)
  rw [el, er]

/-! ## A row block's product is the whole product's row block -/

/-- If `x` is rows `2048 n …` of `A` and `y` is `B`, the block product at (p, q) is the whole product at (2048 n + p, q). -/
theorem blockProd1_eq (A : S16384x64.Idx → EReal) (B : S64x32.Idx → EReal)
    (x : Vec Ideal S2048x64 .bf16) (y : Vec Ideal S64x32 .bf16) (n : Nat)
    (hx : ∀ (p : S2048x64.Idx) (r : S16384x64.Idx), (r 0).val = n * 2048 + (p 0).val → (r 1).val = (p 1).val → x p = A r)
    (hy : ∀ p : S64x32.Idx, y p = B p)
    (j : S2048x32.Idx) (i : S16384x32.Idx) (h0 : (i 0).val = n * 2048 + (j 0).val) (h1 : (i 1).val = (j 1).val) :
    k1_pay1 (F := Ideal) x y j = whole1 A B i := by
  rw [pay1_apply, whole1_apply]
  refine Finset.sum_congr rfl fun k _ => ?_
  rw [hx (lblk1 j k) (lwhole1 i k) h0 rfl, hy]
  congr 2
  funext a
  apply Fin.ext
  match a with
  | ⟨0, _⟩ => rfl
  | ⟨1, _⟩ => exact h1.symm

/-! ## From the row blocks to the array -/

theorem hz1 : (![0, 0] : Fin 2 → Nat) = fun _ => 0 := funext fun a => by fin_cases a <;> rfl

/-- The index maps over the grid: point `t` takes row block `t` of the left operand and of the result, and the
    whole right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is row block `t` of the whole product of the two arrays the region is entered with. -/
theorem flushed1_eq (c : Dev nD) (t : Fin cfg1.N) :
    (dat1 (F := Ideal) V c).flushed 2 t
      = ((cfg1.win 2).blk t).view.read (Elt Ideal) (whole1 (V c main_v51) (V c main_v52)) := by
  show (cfg1.win 2).cut (grid1.coords t) ((dat1 V c).after 2 t) = _
  rw [dat1_after2]
  unfold prod1
  rw [View.canon_unit_zero hz1]
  simp only [View.ld_unit_zero (S := S2048x64) hz1, View.ld_unit_zero (S := S64x32) hz1]
  obtain ⟨e0, e1, e2, e3, e4, e5⟩ := idx_facts1 t
  funext j
  show k1_pay1 (blk1 V c 0 t) (blk1 V c 1 t) j = whole1 (V c main_v51) (V c main_v52) (((cfg1.win 2).blk t).view.emb j)
  refine blockProd1_eq _ _ _ _ t.val ?_ ?_ j _ ?_ ?_
  · intro p r h0 h1
    show V c main_v51 (((cfg1.win 0).blk t).view.emb p) = V c main_v51 r
    refine congrArg _ (funext fun a => Fin.ext ?_)
    match a with
    | ⟨0, _⟩ => show win1_0.index t (0 : Fin 2) * 2048 + 1 * (p 0).val = (r 0).val; omega
    | ⟨1, _⟩ => show win1_0.index t (1 : Fin 2) * 64 + 1 * (p 1).val = (r 1).val; omega
  · intro p
    show V c main_v52 (((cfg1.win 1).blk t).view.emb p) = V c main_v52 p
    refine congrArg _ (funext fun a => Fin.ext ?_)
    match a with
    | ⟨0, _⟩ => show win1_1.index t (0 : Fin 2) * 64 + 1 * (p 0).val = (p 0).val; omega
    | ⟨1, _⟩ => show win1_1.index t (1 : Fin 2) * 32 + 1 * (p 1).val = (p 1).val; omega
  · show win1_2.index t (0 : Fin 2) * 2048 + 1 * (j 0).val = t.val * 2048 + (j 0).val; omega
  · show win1_2.index t (1 : Fin 2) * 32 + 1 * (j 1).val = (j 1).val; omega

/-- An index of the result array is in point `t`'s block iff each coordinate is in the block's range on its axis. -/
theorem mem_blk1 (t : Fin cfg1.N) (i : S16384x32.Idx) :
    i ∈ ((cfg1.win 2).blk t).view.set ↔ ∀ a : Fin 2, win1_2.index t a * S2048x32.size a ≤ (i a).val ∧ (i a).val < win1_2.index t a * S2048x32.size a + S2048x32.size a := by
  show i ∈ ((View.whole main_v53).slice (win1_2.rect t)).set ↔ _
  rw [View.set_slice_whole, Rect.mem_set_unit]
  exact Iff.rfl

/-- Row `r` is in the block of point `r / 2048`, which writes its block back. -/
theorem cover1 (i : S16384x32.Idx) :
    ∃ t : Fin cfg1.N, (cfg1.win 2).flush t = true ∧ i ∈ ((cfg1.win 2).blk t).view.set := by
  have hi0 : (i 0).val < 16384 := (i 0).isLt
  have hi1 : (i 1).val < 32 := (i 1).isLt
  have hN : cfg1.N = 8 := N_1
  obtain ⟨t, ht⟩ : ∃ t : Fin cfg1.N, t.val = (i 0).val / 2048 := ⟨⟨(i 0).val / 2048, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 32 ≤ (i 1).val ∧ (i 1).val < win1_2.index t (1 : Fin 2) * 32 + 32; omega

/-- After all the write-backs the result array is the whole product of the two arrays the region is entered with. -/
theorem prod_array1 (c : Dev nD) :
    (dat1 (F := Ideal) V c).arrAt 2 cfg1.N = whole1 (V c main_v51) (V c main_v52) :=
  (dat1 V c).arrAt_eq_of_cover 2 (whole1 (V c main_v51) (V c main_v52)) (fun t _ => flushed1_eq V c t) cover1

end

/-- At the exact instance the product kernel's result array is ONE dense product of the two arrays it was entered with
    (the row blocks' products, written back block by block, tile the array; each entry is the same sum over the
    contracted axis as the whole product's). -/
theorem res1_eq (c : Dev nD) :
    res1 (F := Ideal) m c
      = (Host.dotGeneral (F := Ideal) (φ₁ := .bf16) (φ₂ := .bf16) Cert.ReferenceIdeal.dot_S16384x64_S64x32_S16384x32_1_0_0_1_n_n none
          (Y7 m c main_v51) (Y7 m c main_v52) : S16384x32.Idx → EReal) := by
  unfold res1
  exact prod_array1 (atTc (Y7 m)) c

end Cert.KernelIdeal.Hand

end
-- ==== Proof.Value2.lean ====
import proofs.«177673_j27152783245647_1_alg».proof.Proof.Fold
import proofs.«177673_j27152783245647_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## One row block's product at an index -/

/-- The block product's operand indices at output index `i` and contraction index `q`, axis by axis. -/
theorem lhs_blk2_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_blk2_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_blk2_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_blk2_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- Entry (p, k) of a row block of the left operand, entry (k, q) of the right operand. -/
abbrev lblk2 (i : S2048x32.Idx) (k : Fin 64) : S2048x64.Idx := fun a => match a with
  | ⟨0, _⟩ => ⟨(i 0).val, (i 0).isLt⟩
  | ⟨1, _⟩ => ⟨k.val, k.isLt⟩
abbrev rblk2 (i : S2048x32.Idx) (k : Fin 64) : S64x32.Idx := fun a => match a with
  | ⟨0, _⟩ => ⟨k.val, k.isLt⟩
  | ⟨1, _⟩ => ⟨(i 1).val, (i 1).isLt⟩

/-- The body's payload at an index: the sum over the contracted axis of the products of the two blocks' entries. -/
theorem pay2_apply (x : Vec Ideal S2048x64 .bf16) (y : Vec Ideal S64x32 .bf16) (i : S2048x32.Idx) :
    k2_pay1 (F := Ideal) x y i = ∑ k : Fin 64, x (lblk2 i k) * y (rblk2 i k) := by
  unfold k2_pay1
  simp only [shapeCast_self, matmul]
  rw [Ideal.matmul_constant_zero_apply, ← Equiv.sum_comp (ValueIdx.contrEquiv1 dot_S2048x64_S64x32_S2048x32_1_0_0_1_n_n 64 rfl rfl).symm]
  refine Finset.sum_congr rfl fun k _ => ?_
  have hk := ValueIdx.contrEquiv1_symm_val dot_S2048x64_S64x32_S2048x32_1_0_0_1_n_n 64 rfl rfl k
  have el : dot_S2048x64_S64x32_S2048x32_1_0_0_1_n_n.lhsIdx i ((ValueIdx.contrEquiv1 dot_S2048x64_S64x32_S2048x32_1_0_0_1_n_n 64 rfl rfl).symm k) = lblk2 i k := funext fun a => Fin.ext (by
    match a with
    | ⟨0, _⟩ => exact lhs_blk2_0 _ _
    | ⟨1, _⟩ => exact (lhs_blk2_1 _ _).trans hk)
  have er : dot_S2048x64_S64x32_S2048x32_1_0_0_1_n_n.rhsIdx i ((ValueIdx.contrEquiv1 dot_S2048x64_S64x32_S2048x32_1_0_0_1_n_n 64 rfl rfl).symm k) = rblk2 i k := funext fun a => Fin.ext (by
    match a with
    | ⟨0, _⟩ => exact (rhs_blk2_0 _ _).trans hk
    | ⟨1, _⟩ => exact rhs_blk2_1 _ _)
  rw [el, er]

/-! ## The whole product at an index -/

theorem lhs_whole2_0 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.lhsIdx i q 0).val = (i 0).val := by
  unfold DotDims.lhsIdx
  rw [dif_neg (show ¬(0 : Fin Cert.ReferenceIdeal.S16384x64.rank) ∈ Cert.ReferenceIdeal.dot_S16384x64_S64x32_S16384x32_1_0_0_1_n_n.lhsBatch by decide), dif_pos (show (0 : Fin Cert.ReferenceIdeal.S16384x64.rank) ∈ Cert.ReferenceIdeal.dot_S16384x64_S64x32_S16384x32_1_0_0_1_n_n.lhsNonContracting by decide)]
  rfl
theorem lhs_whole2_1 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.lhsIdx i q 1).val = (q ⟨0, by decide⟩).val :=
  Cert.ReferenceIdeal.dot_S16384x64_S64x32_S16384x32_1_0_0_1_n_n.lhsIdx_val_of_single rfl i q
theorem rhs_whole2_0 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.rhsIdx i q 0).val = (q ⟨0, by decide⟩).val :=
  Cert.ReferenceIdeal.dot_S16384x64_S64x32_S16384x32_1_0_0_1_n_n.rhsIdx_val_of_single rfl i q
theorem rhs_whole2_1 (i : Cert.ReferenceIdeal.S16384x32.Idx) (q : Cert.ReferenceIdeal.dot_S16384x64_S64x32_S16384x32_1_0_0_1_n_n.contr.Idx) :
    (Cert.ReferenceIdeal.dot_S16384x64_S64x32_S16384x32_1_0_0_1_n_n.rhsIdx i q 1).val = (i 1).val := by
  unfold DotDims.rhsIdx
  rw [dif_neg (show ¬(1 : Fin Cert.ReferenceIdeal.S64x32.rank) ∈ Cert.ReferenceIdeal.dot_S16384x64_S64x32_S16384x32_1_0_0_1_n_n.rhsBatch by decide), dif_pos (show (1 : Fin Cert.ReferenceIdeal.S64x32.rank) ∈ Cert.ReferenceIdeal.dot_S16384x64_S64x32_S16384x32_1_0_0_1_n_n.rhsNonContracting by decide)]
  rfl

/-- Entry (r, k) of the left operand, entry (k, q) of the right operand. -/
abbrev lwhole2 (i : S16384x32.Idx) (k : Fin 64) : S16384x64.Idx := fun a => match a with
  | ⟨0, _⟩ => ⟨(i 0).val, (i 0).isLt⟩
  | ⟨1, _⟩ => ⟨k.val, k.isLt⟩
abbrev rwhole2 (i : S16384x32.Idx) (k : Fin 64) : S64x32.Idx := fun a => match a with
  | ⟨0, _⟩ => ⟨k.val, k.isLt⟩
  | ⟨1, _⟩ => ⟨(i 1).val, (i 1).isLt⟩

/-- The dense product of two whole arrays in one operation. -/
abbrev whole2 (A : S16384x64.Idx → EReal) (B : S64x32.Idx → EReal) : S16384x32.Idx → EReal :=
  Host.dotGeneral (F := Ideal) (φ₁ := .bf16) (φ₂ := .bf16) Cert.ReferenceIdeal.dot_S16384x64_S64x32_S16384x32_1_0_0_1_n_n none A B

/-- At an index it is the sum over the contracted axis of the products of the operands' entries. -/
theorem whole2_apply (A : S16384x64.Idx → EReal) (B : S64x32.Idx → EReal) (i : S16384x32.Idx) :
    whole2 A B i = ∑ k : Fin 64, A (lwhole2 i k) * B (rwhole2 i k) := by
  simp only [whole2, Host.dotGeneral]
  rw [Ideal.dotGeneral_apply, ← Equiv.sum_comp (ValueIdx.contrEquiv1 Cert.ReferenceIdeal.dot_S16384x64_S64x32_S16384x32_1_0_0_1_n_n 64 rfl rfl).symm]
  refine Finset.sum_congr rfl fun k _ => ?_
  have hk := ValueIdx.contrEquiv1_symm_val Cert.ReferenceIdeal.dot_S16384x64_S64x32_S16384x32_1_0_0_1_n_n 64 rfl rfl k
  have el : Cert.ReferenceIdeal.dot_S16384x64_S64x32_S16384x32_1_0_0_1_n_n.lhsIdx i ((ValueIdx.contrEquiv1 Cert.ReferenceIdeal.dot_S16384x64_S64x32_S16384x32_1_0_0_1_n_n 64 rfl rfl).symm k) = lwhole2 i k := funext fun a => Fin.ext (by
    match a with
    | ⟨0, _⟩ => exact lhs_whole2_0 _ _
    | ⟨1, _⟩ => exact (lhs_whole2_1 _ _).trans hk)
  have er : Cert.ReferenceIdeal.dot_S16384x64_S64x32_S16384x32_1_0_0_1_n_n.rhsIdx i ((ValueIdx.contrEquiv1 Cert.ReferenceIdeal.dot_S16384x64_S64x32_S16384x32_1_0_0_1_n_n 64 rfl rfl).symm k) = rwhole2 i k := funext fun a => Fin.ext (by
    match a with
    | ⟨0, _⟩ => exact (rhs_whole2_0 _ _).trans hk
    | ⟨1, _⟩ => exact rhs_whole2_1 _ _)
  rw [el, er]

/-! ## A row block's product is the whole product's row block -/

/-- If `x` is rows `2048 n …` of `A` and `y` is `B`, the block product at (p, q) is the whole product at (2048 n + p, q). -/
theorem blockProd2_eq (A : S16384x64.Idx → EReal) (B : S64x32.Idx → EReal)
    (x : Vec Ideal S2048x64 .bf16) (y : Vec Ideal S64x32 .bf16) (n : Nat)
    (hx : ∀ (p : S2048x64.Idx) (r : S16384x64.Idx), (r 0).val = n * 2048 + (p 0).val → (r 1).val = (p 1).val → x p = A r)
    (hy : ∀ p : S64x32.Idx, y p = B p)
    (j : S2048x32.Idx) (i : S16384x32.Idx) (h0 : (i 0).val = n * 2048 + (j 0).val) (h1 : (i 1).val = (j 1).val) :
    k2_pay1 (F := Ideal) x y j = whole2 A B i := by
  rw [pay2_apply, whole2_apply]
  refine Finset.sum_congr rfl fun k _ => ?_
  rw [hx (lblk2 j k) (lwhole2 i k) h0 rfl, hy]
  congr 2
  funext a
  apply Fin.ext
  match a with
  | ⟨0, _⟩ => rfl
  | ⟨1, _⟩ => exact h1.symm

/-! ## From the row blocks to the array -/

theorem hz2 : (![0, 0] : Fin 2 → Nat) = fun _ => 0 := funext fun a => by fin_cases a <;> rfl

/-- The index maps over the grid: point `t` takes row block `t` of the left operand and of the result, and the
    whole right operand. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point `t` writes back is row block `t` of the whole product of the two arrays the region is entered with. -/
theorem flushed2_eq (c : Dev nD) (t : Fin cfg2.N) :
    (dat2 (F := Ideal) V c).flushed 2 t
      = ((cfg2.win 2).blk t).view.read (Elt Ideal) (whole2 (V c main_v70) (V c main_v71)) := by
  show (cfg2.win 2).cut (grid2.coords t) ((dat2 V c).after 2 t) = _
  rw [dat2_after2]
  unfold prod2
  rw [View.canon_unit_zero hz2]
  simp only [View.ld_unit_zero (S := S2048x64) hz2, View.ld_unit_zero (S := S64x32) hz2]
  obtain ⟨e0, e1, e2, e3, e4, e5⟩ := idx_facts2 t
  funext j
  show k2_pay1 (blk2 V c 0 t) (blk2 V c 1 t) j = whole2 (V c main_v70) (V c main_v71) (((cfg2.win 2).blk t).view.emb j)
  refine blockProd2_eq _ _ _ _ t.val ?_ ?_ j _ ?_ ?_
  · intro p r h0 h1
    show V c main_v70 (((cfg2.win 0).blk t).view.emb p) = V c main_v70 r
    refine congrArg _ (funext fun a => Fin.ext ?_)
    match a with
    | ⟨0, _⟩ => show win2_0.index t (0 : Fin 2) * 2048 + 1 * (p 0).val = (r 0).val; omega
    | ⟨1, _⟩ => show win2_0.index t (1 : Fin 2) * 64 + 1 * (p 1).val = (r 1).val; omega
  · intro p
    show V c main_v71 (((cfg2.win 1).blk t).view.emb p) = V c main_v71 p
    refine congrArg _ (funext fun a => Fin.ext ?_)
    match a with
    | ⟨0, _⟩ => show win2_1.index t (0 : Fin 2) * 64 + 1 * (p 0).val = (p 0).val; omega
    | ⟨1, _⟩ => show win2_1.index t (1 : Fin 2) * 32 + 1 * (p 1).val = (p 1).val; omega
  · show win2_2.index t (0 : Fin 2) * 2048 + 1 * (j 0).val = t.val * 2048 + (j 0).val; omega
  · show win2_2.index t (1 : Fin 2) * 32 + 1 * (j 1).val = (j 1).val; omega

/-- An index of the result array is in point `t`'s block iff each coordinate is in the block's range on its axis. -/
theorem mem_blk2 (t : Fin cfg2.N) (i : S16384x32.Idx) :
    i ∈ ((cfg2.win 2).blk t).view.set ↔ ∀ a : Fin 2, win2_2.index t a * S2048x32.size a ≤ (i a).val ∧ (i a).val < win2_2.index t a * S2048x32.size a + S2048x32.size a := by
  show i ∈ ((View.whole main_v72).slice (win2_2.rect t)).set ↔ _
  rw [View.set_slice_whole, Rect.mem_set_unit]
  exact Iff.rfl

/-- Row `r` is in the block of point `r / 2048`, which writes its block back. -/
theorem cover2 (i : S16384x32.Idx) :
    ∃ t : Fin cfg2.N, (cfg2.win 2).flush t = true ∧ i ∈ ((cfg2.win 2).blk t).view.set := by
  have hi0 : (i 0).val < 16384 := (i 0).isLt
  have hi1 : (i 1).val < 32 := (i 1).isLt
  have hN : cfg2.N = 8 := N_2
  obtain ⟨t, ht⟩ : ∃ t : Fin cfg2.N, t.val = (i 0).val / 2048 := ⟨⟨(i 0).val / 2048, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 32 ≤ (i 1).val ∧ (i 1).val < win2_2.index t (1 : Fin 2) * 32 + 32; omega

/-- After all the write-backs the result array is the whole product of the two arrays the region is entered with. -/
theorem prod_array2 (c : Dev nD) :
    (dat2 (F := Ideal) V c).arrAt 2 cfg2.N = whole2 (V c main_v70) (V c main_v71) :=
  (dat2 V c).arrAt_eq_of_cover 2 (whole2 (V c main_v70) (V c main_v71)) (fun t _ => flushed2_eq V c t) cover2

end

/-- At the exact instance the product kernel's result array is ONE dense product of the two arrays it was entered with
    (the row blocks' products, written back block by block, tile the array; each entry is the same sum over the
    contracted axis as the whole product's). -/
theorem res2_eq (c : Dev nD) :
    res2 (F := Ideal) m c
      = (Host.dotGeneral (F := Ideal) (φ₁ := .bf16) (φ₂ := .bf16) Cert.ReferenceIdeal.dot_S16384x64_S64x32_S16384x32_1_0_0_1_n_n none
          (Y9 m c main_v70) (Y9 m c main_v71) : S16384x32.Idx → EReal) := by
  unfold res2
  exact prod_array2 (atTc (Y9 m)) c

end Cert.KernelIdeal.Hand

end
-- ==== Proof.Value3.lean ====
import proofs.«177673_j27152783245647_1_alg».proof.Proof.Fold
import proofs.«177673_j27152783245647_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ)

/-! ## One tile: the logistic function of the inner products of two row blocks -/

/-- The tile product's left operand is read at the tile's row, -/
theorem mm3_lhs_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
/-- and at the summation index; -/
theorem mm3_lhs_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
/-- the right operand, contracted on ITS second axis too, at the tile's column -/
theorem mm3_rhs_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
/-- and at the summation index. -/
theorem mm3_rhs_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- Entry (p, q) of the tile: the logistic function of the inner product of row p of the first block with row q of the second. -/
theorem pay3_apply (x y : Vec Ideal S1024x32 .bf16) (p q : Fin 1024) :
    k3_pay1 (F := Ideal) x y (ix2 p q) = Ideal.logistic (∑ k : Fin 32, x (ix2 p k) * y (ix2 q k)) := by
  unfold k3_pay1
  show Ideal.logistic (matmul (F := Ideal) dot_S1024x32_S1024x32_S1024x1024_1_1_0_0_n_n none (shapeCast S1024x32 x shapeCasts_S1024x32_S1024x32) (shapeCast S1024x32 y shapeCasts_S1024x32_S1024x32) (constant (F := Ideal) S1024x1024 .f32 0x00000000#32) (ix2 p q)) = _
  rw [shapeCast_self, shapeCast_self]
  congr 1
  simp only [matmul]
  rw [Ideal.matmul_constant_zero_apply, ← Equiv.sum_comp (contrEquiv1 dot_S1024x32_S1024x32_S1024x1024_1_1_0_0_n_n 32 rfl rfl).symm]
  refine Finset.sum_congr rfl fun k _ => ?_
  have hk := contrEquiv1_symm_val dot_S1024x32_S1024x32_S1024x1024_1_1_0_0_n_n 32 rfl rfl k
  have el : dot_S1024x32_S1024x32_S1024x1024_1_1_0_0_n_n.lhsIdx (ix2 p q) ((contrEquiv1 dot_S1024x32_S1024x32_S1024x1024_1_1_0_0_n_n 32 rfl rfl).symm k) = ix2 p k := funext fun a => Fin.ext (by
    match a with
    | ⟨0, _⟩ => exact mm3_lhs_0 _ _
    | ⟨1, _⟩ => exact (mm3_lhs_1 _ _).trans hk)
  have er : dot_S1024x32_S1024x32_S1024x1024_1_1_0_0_n_n.rhsIdx (ix2 p q) ((contrEquiv1 dot_S1024x32_S1024x32_S1024x1024_1_1_0_0_n_n 32 rfl rfl).symm k) = ix2 q k := funext fun a => Fin.ext (by
    match a with
    | ⟨0, _⟩ => exact mm3_rhs_0 _ _
    | ⟨1, _⟩ => exact (mm3_rhs_1 _ _).trans hk)
  rw [el, er]

theorem hz3 : (![0, 0] : Fin 2 → Nat) = fun _ => 0 := funext fun a => by fin_cases a <;> rfl

/-- The body's one store covers the output buffer: what it leaves there is the payload of the two loaded blocks. -/
theorem tile3_eq {F : FTy → Type} [FloatOps F] (x y : Vec F S1024x32 .bf16) : tile3 x y = k3_pay1 x y := by
  unfold tile3
  rw [View.canon_unit_zero hz3]
  simp only [View.ld_unit_zero (S := S1024x32) hz3]

/-! ## From tiles to the array -/

/-- The whole result: entry (r, s) is the logistic function of the inner product of rows r and s of the array. -/
def G3 (z : S16384x32.Idx → EReal) : S16384x16384.Idx → EReal :=
  fun i => Ideal.logistic (∑ k : Fin 32, z (ix2 (i 0) k) * z (ix2 (i 1) k))

/-- The index maps over the 256 grid points: point t = 16 i + j reads row block i through the first window, row block j
    through the second, and writes tile (i, j). -/
theorem idx3_facts : ∀ t : Fin cfg3.N,
    win3_0.index t (0 : Fin 2) = t.val / 16 ∧ win3_0.index t (1 : Fin 2) = 0
    ∧ win3_1.index t (0 : Fin 2) = t.val % 16 ∧ win3_1.index t (1 : Fin 2) = 0
    ∧ win3_2.index t (0 : Fin 2) = t.val / 16 ∧ win3_2.index t (1 : Fin 2) = t.val % 16 :=
  (by decide +kernel : ∀ t : Fin grid3.N, _)

section
variable (V : (c : Dev nD) → (b : Ref sig .tc) → Buf (Elt Ideal) ((c : Thread nD τ).loc b))

/-- What grid point t writes back is block t of the whole result: both input blocks are row blocks of the ONE array. -/
theorem flushed3_eq (c : Dev nD) (t : Fin cfg3.N) :
    (dat3 (F := Ideal) V c).flushed 2 t = ((cfg3.win 2).blk t).view.read (Elt Ideal) (G3 (V c main_v92)) := by
  show (cfg3.win 2).cut (grid3.coords t) ((dat3 V c).after 2 t) = _
  rw [dat3_after2, tile3_eq]
  obtain ⟨e00, e01, e10, e11, e20, e21⟩ := idx3_facts t
  funext j
  have hp : (j 0).val < 1024 := (j 0).isLt
  have hq : (j 1).val < 1024 := (j 1).isLt
  have hx : ((cfg3.win 2).xinj (grid3.coords t) j : S1024x1024.Idx) = ix2 ⟨(j 0).val, hp⟩ ⟨(j 1).val, hq⟩ :=
    funext fun a => by match a with | ⟨0, _⟩ => rfl | ⟨1, _⟩ => rfl
  show k3_pay1 (blk3 V c 0 t) (blk3 V c 1 t) ((cfg3.win 2).xinj (grid3.coords t) j) = G3 (V c main_v92) (((cfg3.win 2).blk t).view.emb j)
  rw [hx, pay3_apply]
  unfold G3
  congr 1
  refine Finset.sum_congr rfl fun k _ => ?_
  have h0 : ((cfg3.win 0).blk t).view.emb (ix2 ⟨(j 0).val, hp⟩ k) = ix2 ((((cfg3.win 2).blk t).view.emb j) 0) k := by
    funext a; apply Fin.ext
    match a with
    | ⟨0, _⟩ => show win3_0.index t (0 : Fin 2) * 1024 + 1 * (j 0).val = win3_2.index t (0 : Fin 2) * 1024 + 1 * (j 0).val; omega
    | ⟨1, _⟩ => show win3_0.index t (1 : Fin 2) * 32 + 1 * k.val = k.val; omega
  have h1 : ((cfg3.win 1).blk t).view.emb (ix2 ⟨(j 1).val, hq⟩ k) = ix2 ((((cfg3.win 2).blk t).view.emb j) 1) k := by
    funext a; apply Fin.ext
    match a with
    | ⟨0, _⟩ => show win3_1.index t (0 : Fin 2) * 1024 + 1 * (j 1).val = win3_2.index t (1 : Fin 2) * 1024 + 1 * (j 1).val; omega
    | ⟨1, _⟩ => show win3_1.index t (1 : Fin 2) * 32 + 1 * k.val = k.val; omega
  have hL : blk3 V c 0 t (ix2 ⟨(j 0).val, hp⟩ k) = V c main_v92 (ix2 ((((cfg3.win 2).blk t).view.emb j) 0) k) := by
    show V c main_v92 (((cfg3.win 0).blk t).view.emb (ix2 ⟨(j 0).val, hp⟩ k)) = _
    exact congrArg (fun i => V c main_v92 i) h0
  have hR : blk3 V c 1 t (ix2 ⟨(j 1).val, hq⟩ k) = V c main_v92 (ix2 ((((cfg3.win 2).blk t).view.emb j) 1) k) := by
    show V c main_v92 (((cfg3.win 1).blk t).view.emb (ix2 ⟨(j 1).val, hq⟩ k)) = _
    exact congrArg (fun i => V c main_v92 i) h1
  rw [hL, hR]

/-- An entry of the result array is in point t's tile iff each coordinate is in the tile's range on its axis. -/
theorem mem_blk3 (t : Fin cfg3.N) (i : S16384x16384.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v93).slice (win3_2.rect t)).set ↔ _
  rw [View.set_slice_whole, Rect.mem_set_unit]
  exact Iff.rfl

/-- The 256 tiles fill the array: entry (r, s) is in the tile of point 16 (r / 1024) + s / 1024. -/
theorem cover3 (i : S16384x16384.Idx) :
    ∃ t : Fin cfg3.N, (cfg3.win 2).flush t = true ∧ i ∈ ((cfg3.win 2).blk t).view.set := by
  have h0 : (i 0).val < 16384 := (i 0).isLt
  have h1 : (i 1).val < 16384 := (i 1).isLt
  have hN : cfg3.N = 256 := N_3
  obtain ⟨t, ht⟩ : ∃ t : Fin cfg3.N, t.val = 16 * ((i 0).val / 1024) + (i 1).val / 1024 := ⟨⟨_, by omega⟩, rfl⟩
  obtain ⟨-, -, -, -, e20, e21⟩ := idx3_facts t
  refine ⟨t, flush3_2 t, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- The result array after all 256 write-backs, whatever the buffers held at entry. -/
theorem arr3_eq (c : Dev nD) : (dat3 (F := Ideal) V c).arrAt 2 cfg3.N = G3 (V c main_v92) :=
  (dat3 V c).arrAt_eq_of_cover 2 (G3 (V c main_v92)) (fun t _ => flushed3_eq V c t) cover3

end

/-! ## The reference's side: one product of the array and its transpose, then 1 / (1 + exp (−·)) -/

/-- The whole product's left operand is read at the entry's row, -/
theorem ref3_lhs_0 (i : Cert.ReferenceIdeal.S16384x16384.Idx) (q : Cert.ReferenceIdeal.dot_S16384x32_S32x16384_S16384x16384_1_0_0_1_n_n.contr.Idx) :
    (Cert.ReferenceIdeal.dot_S16384x32_S32x16384_S16384x16384_1_0_0_1_n_n.lhsIdx i q 0).val = (i 0).val := by
  unfold DotDims.lhsIdx
  rw [dif_neg (show ¬(0 : Fin Cert.ReferenceIdeal.S16384x32.rank) ∈ Cert.ReferenceIdeal.dot_S16384x32_S32x16384_S16384x16384_1_0_0_1_n_n.lhsBatch by decide), dif_pos (show (0 : Fin Cert.ReferenceIdeal.S16384x32.rank) ∈ Cert.ReferenceIdeal.dot_S16384x32_S32x16384_S16384x16384_1_0_0_1_n_n.lhsNonContracting by decide)]
  rfl
/-- and at the summation index; -/
theorem ref3_lhs_1 (i : Cert.ReferenceIdeal.S16384x16384.Idx) (q : Cert.ReferenceIdeal.dot_S16384x32_S32x16384_S16384x16384_1_0_0_1_n_n.contr.Idx) :
    (Cert.ReferenceIdeal.dot_S16384x32_S32x16384_S16384x16384_1_0_0_1_n_n.lhsIdx i q 1).val = (q ⟨0, by decide⟩).val :=
  Cert.ReferenceIdeal.dot_S16384x32_S32x16384_S16384x16384_1_0_0_1_n_n.lhsIdx_val_of_single rfl i q
/-- the right operand at the summation index -/
theorem ref3_rhs_0 (i : Cert.ReferenceIdeal.S16384x16384.Idx) (q : Cert.ReferenceIdeal.dot_S16384x32_S32x16384_S16384x16384_1_0_0_1_n_n.contr.Idx) :
    (Cert.ReferenceIdeal.dot_S16384x32_S32x16384_S16384x16384_1_0_0_1_n_n.rhsIdx i q 0).val = (q ⟨0, by decide⟩).val :=
  Cert.ReferenceIdeal.dot_S16384x32_S32x16384_S16384x16384_1_0_0_1_n_n.rhsIdx_val_of_single rfl i q
/-- and at the entry's column. -/
theorem ref3_rhs_1 (i : Cert.ReferenceIdeal.S16384x16384.Idx) (q : Cert.ReferenceIdeal.dot_S16384x32_S32x16384_S16384x16384_1_0_0_1_n_n.contr.Idx) :
    (Cert.ReferenceIdeal.dot_S16384x32_S32x16384_S16384x16384_1_0_0_1_n_n.rhsIdx i q 1).val = (i 1).val := by
  unfold DotDims.rhsIdx
  rw [dif_neg (show ¬(1 : Fin Cert.ReferenceIdeal.S32x16384.rank) ∈ Cert.ReferenceIdeal.dot_S16384x32_S32x16384_S16384x16384_1_0_0_1_n_n.rhsBatch by decide), dif_pos (show (1 : Fin Cert.ReferenceIdeal.S32x16384.rank) ∈ Cert.ReferenceIdeal.dot_S16384x32_S32x16384_S16384x16384_1_0_0_1_n_n.rhsNonContracting by decide)]
  rfl

/-- Entry (r, s) of the product of the array and its transpose is the inner product of rows r and s. -/
theorem ref3_dot_apply (z : S16384x32.Idx → EReal) (i : S16384x16384.Idx) :
    Host.dotGeneral (F := Ideal) (φ₁ := .bf16) (φ₂ := .bf16) Cert.ReferenceIdeal.dot_S16384x32_S32x16384_S16384x16384_1_0_0_1_n_n none z
        (transpose Cert.ReferenceIdeal.S32x16384 [1, 0] z Cert.ReferenceIdeal.Facts₀.transposes_S16384x32_S32x16384_1_0) i
      = ∑ k : Fin 32, z (ix2 (i 0) k) * z (ix2 (i 1) k) := by
  simp only [Host.dotGeneral]
  rw [Ideal.dotGeneral_apply, ← Equiv.sum_comp (contrEquiv1 Cert.ReferenceIdeal.dot_S16384x32_S32x16384_S16384x16384_1_0_0_1_n_n 32 rfl rfl).symm]
  refine Finset.sum_congr rfl fun k _ => ?_
  have hk := contrEquiv1_symm_val Cert.ReferenceIdeal.dot_S16384x32_S32x16384_S16384x16384_1_0_0_1_n_n 32 rfl rfl k
  have el : Cert.ReferenceIdeal.dot_S16384x32_S32x16384_S16384x16384_1_0_0_1_n_n.lhsIdx i ((contrEquiv1 Cert.ReferenceIdeal.dot_S16384x32_S32x16384_S16384x16384_1_0_0_1_n_n 32 rfl rfl).symm k) = ix2 (i 0) k := funext fun a => Fin.ext (by
    match a with
    | ⟨0, _⟩ => exact ref3_lhs_0 _ _
    | ⟨1, _⟩ => exact (ref3_lhs_1 _ _).trans hk)
  have er : Cert.ReferenceIdeal.dot_S16384x32_S32x16384_S16384x16384_1_0_0_1_n_n.rhsIdx i ((contrEquiv1 Cert.ReferenceIdeal.dot_S16384x32_S32x16384_S16384x16384_1_0_0_1_n_n 32 rfl rfl).symm k) = ix2 k (i 1) := funext fun a => Fin.ext (by
    match a with
    | ⟨0, _⟩ => exact (ref3_rhs_0 _ _).trans hk
    | ⟨1, _⟩ => exact ref3_rhs_1 _ _)
  rw [el, er]
  congr 1
  exact transpose_apply [1, 0] z Cert.ReferenceIdeal.Facts₀.transposes_S16384x32_S32x16384_1_0 (ix2 k (i 1)) (ix2 (i 1) k) (fun b => match b with
    | ⟨0, _⟩ => rfl
    | ⟨1, _⟩ => rfl)

/-- The reference's term, index by index, is the whole result: its constant is 1, and 1 / (1 + exp (−s)) is the logistic function of s. -/
theorem ref3_eq (z : S16384x32.Idx → EReal) :
    (Host.divf (F := Ideal) (broadcastInDim Cert.ReferenceIdeal.S16384x16384 ![] Cert.ReferenceIdeal.Facts₀.bcast_S_S16384x16384 (constant Cert.ReferenceIdeal.S_ .f32 0x3F800000#32))
          (addf (broadcastInDim Cert.ReferenceIdeal.S16384x16384 ![] Cert.ReferenceIdeal.Facts₀.bcast_S_S16384x16384 (constant Cert.ReferenceIdeal.S_ .f32 0x3F800000#32))
            (Host.exp (Host.negf (Host.dotGeneral (φ₁ := .bf16) (φ₂ := .bf16) Cert.ReferenceIdeal.dot_S16384x32_S32x16384_S16384x16384_1_0_0_1_n_n none
              z
              (transpose Cert.ReferenceIdeal.S32x16384 [1, 0] z Cert.ReferenceIdeal.Facts₀.transposes_S16384x32_S32x16384_1_0))))) : S16384x16384.Idx → EReal)
      = G3 z := by
  funext i
  show Ideal.div (Ideal.ofBits .f32 0x3F800000#32) (Ideal.ofBits .f32 0x3F800000#32
      + Ideal.exp (-(Host.dotGeneral (F := Ideal) (φ₁ := .bf16) (φ₂ := .bf16) Cert.ReferenceIdeal.dot_S16384x32_S32x16384_S16384x16384_1_0_0_1_n_n none z
        (transpose Cert.ReferenceIdeal.S32x16384 [1, 0] z Cert.ReferenceIdeal.Facts₀.transposes_S16384x32_S32x16384_1_0) i))) = _
  have h1 : Ideal.ofBits .f32 0x3F800000#32 = 1 := IdealRules.sign_bit.ideal_onePat .f32
  rw [ref3_dot_apply, h1]
  rfl

/-- At the exact instance the decode kernel's result array is the logistic function, spelt as the quotient
    1 / (1 + exp (−s)), of ONE dense product of the array it was entered with and that array's transpose
    (tile (i, j) holds the inner products of row block i with row block j; the tiles fill the array). -/
theorem res3_eq (c : Dev nD) :
    res3 (F := Ideal) m c
      = (Host.divf (F := Ideal) (broadcastInDim Cert.ReferenceIdeal.S16384x16384 ![] Cert.ReferenceIdeal.Facts₀.bcast_S_S16384x16384 (constant Cert.ReferenceIdeal.S_ .f32 0x3F800000#32))
          (addf (broadcastInDim Cert.ReferenceIdeal.S16384x16384 ![] Cert.ReferenceIdeal.Facts₀.bcast_S_S16384x16384 (constant Cert.ReferenceIdeal.S_ .f32 0x3F800000#32))
            (Host.exp (Host.negf (Host.dotGeneral (φ₁ := .bf16) (φ₂ := .bf16) Cert.ReferenceIdeal.dot_S16384x32_S32x16384_S16384x16384_1_0_0_1_n_n none
              (Y11 m c main_v92)
              (transpose Cert.ReferenceIdeal.S32x16384 [1, 0] (Y11 m c main_v92) Cert.ReferenceIdeal.Facts₀.transposes_S16384x32_S32x16384_1_0))))) : S16384x16384.Idx → EReal) :=
  (arr3_eq (atTc (Y11 m)) c).trans (ref3_eq (Y11 m c main_v92)).symm

end Cert.KernelIdeal.Hand

end
-- ==== Proof.Bridge.lean ====
import proofs.«177673_j27152783245647_1_alg».proof.Proof.Fold
import proofs.«177673_j27152783245647_1_alg».proof.Proof.Value0
import proofs.«177673_j27152783245647_1_alg».proof.Proof.Value1
import proofs.«177673_j27152783245647_1_alg».proof.Proof.Value2
import proofs.«177673_j27152783245647_1_alg».proof.Proof.Value3
import proofs.«177673_j27152783245647_1_alg».proof.Proof.RefRun
import Idealize.ShloMosaic.PureOps.Ideal.Laws
import Idealize.ShloMosaic.Lib.StableHlo.Run

set_option maxRecDepth 16384

noncomputable section

/-! # The graph auto-encoder's layers, each as one function of the values entering it

Both programs apply the same chain of array operations around their dense products: the edge list's two rows, each
followed by one self loop per node; the symmetric normalisation `deg^(-1/2)[src] * deg^(-1/2)[dst]` of every edge; a
graph convolution (gather the rows of `h` at the edges' sources, scale by the edge weights, add them up at the edges'
targets, add the bias); the rectifier; the latent sample `mu + noise * exp logstd`; and the decoder
`1 / (1 + exp (-(z zᵀ)))`. Each is named once here, over any float family, and both programs' results are stated with
these names, so that no comparison ever opens more than one layer. -/

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the edge list, then one self loop per node. -/
def eSrc (a1 : (⟨S2x262144, .i32⟩ : BufTy).Contents (Elt F)) : (⟨S278528, .i32⟩ : BufTy).Contents (Elt F) :=
  concatenate S278528 0 [⟨S262144, (shapeCast _ (extractStridedSlice S1x262144 ![0, 0] a1 slices_S2x262144_S1x262144_0_0) shapeCasts_S1x262144_S262144)⟩, ⟨S16384, (iotaInDim S16384 32 0)⟩] concatenates_S262144_S16384_S278528_d0

/-- The edges' target nodes: row 1 of the edge list, then one self loop per node. -/
def eDst (a1 : (⟨S2x262144, .i32⟩ : BufTy).Contents (Elt F)) : (⟨S278528, .i32⟩ : BufTy).Contents (Elt F) :=
  concatenate S278528 0 [⟨S262144, (shapeCast _ (extractStridedSlice S1x262144 ![1, 0] a1 slices_S2x262144_S1x262144_1_0) shapeCasts_S1x262144_S262144)⟩, ⟨S16384, (iotaInDim S16384 32 0)⟩] concatenates_S262144_S16384_S278528_d0

/-- Every node's in-degree: a one added up at each edge's target. -/
def eDeg (d : (⟨S278528, .i32⟩ : BufTy).Contents (Elt F)) : (⟨S16384, .f32⟩ : BufTy).Contents (Elt F) :=
  Host.scatterAdd scatter_S16384_S278528x1_S278528_n_0_0_1 (broadcastInDim S16384 ![] bcast_S_S16384 (constant S_ .f32 0x00000000#32)) (broadcastInDim S278528x1 ![0] bcast_S278528_S278528x1_0 d) (broadcastInDim S278528 ![] bcast_S_S278528 (constant S_ .f32 0x3F800000#32))

/-- `deg^(-1/2)` where the degree is positive, zero elsewhere. -/
def eDis (g : (⟨S16384, .f32⟩ : BufTy).Contents (Elt F)) : (⟨S16384, .f32⟩ : BufTy).Contents (Elt F) :=
  select (cmpf (F := F) .ogt g (broadcastInDim S16384 ![] bcast_S_S16384 (constant S_ .f32 0x00000000#32))) (Host.rsqrt g) (broadcastInDim S16384 ![] bcast_S_S16384 (id (constant S_ .f32 0x00000000#32)))

/-- Node indices as a gather's index column, a negative one counted from the end. -/
def eWrap (i : (⟨S278528, .i32⟩ : BufTy).Contents (Elt F)) : (⟨S278528x1, .i32⟩ : BufTy).Contents (Elt F) :=
  broadcastInDim S278528x1 ![0] bcast_S278528_S278528x1_0 (select (cmpi .slt i (broadcastInDim S278528 ![] bcast_S_S278528 (constantI S_ 32 0#32))) (addi i (broadcastInDim S278528 ![] bcast_S_S278528 (constantI S_ 32 16384#32))) i)

/-- Every edge's weight: the normalisation at its source times the normalisation at its target. -/
def eW (s d : (⟨S278528, .i32⟩ : BufTy).Contents (Elt F)) (n : (⟨S16384, .f32⟩ : BufTy).Contents (Elt F)) : (⟨S278528, .f32⟩ : BufTy).Contents (Elt F) :=
  mulf (Host.gather gather_S16384_S278528x1_S278528_n_0_n_n_0_1_1 n (eWrap s)) (Host.gather gather_S16384_S278528x1_S278528_n_0_n_n_0_1_1 n (eWrap d))

/-- One graph convolution at width 64: `out[dst e] += w e * h[src e]` over the edges, plus the bias on every row. -/
def gcn64 (s d : (⟨S278528, .i32⟩ : BufTy).Contents (Elt F)) (w : (⟨S278528, .f32⟩ : BufTy).Contents (Elt F)) (h : (⟨S16384x64, .f32⟩ : BufTy).Contents (Elt F)) (b : (⟨S64, .f32⟩ : BufTy).Contents (Elt F)) : (⟨S16384x64, .f32⟩ : BufTy).Contents (Elt F) :=
  addf (Host.scatterAdd scatter_S16384x64_S278528x1_S278528x64_1_0_0_1 (broadcastInDim S16384x64 ![] bcast_S_S16384x64 (constant S_ .f32 0x00000000#32)) (broadcastInDim S278528x1 ![0] bcast_S278528_S278528x1_0 d) (mulf (broadcastInDim S278528x64 ![0, 1] bcast_S278528x1_S278528x64_0_1 (broadcastInDim S278528x1 ![0] bcast_S278528_S278528x1_0 w)) (Host.gather gather_S16384x64_S278528x1_S278528x64_1_0_n_n_0_1_164 h (eWrap s)))) (broadcastInDim S16384x64 ![0, 1] bcast_S1x64_S16384x64_0_1 (broadcastInDim S1x64 ![1] bcast_S64_S1x64_1 b))

/-- One graph convolution at width 32. -/
def gcn32 (s d : (⟨S278528, .i32⟩ : BufTy).Contents (Elt F)) (w : (⟨S278528, .f32⟩ : BufTy).Contents (Elt F)) (h : (⟨S16384x32, .f32⟩ : BufTy).Contents (Elt F)) (b : (⟨S32, .f32⟩ : BufTy).Contents (Elt F)) : (⟨S16384x32, .f32⟩ : BufTy).Contents (Elt F) :=
  addf (Host.scatterAdd scatter_S16384x32_S278528x1_S278528x32_1_0_0_1 (broadcastInDim S16384x32 ![] bcast_S_S16384x32 (constant S_ .f32 0x00000000#32)) (broadcastInDim S278528x1 ![0] bcast_S278528_S278528x1_0 d) (mulf (broadcastInDim S278528x32 ![0, 1] bcast_S278528x1_S278528x32_0_1 (broadcastInDim S278528x1 ![0] bcast_S278528_S278528x1_0 w)) (Host.gather gather_S16384x32_S278528x1_S278528x32_1_0_n_n_0_1_132 h (eWrap s)))) (broadcastInDim S16384x32 ![0, 1] bcast_S1x32_S16384x32_0_1 (broadcastInDim S1x32 ![1] bcast_S32_S1x32_1 b))

/-- The rectifier at width 64. -/
def relu64 (x : (⟨S16384x64, .f32⟩ : BufTy).Contents (Elt F)) : (⟨S16384x64, .f32⟩ : BufTy).Contents (Elt F) :=
  maximumf x (broadcastInDim S16384x64 ![] bcast_S_S16384x64 (constant S_ .f32 0x00000000#32))

/-- The latent sample `mu + noise * exp logstd`. -/
def latent (mu ls a8 : (⟨S16384x32, .f32⟩ : BufTy).Contents (Elt F)) : (⟨S16384x32, .f32⟩ : BufTy).Contents (Elt F) :=
  addf mu (mulf a8 (Host.exp ls))

/-- The decoder: the logistic function, spelt `1 / (1 + exp (-s))`, of all inner products `s = z zᵀ`. -/
def decodeAll (z : (⟨S16384x32, .f32⟩ : BufTy).Contents (Elt F)) : (⟨S16384x16384, .f32⟩ : BufTy).Contents (Elt F) :=
  Host.divf (broadcastInDim S16384x16384 ![] bcast_S_S16384x16384 (constant S_ .f32 0x3F800000#32)) (addf (broadcastInDim S16384x16384 ![] bcast_S_S16384x16384 (constant S_ .f32 0x3F800000#32)) (Host.exp (Host.negf (Host.dotGeneral dot_S16384x32_S32x16384_S16384x16384_1_0_0_1_n_n none z (transpose S32x16384 [1, 0] z transposes_S16384x32_S32x16384_1_0)))))

/-- The hidden layer: the rectified first convolution of `x W₁`. -/
def hid (a0 : (⟨S16384x128, .f32⟩ : BufTy).Contents (Elt F)) (a1 : (⟨S2x262144, .i32⟩ : BufTy).Contents (Elt F)) (a2 : (⟨S128x64, .f32⟩ : BufTy).Contents (Elt F)) (a3 : (⟨S64, .f32⟩ : BufTy).Contents (Elt F)) : (⟨S16384x64, .f32⟩ : BufTy).Contents (Elt F) :=
  relu64 (gcn64 (eSrc a1) (eDst a1) (eW (eSrc a1) (eDst a1) (eDis (eDeg (eDst a1)))) (Host.dotGeneral dot_S16384x128_S128x64_S16384x64_1_0_0_1_n_n none a0 a2) a3)

/-- One output head (the mean, or the log standard deviation): a convolution of `hidden W`. -/
def head (a0 : (⟨S16384x128, .f32⟩ : BufTy).Contents (Elt F)) (a1 : (⟨S2x262144, .i32⟩ : BufTy).Contents (Elt F)) (a2 : (⟨S128x64, .f32⟩ : BufTy).Contents (Elt F)) (a3 : (⟨S64, .f32⟩ : BufTy).Contents (Elt F)) (w : (⟨S64x32, .f32⟩ : BufTy).Contents (Elt F)) (b : (⟨S32, .f32⟩ : BufTy).Contents (Elt F)) : (⟨S16384x32, .f32⟩ : BufTy).Contents (Elt F) :=
  gcn32 (eSrc a1) (eDst a1) (eW (eSrc a1) (eDst a1) (eDis (eDeg (eDst a1)))) (Host.dotGeneral dot_S16384x64_S64x32_S16384x32_1_0_0_1_n_n none (hid a0 a1 a2 a3) w) b

end Cert.ReferenceIdeal.Layers

namespace Cert.ReferenceIdeal.Layers
open Cert.ReferenceIdeal Cert.ReferenceIdeal.Gen Idealize.ShloMosaic Idealize.ShloMosaic.TcCoe Idealize.SL.Sem Idealize.ShloMosaic.StableHlo
variable {F : FTy → Type} [FloatOps F]

/-! ## The reference program's three results in these names -/

/-- The reference's mean is the first head. -/
theorem ref65 (m : (ℓ : Loc nD τ sig) → Buf (Elt F) ℓ) (c : Dev nD) :
    RunP.res_main_v65 m c = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold RunP.res_main_v65
  rfl

/-- The reference's log standard deviation is the second head. -/
theorem ref82 (m : (ℓ : Loc nD τ sig) → Buf (Elt F) ℓ) (c : Dev nD) :
    RunP.res_main_v82 m c = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold RunP.res_main_v82
  rfl

/-- The reference's adjacency estimate is the decoder of the latent sample built from its own two heads. -/
theorem ref93 (m : (ℓ : Loc nD τ sig) → Buf (Elt F) ℓ) (c : Dev nD) :
    RunP.res_main_v93 m c = decodeAll (latent (RunP.res_main_v65 m c) (RunP.res_main_v82 m c) (m ((c.tc : Thread nD τ).loc main_arg8))) := by
  unfold RunP.res_main_v93
  rfl

end Cert.ReferenceIdeal.Layers

namespace Cert.KernelIdeal.Hand

open Idealize.ShloMosaic Idealize.ShloMosaic.TcCoe
open Idealize.SL Idealize.SL.Sem
open Cert.KernelIdeal Cert.KernelIdeal.Gen
open Cert.ReferenceIdeal.Layers

/-! # What each stretch of array operations leaves, over any contents it starts from

The kernel program interleaves four kernel launches with stretches of array operations. Reading a buffer after a
stretch, from arbitrary starting contents `W` and with each launch's result array an arbitrary value `x0 x1 x2`, gives
one layer applied to what `W` holds at the stretch's inputs. -/

section Generic

variable {F : FTy → Type} [FloatOps F]

/-- A buffer just overwritten holds the new value. -/
theorem upd_self' (V : Valuation τ sig (Elt F)) (y : Ref sig .tc) (x : (Proc.devRef .tc y : DevRef τ sig).ty.Contents (Elt F)) :
    Function.update V (Proc.devRef .tc y) x (no_index (Proc.devRef .tc y)) = x := by
  rw [Function.update_self]

/-- Overwriting one buffer leaves every other as it was. -/
theorem upd_ne' (V : Valuation τ sig (Elt F)) (y : Ref sig .tc) (x : (Proc.devRef .tc y : DevRef τ sig).ty.Contents (Elt F))
    {r : Ref sig .tc} (h : r ≠ y) :
    Function.update V (Proc.devRef .tc y) x (no_index (Proc.devRef .tc r)) = V (Proc.devRef .tc r) := by
  rw [Function.update_of_ne (StableHlo.devRef_ne_of_ne h)]

/-- Reads a buffer through a fold of operation lists and overwritten buffers, in one pass. -/
macro "read_fold" : tactic =>
  `(tactic| (simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne',
      StableHlo.nary_result_ne', StableHlo.unaryIndexed_result_ne', StableHlo.binaryIndexed_result_ne',
      upd_self', upd_ne']))

variable (W : Valuation τ sig (Elt F))

/-! ## Before the first product: the edges, their weights, the first product's operands -/

theorem A_v3 : StableHlo.after hostOps0_2 (StableHlo.after hostOps0_1 (StableHlo.after hostOps0 W)) (Proc.devRef .tc main_v3) = eSrc (W main_arg1) := by
  read_fold <;> rfl

theorem A_v7 : StableHlo.after hostOps0_2 (StableHlo.after hostOps0_1 (StableHlo.after hostOps0 W)) (Proc.devRef .tc main_v7) = eDst (W main_arg1) := by
  read_fold <;> rfl

theorem A_v30 : StableHlo.after hostOps0_2 (StableHlo.after hostOps0_1 (StableHlo.after hostOps0 W)) (Proc.devRef .tc main_v30)
    = eW (eSrc (W main_arg1)) (eDst (W main_arg1)) (eDis (eDeg (eDst (W main_arg1)))) := by
  read_fold <;> rfl

theorem A_v31 : StableHlo.after hostOps0_2 (StableHlo.after hostOps0_1 (StableHlo.after hostOps0 W)) (Proc.devRef .tc main_v31) = truncf .bf16 (W main_arg0) bitsLt_bf16_f32 := by
  read_fold <;> rfl

theorem A_v32 : StableHlo.after hostOps0_2 (StableHlo.after hostOps0_1 (StableHlo.after hostOps0 W)) (Proc.devRef .tc main_v32) = truncf .bf16 (W main_arg2) bitsLt_bf16_f32 := by
  read_fold <;> rfl

/-- A buffer none of the leading operations writes keeps its contents. -/
theorem A_of {r : Ref sig .tc} (h0 : r ∉ hostOps0_W) (h1 : r ∉ hostOps0_1_W) (h2 : r ∉ hostOps0_2_W) :
    StableHlo.after hostOps0_2 (StableHlo.after hostOps0_1 (StableHlo.after hostOps0 W)) (Proc.devRef .tc r) = W (Proc.devRef .tc r) := by
  rw [StableHlo.after_of_writes_sub hostOps0_2 _ hostOps0_2_writes h2,
    StableHlo.after_of_writes_sub hostOps0_1 _ hostOps0_1_writes h1,
    StableHlo.after_of_writes_sub hostOps0 _ hostOps0_writes h0]

/-! ## Between the first and the second product: the hidden layer -/

theorem B_v51 (x0 : (⟨S16384x64, .f32⟩ : BufTy).Contents (Elt F)) :
    StableHlo.after hostOps1_2 (StableHlo.after hostOps1_1 (StableHlo.after hostOps1 (Function.update W main_v33 x0))) (Proc.devRef .tc main_v51)
      = truncf .bf16 (relu64 (gcn64 (W main_v3) (W main_v7) (W main_v30) x0 (W main_arg3))) bitsLt_bf16_f32 := by
  read_fold <;> rfl

theorem B_v52 (x0 : (⟨S16384x64, .f32⟩ : BufTy).Contents (Elt F)) :
    StableHlo.after hostOps1_2 (StableHlo.after hostOps1_1 (StableHlo.after hostOps1 (Function.update W main_v33 x0))) (Proc.devRef .tc main_v52) = truncf .bf16 (W main_arg4) bitsLt_bf16_f32 := by
  read_fold <;> rfl

/-! ## Between the second and the third product -/

theorem C_v70 (x0 : (⟨S16384x64, .f32⟩ : BufTy).Contents (Elt F)) (x1 : (⟨S16384x32, .f32⟩ : BufTy).Contents (Elt F)) :
    StableHlo.after hostOps2 (Function.update (StableHlo.after hostOps1_2 (StableHlo.after hostOps1_1 (StableHlo.after hostOps1 (Function.update W main_v33 x0)))) main_v53 x1) (Proc.devRef .tc main_v70)
      = truncf .bf16 (relu64 (gcn64 (W main_v3) (W main_v7) (W main_v30) x0 (W main_arg3))) bitsLt_bf16_f32 := by
  read_fold <;> rfl

theorem C_v71 (x0 : (⟨S16384x64, .f32⟩ : BufTy).Contents (Elt F)) (x1 : (⟨S16384x32, .f32⟩ : BufTy).Contents (Elt F)) :
    StableHlo.after hostOps2 (Function.update (StableHlo.after hostOps1_2 (StableHlo.after hostOps1_1 (StableHlo.after hostOps1 (Function.update W main_v33 x0)))) main_v53 x1) (Proc.devRef .tc main_v71) = truncf .bf16 (W main_arg6) bitsLt_bf16_f32 := by
  read_fold <;> rfl

/-! ## Before the decoder: the two heads and the latent sample -/

theorem D_v69 (x0 : (⟨S16384x64, .f32⟩ : BufTy).Contents (Elt F)) (x1 x2 : (⟨S16384x32, .f32⟩ : BufTy).Contents (Elt F)) :
    StableHlo.after hostOps3 (Function.update (StableHlo.after hostOps2 (Function.update (StableHlo.after hostOps1_2 (StableHlo.after hostOps1_1 (StableHlo.after hostOps1 (Function.update W main_v33 x0)))) main_v53 x1)) main_v72 x2) (Proc.devRef .tc main_v69) = gcn32 (W main_v3) (W main_v7) (W main_v30) x1 (W main_arg5) := by
  read_fold <;> rfl

theorem D_v88 (x0 : (⟨S16384x64, .f32⟩ : BufTy).Contents (Elt F)) (x1 x2 : (⟨S16384x32, .f32⟩ : BufTy).Contents (Elt F)) :
    StableHlo.after hostOps3 (Function.update (StableHlo.after hostOps2 (Function.update (StableHlo.after hostOps1_2 (StableHlo.after hostOps1_1 (StableHlo.after hostOps1 (Function.update W main_v33 x0)))) main_v53 x1)) main_v72 x2) (Proc.devRef .tc main_v88) = gcn32 (W main_v3) (W main_v7) (W main_v30) x2 (W main_arg7) := by
  read_fold <;> rfl

theorem D_v92 (x0 : (⟨S16384x64, .f32⟩ : BufTy).Contents (Elt F)) (x1 x2 : (⟨S16384x32, .f32⟩ : BufTy).Contents (Elt F)) :
    StableHlo.after hostOps3 (Function.update (StableHlo.after hostOps2 (Function.update (StableHlo.after hostOps1_2 (StableHlo.after hostOps1_1 (StableHlo.after hostOps1 (Function.update W main_v33 x0)))) main_v53 x1)) main_v72 x2) (Proc.devRef .tc main_v92)
      = truncf .bf16 (latent (gcn32 (W main_v3) (W main_v7) (W main_v30) x1 (W main_arg5)) (gcn32 (W main_v3) (W main_v7) (W main_v30) x2 (W main_arg7)) (W main_arg8)) bitsLt_bf16_f32 := by
  read_fold <;> rfl

end Generic

/-! # The fold at the exact instance

At the exact instance narrowing to sixteen bits is the identity and a dense product does not depend on the width its
operands are declared at, so each launch's result array, which is the dense product of the arrays the launch was entered
with, is the reference's product of the same values; stretch by stretch the fold then holds the reference's layers of
the nine arguments. -/

section AtIdeal

variable (m : (ℓ : Loc nD τ sig) → Buf (Elt Ideal) ℓ) (c : Dev nD)

/-- At the exact instance narrowing an array to sixteen bits changes nothing. -/
theorem trunc_id {s : Shape} (x : s.Idx → EReal) (h : FTy.bits .bf16 < FTy.bits .f32) :
    (truncf (F := Ideal) (φ := .f32) .bf16 x h : s.Idx → EReal) = x := rfl

/-! ## Before the first product -/

theorem y3_v3 : Y3 m c main_v3 = eSrc (F := Ideal) (m ((c.tc : Thread nD τ).loc main_arg1)) := A_v3 (Gen.V0 m c)
theorem y3_v7 : Y3 m c main_v7 = eDst (F := Ideal) (m ((c.tc : Thread nD τ).loc main_arg1)) := A_v7 (Gen.V0 m c)
theorem y3_v30 : Y3 m c main_v30
    = eW (F := Ideal) (eSrc (m ((c.tc : Thread nD τ).loc main_arg1))) (eDst (m ((c.tc : Thread nD τ).loc main_arg1))) (eDis (eDeg (eDst (m ((c.tc : Thread nD τ).loc main_arg1))))) := A_v30 (Gen.V0 m c)
theorem y3_v31 : (Y3 m c main_v31 : S16384x128.Idx → EReal) = (m ((c.tc : Thread nD τ).loc main_arg0)) :=
  (A_v31 (Gen.V0 m c)).trans (trunc_id _ _)
theorem y3_v32 : (Y3 m c main_v32 : S128x64.Idx → EReal) = (m ((c.tc : Thread nD τ).loc main_arg2)) :=
  (A_v32 (Gen.V0 m c)).trans (trunc_id _ _)
theorem y3_arg3 : Y3 m c main_arg3 = (m ((c.tc : Thread nD τ).loc main_arg3)) :=
  A_of (Gen.V0 m c) (by decide) (by decide) (by decide)
theorem y3_arg4 : Y3 m c main_arg4 = (m ((c.tc : Thread nD τ).loc main_arg4)) :=
  A_of (Gen.V0 m c) (by decide) (by decide) (by decide)
theorem y3_arg5 : Y3 m c main_arg5 = (m ((c.tc : Thread nD τ).loc main_arg5)) :=
  A_of (Gen.V0 m c) (by decide) (by decide) (by decide)
theorem y3_arg6 : Y3 m c main_arg6 = (m ((c.tc : Thread nD τ).loc main_arg6)) :=
  A_of (Gen.V0 m c) (by decide) (by decide) (by decide)
theorem y3_arg7 : Y3 m c main_arg7 = (m ((c.tc : Thread nD τ).loc main_arg7)) :=
  A_of (Gen.V0 m c) (by decide) (by decide) (by decide)
theorem y3_arg8 : Y3 m c main_arg8 = (m ((c.tc : Thread nD τ).loc main_arg8)) :=
  A_of (Gen.V0 m c) (by decide) (by decide) (by decide)

/-- The first launch's result is the reference's first product `x W₁`. -/
theorem r0 : (res0 (F := Ideal) m c : S16384x64.Idx → EReal) = Host.dotGeneral (F := Ideal) (φ₁ := .f32) (φ₂ := .f32) Cert.ReferenceIdeal.dot_S16384x128_S128x64_S16384x64_1_0_0_1_n_n none (m ((c.tc : Thread nD τ).loc main_arg0)) (m ((c.tc : Thread nD τ).loc main_arg2)) := by
  rw [res0_eq, y3_v31 m c, y3_v32 m c]
  rfl

/-! ## The hidden layer and the second product -/

theorem y7_v51 : (Y7 m c main_v51 : S16384x64.Idx → EReal) = (hid (F := Ideal) (m ((c.tc : Thread nD τ).loc main_arg0)) (m ((c.tc : Thread nD τ).loc main_arg1)) (m ((c.tc : Thread nD τ).loc main_arg2)) (m ((c.tc : Thread nD τ).loc main_arg3))) := by
  refine (B_v51 (Y3 m c) (res0 m c)).trans ?_
  rw [trunc_id, y3_v3 m c, y3_v7 m c, y3_v30 m c, y3_arg3 m c, r0 m c]
  rfl

theorem y7_v52 : (Y7 m c main_v52 : S64x32.Idx → EReal) = (m ((c.tc : Thread nD τ).loc main_arg4)) := by
  refine (B_v52 (Y3 m c) (res0 m c)).trans ?_
  rw [trunc_id, y3_arg4 m c]

/-- The second launch's result is the reference's product `hidden W_mu`. -/
theorem r1 : (res1 (F := Ideal) m c : S16384x32.Idx → EReal) = Host.dotGeneral (F := Ideal) (φ₁ := .f32) (φ₂ := .f32) Cert.ReferenceIdeal.dot_S16384x64_S64x32_S16384x32_1_0_0_1_n_n none (hid (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [res1_eq, y7_v51 m c, y7_v52 m c]
  rfl

/-! ## The third product -/

theorem y9_v70 : (Y9 m c main_v70 : S16384x64.Idx → EReal) = (hid (F := Ideal) (m ((c.tc : Thread nD τ).loc main_arg0)) (m ((c.tc : Thread nD τ).loc main_arg1)) (m ((c.tc : Thread nD τ).loc main_arg2)) (m ((c.tc : Thread nD τ).loc main_arg3))) := by
  refine (C_v70 (Y3 m c) (res0 m c) (res1 m c)).trans ?_
  rw [trunc_id, y3_v3 m c, y3_v7 m c, y3_v30 m c, y3_arg3 m c, r0 m c]
  rfl

theorem y9_v71 : (Y9 m c main_v71 : S64x32.Idx → EReal) = (m ((c.tc : Thread nD τ).loc main_arg6)) := by
  refine (C_v71 (Y3 m c) (res0 m c) (res1 m c)).trans ?_
  rw [trunc_id, y3_arg6 m c]

/-- The third launch's result is the reference's product `hidden W_logstd`. -/
theorem r2 : (res2 (F := Ideal) m c : S16384x32.Idx → EReal) = Host.dotGeneral (F := Ideal) (φ₁ := .f32) (φ₂ := .f32) Cert.ReferenceIdeal.dot_S16384x64_S64x32_S16384x32_1_0_0_1_n_n none (hid (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) := by
  rw [res2_eq, y9_v70 m c, y9_v71 m c]
  rfl

/-! ## The two heads, the latent sample, the decoder -/

theorem y11_v69 : (Y11 m c main_v69 : S16384x32.Idx → EReal) = (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (D_v69 (Y3 m c) (res0 m c) (res1 m c) (res2 m c)).trans ?_
  rw [y3_v3 m c, y3_v7 m c, y3_v30 m c, y3_arg5 m c, r1 m c]
  rfl

theorem y11_v88 : (Y11 m c main_v88 : S16384x32.Idx → EReal) = (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  refine (D_v88 (Y3 m c) (res0 m c) (res1 m c) (res2 m c)).trans ?_
  rw [y3_v3 m c, y3_v7 m c, y3_v30 m c, y3_arg7 m c, r2 m c]
  rfl

theorem y11_v92 : (Y11 m c main_v92 : S16384x32.Idx → EReal) = (latent (F := Ideal) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8))) := by
  refine (D_v92 (Y3 m c) (res0 m c) (res1 m c) (res2 m c)).trans ?_
  rw [trunc_id, y3_v3 m c, y3_v7 m c, y3_v30 m c, y3_arg5 m c, y3_arg7 m c, y3_arg8 m c, r1 m c, r2 m c]
  rfl

/-- The decode launch's result is the reference's decoder of the latent sample. -/
theorem r3 : (res3 (F := Ideal) m c : S16384x16384.Idx → EReal) = decodeAll (F := Ideal) (latent (F := Ideal) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8))) := by
  rw [res3_eq, y11_v92 m c]
  rfl

theorem y12_v93 : (Y12 m c main_v93 : S16384x16384.Idx → EReal) = decodeAll (F := Ideal) (latent (F := Ideal) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8))) := by
  refine Eq.trans ?_ (r3 m c)
  exact Function.update_self _ _ _

theorem y12_v69 : (Y12 m c main_v69 : S16384x32.Idx → EReal) = (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine Eq.trans ?_ (y11_v69 m c)
  exact Function.update_of_ne (StableHlo.devRef_ne_of_ne (by decide)) _ _

theorem y12_v88 : (Y12 m c main_v88 : S16384x32.Idx → EReal) = (head (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  refine Eq.trans ?_ (y11_v88 m c)
  exact Function.update_of_ne (StableHlo.devRef_ne_of_ne (by decide)) _ _

end AtIdeal

/-- The three results the kernel program's fold ends with are the reference program's three composed terms of the
    arguments, for memories that agree on the nine arguments. -/
theorem fold_results
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    (Y12 m c main_v93 : S16384x16384.Idx → EReal) = Cert.ReferenceIdeal.RunP.res_main_v93 (F := Ideal) m' c
    ∧ (Y12 m c main_v69 : S16384x32.Idx → EReal) = Cert.ReferenceIdeal.RunP.res_main_v65 (F := Ideal) m' c
    ∧ (Y12 m c main_v88 : S16384x32.Idx → EReal) = Cert.ReferenceIdeal.RunP.res_main_v82 (F := Ideal) m' c := by
  obtain ⟨h0, h1, h2, h3, h4, h5, h6, h7, h8⟩ := hagree c
  refine ⟨?_, ?_, ?_⟩
  · rw [Cert.ReferenceIdeal.Layers.ref93 (F := Ideal) m' c, Cert.ReferenceIdeal.Layers.ref65 (F := Ideal) m' c,
      Cert.ReferenceIdeal.Layers.ref82 (F := Ideal) m' c, h0, h1, h2, h3, h4, h5, h6, h7, h8]
    exact y12_v93 m c
  · rw [Cert.ReferenceIdeal.Layers.ref65 (F := Ideal) m' c, h0, h1, h2, h3, h4, h5]
    exact y12_v69 m c
  · rw [Cert.ReferenceIdeal.Layers.ref82 (F := Ideal) m' c, h0, h1, h2, h3, h6, h7]
    exact y12_v88 m c

end Cert.KernelIdeal.Hand

end
-- ==== Proof.lean ====
/- The certificate's claim, assembled.

   Both programs compute a graph auto-encoder: edge weights from the degrees, three graph-convolution layers (a dense
   product, a gather along the edges scaled by the edge weight, a scatter-add at the targets, a bias), a
   reparameterisation z = mu + eps * exp(logstd), and the decode 1 / (1 + exp (-(z zᵀ))). The kernel program computes
   each of the three dense products, and the decode, in a Pallas kernel (row blocks of the product; tiles of the decode);
   the reference computes them in one host operation each. Over the extended reals a product computed block by block is
   the whole product entry by entry, a change of float format is the identity, and the logistic function is its spelling
   as a quotient, so the two programs' results are equal; every host operation between the kernels is the same in both.
   The frames: each kernel region runs from the buffers' contents the host operations before it leave, and hands its
   result array to the operations after it; the arguments are written by nothing. -/
import proofs.«177673_j27152783245647_1_alg».proof.Defs
import proofs.«177673_j27152783245647_1_alg».proof.Proof.Gen.Kernel
import proofs.«177673_j27152783245647_1_alg».proof.Proof.Gen.KernelIdeal
import proofs.«177673_j27152783245647_1_alg».proof.Proof.Gen.ReferenceIdeal
import proofs.«177673_j27152783245647_1_alg».proof.Proof.Gen.Pre_finite_inputs
import proofs.«177673_j27152783245647_1_alg».proof.Proof.KAssemble
import proofs.«177673_j27152783245647_1_alg».proof.Proof.RunFold
import proofs.«177673_j27152783245647_1_alg».proof.Proof.Bridge
import proofs.«177673_j27152783245647_1_alg».proof.Proof.RefRun

set_option maxRecDepth 16384

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame m ρ
/-- So does the idealized one. -/
theorem frame_ki : Cert.frame_KernelIdeal := fun m ρ _ => Cert.KernelIdeal.Hand.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.RunP.run (F := Ideal) m ρ)

/-- An unscoped TensorCore reference is among those the fold tracks. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- From memories that agree on the arguments the two idealized programs end with the same three results: the
    reference's composed terms, which the kernel program's fold of buffer contents also ends at. -/
theorem algebraic : Cert.algebraic_KernelIdeal_ReferenceIdeal := by
  intro m ρ m' ρ' _ hagree
  refine ⟨fun c => Cert.ReferenceIdeal.RunP.res_main_v93 (F := Ideal) m' c, fun c => Cert.ReferenceIdeal.RunP.res_main_v65 (F := Ideal) m' c,
    fun c => Cert.ReferenceIdeal.RunP.res_main_v82 (F := Ideal) m' c, ?_, Cert.ReferenceIdeal.RunP.run (F := Ideal) m' ρ'⟩
  refine (θ_run Cert.KernelIdeal.defs _ _).mono (fun r h c => ?_) (Cert.KernelIdeal.Hand.run_fold m ρ)
  have hb := Cert.KernelIdeal.Hand.fold_results m m' hagree c
  exact ⟨(h c _ (mem_uc Cert.KernelIdeal.main_v93 (by decide))).trans hb.1,
      (h c _ (mem_uc Cert.KernelIdeal.main_v69 (by decide))).trans hb.2.1,
      (h c _ (mem_uc Cert.KernelIdeal.main_v88 (by decide))).trans hb.2.2,
      (h c _ (mem_uc Cert.KernelIdeal.main_arg0 (by decide))).trans ((congrFun (Cert.KernelIdeal.Hand.V12_eq m c) _).symm.trans (Cert.KernelIdeal.Gen.V12_main_arg0 m (Cert.KernelIdeal.Hand.outs m) c)),
      (h c _ (mem_uc Cert.KernelIdeal.main_arg1 (by decide))).trans ((congrFun (Cert.KernelIdeal.Hand.V12_eq m c) _).symm.trans (Cert.KernelIdeal.Gen.V12_main_arg1 m (Cert.KernelIdeal.Hand.outs m) c)),
      (h c _ (mem_uc Cert.KernelIdeal.main_arg2 (by decide))).trans ((congrFun (Cert.KernelIdeal.Hand.V12_eq m c) _).symm.trans (Cert.KernelIdeal.Gen.V12_main_arg2 m (Cert.KernelIdeal.Hand.outs m) c)),
      (h c _ (mem_uc Cert.KernelIdeal.main_arg3 (by decide))).trans ((congrFun (Cert.KernelIdeal.Hand.V12_eq m c) _).symm.trans (Cert.KernelIdeal.Gen.V12_main_arg3 m (Cert.KernelIdeal.Hand.outs m) c)),
      (h c _ (mem_uc Cert.KernelIdeal.main_arg4 (by decide))).trans ((congrFun (Cert.KernelIdeal.Hand.V12_eq m c) _).symm.trans (Cert.KernelIdeal.Gen.V12_main_arg4 m (Cert.KernelIdeal.Hand.outs m) c)),
      (h c _ (mem_uc Cert.KernelIdeal.main_arg5 (by decide))).trans ((congrFun (Cert.KernelIdeal.Hand.V12_eq m c) _).symm.trans (Cert.KernelIdeal.Gen.V12_main_arg5 m (Cert.KernelIdeal.Hand.outs m) c)),
      (h c _ (mem_uc Cert.KernelIdeal.main_arg6 (by decide))).trans ((congrFun (Cert.KernelIdeal.Hand.V12_eq m c) _).symm.trans (Cert.KernelIdeal.Gen.V12_main_arg6 m (Cert.KernelIdeal.Hand.outs m) c)),
      (h c _ (mem_uc Cert.KernelIdeal.main_arg7 (by decide))).trans ((congrFun (Cert.KernelIdeal.Hand.V12_eq m c) _).symm.trans (Cert.KernelIdeal.Gen.V12_main_arg7 m (Cert.KernelIdeal.Hand.outs m) c)),
      (h c _ (mem_uc Cert.KernelIdeal.main_arg8 (by decide))).trans ((congrFun (Cert.KernelIdeal.Hand.V12_eq m c) _).symm.trans (Cert.KernelIdeal.Gen.V12_main_arg8 m (Cert.KernelIdeal.Hand.outs m) c))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
